-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v130)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x1 : Shape := ⟨2, ![100000, 1]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg2 : IVec S2x1600000 32) (main_arg5 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S_ .f32 := Host.absf main_arg5
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  let main_c_8 : IVec S_ 32 := constantI S_ 32 0#32
  let main_v23 : IVec S2x1600000 32 := broadcastInDim S2x1600000 ![] bcast_S_S2x1600000 main_c_8
  let main_v24 : IVec S2x1600000 1 := cmpi .sge main_arg2 main_v23
  let main_c_9 : IVec S_ 32 := constantI S_ 32 100000#32
  let main_v25 : IVec S2x1600000 32 := broadcastInDim S2x1600000 ![] bcast_S_S2x1600000 main_c_9
  let main_v26 : IVec S2x1600000 1 := cmpi .slt main_arg2 main_v25
  let main_v27 : IVec S2x1600000 1 := andi main_v24 main_v26
  let main_c_10 : IVec S_ 1 := constantI S_ 1 1#1
  let main_v28 : IVec S_ 1 := (fun x v => Host.reduce IntOp.andi x v reducesTo_S2x1600000_S_d0_1 h_S_) main_v27 main_c_10
  let main_v29 : IVec S_ 1 := andi main_v22 main_v28
  main_v29

def fn {F : FTy → Type} [FloatOps F] (main_arg0 : FVec F S100000x128 .f32) (main_arg1 : FVec F S100000x1 .f32) (main_arg2 : IVec S2x1600000 32) (main_arg3 : FVec F S128x128 .f32) (main_arg4 : FVec F S128 .f32) (main_arg5 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_v13 main_v16
-- ==== Kernel.lean ====
abbrev S100000x128 : Shape := ⟨2, ![100000, 128]⟩
abbrev S100000x1 : Shape := ⟨2, ![100000, 1]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩
abbrev S128x1 : Shape := ⟨2, ![128, 1]⟩
abbrev S128x100000 : Shape := ⟨2, ![128, 100000]⟩
abbrev S6400x128 : Shape := ⟨2, ![6400, 128]⟩
abbrev S128x6400 : Shape := ⟨2, ![128, 6400]⟩
abbrev S1600000x1 : Shape := ⟨2, ![1600000, 1]⟩
abbrev S1 : Shape := ⟨1, ![1]⟩
abbrev S1x1 : Shape := ⟨2, ![1, 1]⟩
abbrev S128x1600000 : Shape := ⟨2, ![128, 1600000]⟩
abbrev S1x6400 : Shape := ⟨2, ![1, 6400]⟩
abbrev S6400 : Shape := ⟨1, ![6400]⟩
abbrev S100000 : Shape := ⟨1, ![100000]⟩
abbrev S1700000 : Shape := ⟨1, ![1700000]⟩
abbrev S1700000x1 : Shape := ⟨2, ![1700000, 1]⟩

abbrev nBuf : Space → Nat
  | .hbm => 214
  | .vmem => 12
  | .smem => 0
  | _ => 0

abbrev hbmTy0_0 (i : Nat) : BufTy := match i % 128 with
  | 0 => ⟨S100000x128, .f32⟩
  | 1 => ⟨S100000x1, .f32⟩
  | 2 => ⟨S2x1600000, .i32⟩
  | 3 => ⟨S128x128, .f32⟩
  | 4 => ⟨S128, .f32⟩
  | 5 => ⟨S_, .f32⟩
  | 6 => ⟨S1x1600000, .i32⟩
  | 7 => ⟨S1600000, .i32⟩
  | 8 => ⟨S1x1600000, .i32⟩
  | 9 => ⟨S1600000, .i32⟩
  | 10 => ⟨S128x1, .f32⟩
  | 11 => ⟨S128x100000, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1, .i32⟩
  | 21 => ⟨S_, .i32⟩
  | 22 => ⟨S1600000x1, .i32⟩
  | 23 => ⟨S1600000x1, .i1⟩
  | 24 => ⟨S1x1, .i32⟩
  | 25 => ⟨S1600000x1, .i32⟩
  | 26 => ⟨S1600000x1, .i1⟩
  | 27 => ⟨S1600000x1, .i1⟩
  | 28 => ⟨S_, .i1⟩
  | 29 => ⟨S1600000, .i1⟩
  | 30 => ⟨S128x1600000, .f32⟩
  | 31 => ⟨S128x1600000, .i1⟩
  | 32 => ⟨S_, .f32⟩
  | 33 => ⟨S128x1600000, .f32⟩
  | 34 => ⟨S128x1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1, .i32⟩
  | 44 => ⟨S_, .i32⟩
  | 45 => ⟨S1600000x1, .i32⟩
  | 46 => ⟨S1600000x1, .i1⟩
  | 47 => ⟨S1x1, .i32⟩
  | 48 => ⟨S1600000x1, .i32⟩
  | 49 => ⟨S1600000x1, .i1⟩
  | 50 => ⟨S1600000x1, .i1⟩
  | 51 => ⟨S_, .i1⟩
  | 52 => ⟨S1600000, .i1⟩
  | 53 => ⟨S128x1600000, .f32⟩
  | 54 => ⟨S128x1600000, .i1⟩
  | 55 => ⟨S_, .f32⟩
  | 56 => ⟨S128x1600000, .f32⟩
  | 57 => ⟨S128x1600000, .f32⟩
  | 58 => ⟨S1x1600000, .f32⟩
  | 59 => ⟨S1600000, .f32⟩
  | 60 => ⟨S_, .f32⟩
  | 61 => ⟨S100000x1, .f32⟩
  | 62 => ⟨S100000x1, .f32⟩
  | 63 => ⟨S100000, .i32⟩
  | 64 => ⟨S1700000, .i32⟩
  | 65 => ⟨S1700000, .i32⟩
  | 66 => ⟨S_, .f32⟩
  | 67 => ⟨S100000, .f32⟩
  | 68 => ⟨S1700000, .f32⟩
  | 69 => ⟨S_, .f32⟩
  | 70 => ⟨S100000, .f32⟩
  | 71 => ⟨S1700000x1, .i32⟩
  | 72 => ⟨S100000, .f32⟩
  | 73 => ⟨S_, .f32⟩
  | 74 => ⟨S100000, .f32⟩
  | 75 => ⟨S100000, .i1⟩
  | 76 => ⟨S_, .f32⟩
  | 77 => ⟨S100000, .f32⟩
  | 78 => ⟨S100000, .f32⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S1700000x1, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x1, .f32⟩
  | 114 => ⟨S1700000x1, .f32⟩
  | 115 => ⟨S_, .f32⟩
  | 116 => ⟨S100000x1, .f32⟩
  | 117 => ⟨S1700000x1, .i32⟩
  | 118 => ⟨S100000x1, .f32⟩
  | 119 => ⟨S_, .f32⟩
  | 120 => ⟨S_, .f32⟩
  | 121 => ⟨S100000x1, .f32⟩
  | 122 => ⟨S100000x1, .f32⟩
  | 123 => ⟨S100000x1, .f32⟩
  | 124 => ⟨S100000x1, .f32⟩
  | 125 => ⟨S100000x1, .f32⟩
  | 126 => ⟨S1700000x1, .f32⟩
  | 127 => ⟨S_, .i32⟩
  | _ => ⟨S100000x128, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000x1, .f32⟩
  | 8 => ⟨S1700000x1, .f32⟩
  | 9 => ⟨S_, .f32⟩
  | 10 => ⟨S100000x1, .f32⟩
  | 11 => ⟨S1700000x1, .i32⟩
  | 12 => ⟨S100000x1, .f32⟩
  | 13 => ⟨S_, .f32⟩
  | 14 => ⟨S_, .f32⟩
  | 15 => ⟨S100000x1, .f32⟩
  | 16 => ⟨S100000x1, .f32⟩
  | 17 => ⟨S100000x1, .f32⟩
  | 18 => ⟨S100000x1, .f32⟩
  | 19 => ⟨S100000x1, .f32⟩
  | 20 => ⟨S1700000x1, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S1700000x1, .f32⟩
  | 30 => ⟨S1700000x1, .f32⟩
  | 31 => ⟨S_, .f32⟩
  | 32 => ⟨S100000x1, .f32⟩
  | 33 => ⟨S1700000x1, .i32⟩
  | 34 => ⟨S100000x1, .f32⟩
  | 35 => ⟨S_, .f32⟩
  | 36 => ⟨S_, .f32⟩
  | 37 => ⟨S100000x1, .f32⟩
  | 38 => ⟨S100000x1, .f32⟩
  | 39 => ⟨S100000x1, .f32⟩
  | 40 => ⟨S100000x1, .f32⟩
  | 41 => ⟨S100000x1, .f32⟩
  | 42 => ⟨S1700000x1, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000x1, .f32⟩
  | 52 => ⟨S1700000x1, .f32⟩
  | 53 => ⟨S_, .f32⟩
  | 54 => ⟨S100000x1, .f32⟩
  | 55 => ⟨S1700000x1, .i32⟩
  | 56 => ⟨S100000x1, .f32⟩
  | 57 => ⟨S_, .f32⟩
  | 58 => ⟨S_, .f32⟩
  | 59 => ⟨S100000x1, .f32⟩
  | 60 => ⟨S100000x1, .f32⟩
  | 61 => ⟨S100000x1, .f32⟩
  | 62 => ⟨S100000x1, .f32⟩
  | 63 => ⟨S100000x1, .f32⟩
  | 64 => ⟨S1700000x1, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000x1, .f32⟩
  | 74 => ⟨S1700000x1, .f32⟩
  | 75 => ⟨S_, .f32⟩
  | 76 => ⟨S100000x1, .f32⟩
  | 77 => ⟨S1700000x1, .i32⟩
  | 78 => ⟨S100000x1, .f32⟩
  | 79 => ⟨S_, .f32⟩
  | 80 => ⟨S_, .f32⟩
  | 81 => ⟨S100000x1, .f32⟩
  | 82 => ⟨S100000x1, .f32⟩
  | 83 => ⟨S100000x1, .f32⟩
  | 84 => ⟨S100000x1, .f32⟩
  | 85 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S6400x128, .f32⟩
  | .local _ .vmem, ⟨1, _⟩ => ⟨S6400x128, .f32⟩
  | .local _ .vmem, ⟨2, _⟩ => ⟨S128x128, .f32⟩
  | .local _ .vmem, ⟨3, _⟩ => ⟨S128x1, .f32⟩
  | .local _ .vmem, ⟨4, _⟩ => ⟨S128x6400, .f32⟩
  | .local _ .vmem, ⟨5, _⟩ => ⟨S128x6400, .f32⟩
  | .local _ .vmem, ⟨6, _⟩ => ⟨S128x6400, .f32⟩
  | .local _ .vmem, ⟨7, _⟩ => ⟨S128x6400, .f32⟩
  | .local _ .vmem, ⟨8, _⟩ => ⟨S128x6400, .f32⟩
  | .local _ .vmem, ⟨9, _⟩ => ⟨S128x6400, .f32⟩
  | .local _ .vmem, ⟨10, _⟩ => ⟨S1x6400, .f32⟩
  | .local _ .vmem, ⟨11, _⟩ => ⟨S1x6400, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v6 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_call2_cst : Ref sig .tc := ⟨.hbm, 60, rfl⟩
abbrev main_call2_v0 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_cst : Ref sig .tc := ⟨.hbm, 66, rfl⟩
abbrev main_v14 : Ref sig .tc := ⟨.hbm, 67, rfl⟩
abbrev main_v15 : Ref sig .tc := ⟨.hbm, 68, rfl⟩
abbrev main_cst_0 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_cst_1 : Ref sig .tc := ⟨.hbm, 73, rfl⟩
abbrev main_v19 : Ref sig .tc := ⟨.hbm, 74, rfl⟩
abbrev main_v20 : Ref sig .tc := ⟨.hbm, 75, rfl⟩
abbrev main_cst_2 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_cst_3 : Ref sig .tc := ⟨.hbm, 80, rfl⟩
abbrev main_call3_v0 : Ref sig .tc := ⟨.hbm, 81, rfl⟩
abbrev main_call3_v1 : Ref sig .tc := ⟨.hbm, 82, rfl⟩
abbrev main_v24 : Ref sig .tc := ⟨.hbm, 83, rfl⟩
abbrev main_c : Ref sig .tc := ⟨.hbm, 84, rfl⟩
abbrev main_v25 : Ref sig .tc := ⟨.hbm, 85, rfl⟩
abbrev main_v26 : Ref sig .tc := ⟨.hbm, 86, rfl⟩
abbrev main_c_4 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_c_5 : Ref sig .tc := ⟨.hbm, 94, rfl⟩
abbrev main_v33 : Ref sig .tc := ⟨.hbm, 95, rfl⟩
abbrev main_v34 : Ref sig .tc := ⟨.hbm, 96, rfl⟩
abbrev main_c_6 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_c_7 : Ref sig .tc := ⟨.hbm, 105, rfl⟩
abbrev main_v42 : Ref sig .tc := ⟨.hbm, 106, rfl⟩
abbrev main_v43 : Ref sig .tc := ⟨.hbm, 107, rfl⟩
abbrev main_c_8 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_cst_9 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_cst_10 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_c_11 : Ref sig .tc := ⟨.hbm, 127, rfl⟩
abbrev main_v60 : Ref sig .tc := ⟨.hbm, 128, rfl⟩
abbrev main_v61 : Ref sig .tc := ⟨.hbm, 129, rfl⟩
abbrev main_c_12 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_cst_13 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_cst_14 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_c_15 : Ref sig .tc := ⟨.hbm, 149, rfl⟩
abbrev main_v78 : Ref sig .tc := ⟨.hbm, 150, rfl⟩
abbrev main_v79 : Ref sig .tc := ⟨.hbm, 151, rfl⟩
abbrev main_c_16 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_cst_17 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_cst_18 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_c_19 : Ref sig .tc := ⟨.hbm, 171, rfl⟩
abbrev main_v96 : Ref sig .tc := ⟨.hbm, 172, rfl⟩
abbrev main_v97 : Ref sig .tc := ⟨.hbm, 173, rfl⟩
abbrev main_c_20 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_cst_21 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_cst_22 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_c_23 : Ref sig .tc := ⟨.hbm, 193, rfl⟩
abbrev main_v114 : Ref sig .tc := ⟨.hbm, 194, rfl⟩
abbrev main_v115 : Ref sig .tc := ⟨.hbm, 195, rfl⟩
abbrev main_c_24 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_cst_25 : Ref sig .tc := ⟨.hbm, 203, rfl⟩
abbrev main_v122 : Ref sig .tc := ⟨.hbm, 204, rfl⟩
abbrev main_v123 : Ref sig .tc := ⟨.hbm, 205, rfl⟩
abbrev main_v124 : Ref sig .tc := ⟨.hbm, 206, rfl⟩
abbrev main_cst_26 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_v129 : Ref sig .tc := ⟨.hbm, 212, rfl⟩
abbrev main_v130 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x6400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S128x6400 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x6400 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x6400 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S128x1 : S128.ShapeCasts S128x1
  inb_S6400x128_S6400x128_0_0 : ∀ a, (![0, 0] : Fin 2 → Nat) a + S6400x128.size a ≤ S6400x128.size a
  h_S6400x128 : 0 < S6400x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x6400 : S128x1.Broadcasts S128x6400
  inb_S128x6400_S128x6400_0_0 : ∀ a, (![0, 0] : Fin 2 → Nat) a + S128x6400.size a ≤ S128x6400.size a
  h_S128x6400 : 0 < S128x6400.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S128x1600000_1 : S1600000.BroadcastsInDim S128x1600000 (![1] : Fin 1 → Fin S128x1600000.rank)
  bcast_S_S128x1600000 : S_.BroadcastsInDim S128x1600000 (![] : Fin 0 → Fin S128x1600000.rank)
  shapeCasts_S128x6400_S128x6400 : S128x6400.ShapeCasts S128x6400
  reduces_S128x6400_S6400 : S128x6400.Reduces [0] S6400
  shapeCasts_S6400_S1x6400 : S6400.ShapeCasts S1x6400
  inb_S1x6400_S1x6400_0_0 : ∀ a, (![0, 0] : Fin 2 → Nat) a + S1x6400.size a ≤ S1x6400.size a
  h_S1x6400 : 0 < S1x6400.numel
  bcast_S_S100000x1 : S_.BroadcastsInDim S100000x1 (![] : Fin 0 → Fin S100000x1.rank)
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  dot_S128x128_S6400x128_S128x6400_1_1_0_0_n_n_wf : DotDims.WF S128x128 S6400x128 S128x6400 [1] [1] [0] [0] [] []
  gather_S128x100000_S1600000x1_S128x1600000_0_1_n_n_1_1_1281_wf : GatherDims.WF S128x100000 S1600000x1 S128x1600000 [0] [1] [] [1] [] 1 ![128, 1]
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S6400x128.size a < S100000x128.size a
  hwx0_0 : ∀ i : grid0.Coords, EltTy.bits .f32 = 32 ∨ (Rect.unit (s := S100000x128) (fun a => cc0_transform_0 i a * S6400x128.size a) (fun a => (Pipeline.Clip.of (cc0_transform_0 i a) (S6400x128.size a) (S100000x128.size a)).extent (S6400x128.size a)) fun a => Pipeline.Clip.inb (Pipeline.Clip.ok_of (hstart0_0 i a))).WholeWords (EltTy.packing .f32)
  hwxs0_0 : ∀ i : grid0.Coords, EltTy.bits .f32 = 32 ∨ (Rect.unit (s := S6400x128) (fun _ => 0) (fun a => (Pipeline.Clip.of (cc0_transform_0 i a) (S6400x128.size a) (S100000x128.size a)).extent (S6400x128.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S128x6400.size a < S128x100000.size a
  hwx0_3 : ∀ i : grid0.Coords, EltTy.bits .f32 = 32 ∨ (Rect.unit (s := S128x100000) (fun a => cc0_transform_3 i a * S128x6400.size a) (fun a => (Pipeline.Clip.of (cc0_transform_3 i a) (S128x6400.size a) (S128x100000.size a)).extent (S128x6400.size a)) fun a => Pipeline.Clip.inb (Pipeline.Clip.ok_of (hstart0_3 i a))).WholeWords (EltTy.packing .f32)
  hwxs0_3 : ∀ i : grid0.Coords, EltTy.bits .f32 = 32 ∨ (Rect.unit (s := S128x6400) (fun _ => 0) (fun a => (Pipeline.Clip.of (cc0_transform_3 i a) (S128x6400.size a) (S128x100000.size a)).extent (S128x6400.size a)) fun a => (Nat.zero_add _).trans_le (Pipeline.Clip.extent_le (Pipeline.Clip.ok_of (hstart0_3 i a)))).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x6400.size a ≤ S128x1600000.size a
  hwx1_0 : ∀ i : grid1.Coords, EltTy.bits .f32 = 32 ∨ (Rect.block (s := S128x1600000) S128x6400.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x6400.size a ≤ S128x1600000.size a
  hwx1_1 : ∀ i : grid1.Coords, EltTy.bits .f32 = 32 ∨ (Rect.block (s := S128x1600000) S128x6400.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x6400.size a ≤ S1x1600000.size a
  hwx1_2 : ∀ i : grid1.Coords, EltTy.bits .f32 = 32 ∨ (Rect.block (s := S1x1600000) S1x6400.size (cc1_transform_2 i) (hinb1_2 i)).WholeWords (EltTy.packing .f32)

variable [Facts₀]

def dot_S128x128_S6400x128_S128x6400_1_1_0_0_n_n : DotDims S128x128 S6400x128 S128x6400 where
  lhsContracting := [1]
  rhsContracting := [1]
  lhsNonContracting := [0]
  rhsNonContracting := [0]
  lhsBatch := []
  rhsBatch := []
  wf := dot_S128x128_S6400x128_S128x6400_1_1_0_0_n_n_wf
def gather_S128x100000_S1600000x1_S128x1600000_0_1_n_n_1_1_1281 : GatherDims S128x100000 S1600000x1 S128x1600000 where
  offsetDims := [0]
  collapsedSliceDims := [1]
  operandBatchingDims := []
  startIndicesBatchingDims := []
  startIndexMap := [1]
  indexVectorDim := 1
  sliceSizes := ![128, 1]
  wf := gather_S128x100000_S1600000x1_S128x1600000_0_1_n_n_1_1_1281_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpecClip (Memref.whole main_arg0) S6400x128.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v5) S128x6400.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S128x6400.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S128x6400.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x6400.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x1 : Shape := ⟨2, ![100000, 1]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x128 : Shape := ⟨2, ![1, 128]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S100000 : Shape := ⟨1, ![100000]⟩
abbrev S1700000 : Shape := ⟨1, ![1700000]⟩
abbrev S1700000x1 : Shape := ⟨2, ![1700000, 1]⟩

abbrev nBuf : Space → Nat
  | .hbm => 210
  | .vmem => 0
  | .smem => 0
  | _ => 0

abbrev hbmTy0_0 (i : Nat) : BufTy := match i % 128 with
  | 0 => ⟨S100000x128, .f32⟩
  | 1 => ⟨S100000x1, .f32⟩
  | 2 => ⟨S2x1600000, .i32⟩
  | 3 => ⟨S128x128, .f32⟩
  | 4 => ⟨S128, .f32⟩
  | 5 => ⟨S_, .f32⟩
  | 6 => ⟨S128x128, .f32⟩
  | 7 => ⟨S100000x128, .f32⟩
  | 8 => ⟨S1x128, .f32⟩
  | 9 => ⟨S100000x128, .f32⟩
  | 10 => ⟨S100000x128, .f32⟩
  | 11 => ⟨S100000x128, .f32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S1600000x128, .f32⟩
  | 35 => ⟨S_, .f32⟩
  | 36 => ⟨S1600000, .f32⟩
  | 37 => ⟨S1600000x128, .f32⟩
  | 38 => ⟨S_, .f32⟩
  | 39 => ⟨S1600000, .f32⟩
  | 40 => ⟨S1600000, .f32⟩
  | 41 => ⟨S_, .f32⟩
  | 42 => ⟨S1600000, .f32⟩
  | 43 => ⟨S1600000, .f32⟩
  | 44 => ⟨S1600000x128, .f32⟩
  | 45 => ⟨S_, .f32⟩
  | 46 => ⟨S1600000, .f32⟩
  | 47 => ⟨S1600000, .f32⟩
  | 48 => ⟨S_, .f32⟩
  | 49 => ⟨S1600000, .f32⟩
  | 50 => ⟨S1600000, .f32⟩
  | 51 => ⟨S1600000, .f32⟩
  | 52 => ⟨S1600000, .f32⟩
  | 53 => ⟨S_, .f32⟩
  | 54 => ⟨S1600000, .f32⟩
  | 55 => ⟨S1600000, .f32⟩
  | 56 => ⟨S_, .f32⟩
  | 57 => ⟨S100000x1, .f32⟩
  | 58 => ⟨S100000x1, .f32⟩
  | 59 => ⟨S100000, .i32⟩
  | 60 => ⟨S1700000, .i32⟩
  | 61 => ⟨S1700000, .i32⟩
  | 62 => ⟨S_, .f32⟩
  | 63 => ⟨S100000, .f32⟩
  | 64 => ⟨S1700000, .f32⟩
  | 65 => ⟨S_, .f32⟩
  | 66 => ⟨S100000, .f32⟩
  | 67 => ⟨S1700000x1, .i32⟩
  | 68 => ⟨S100000, .f32⟩
  | 69 => ⟨S_, .f32⟩
  | 70 => ⟨S100000, .f32⟩
  | 71 => ⟨S100000, .i1⟩
  | 72 => ⟨S_, .f32⟩
  | 73 => ⟨S100000, .f32⟩
  | 74 => ⟨S100000, .f32⟩
  | 75 => ⟨S100000, .f32⟩
  | 76 => ⟨S_, .f32⟩
  | 77 => ⟨S_, .f32⟩
  | 78 => ⟨S100000, .f32⟩
  | 79 => ⟨S100000, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000, .f32⟩
  | 89 => ⟨S1700000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S1700000, .f32⟩
  | 100 => ⟨S1700000x1, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x1, .f32⟩
  | 110 => ⟨S1700000x1, .f32⟩
  | 111 => ⟨S_, .f32⟩
  | 112 => ⟨S100000x1, .f32⟩
  | 113 => ⟨S1700000x1, .i32⟩
  | 114 => ⟨S100000x1, .f32⟩
  | 115 => ⟨S_, .f32⟩
  | 116 => ⟨S_, .f32⟩
  | 117 => ⟨S100000x1, .f32⟩
  | 118 => ⟨S100000x1, .f32⟩
  | 119 => ⟨S100000x1, .f32⟩
  | 120 => ⟨S100000x1, .f32⟩
  | 121 => ⟨S100000x1, .f32⟩
  | 122 => ⟨S1700000x1, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x128, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x1, .f32⟩
  | 4 => ⟨S1700000x1, .f32⟩
  | 5 => ⟨S_, .f32⟩
  | 6 => ⟨S100000x1, .f32⟩
  | 7 => ⟨S1700000x1, .i32⟩
  | 8 => ⟨S100000x1, .f32⟩
  | 9 => ⟨S_, .f32⟩
  | 10 => ⟨S_, .f32⟩
  | 11 => ⟨S100000x1, .f32⟩
  | 12 => ⟨S100000x1, .f32⟩
  | 13 => ⟨S100000x1, .f32⟩
  | 14 => ⟨S100000x1, .f32⟩
  | 15 => ⟨S100000x1, .f32⟩
  | 16 => ⟨S1700000x1, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000x1, .f32⟩
  | 26 => ⟨S1700000x1, .f32⟩
  | 27 => ⟨S_, .f32⟩
  | 28 => ⟨S100000x1, .f32⟩
  | 29 => ⟨S1700000x1, .i32⟩
  | 30 => ⟨S100000x1, .f32⟩
  | 31 => ⟨S_, .f32⟩
  | 32 => ⟨S_, .f32⟩
  | 33 => ⟨S100000x1, .f32⟩
  | 34 => ⟨S100000x1, .f32⟩
  | 35 => ⟨S100000x1, .f32⟩
  | 36 => ⟨S100000x1, .f32⟩
  | 37 => ⟨S100000x1, .f32⟩
  | 38 => ⟨S1700000x1, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000x1, .f32⟩
  | 48 => ⟨S1700000x1, .f32⟩
  | 49 => ⟨S_, .f32⟩
  | 50 => ⟨S100000x1, .f32⟩
  | 51 => ⟨S1700000x1, .i32⟩
  | 52 => ⟨S100000x1, .f32⟩
  | 53 => ⟨S_, .f32⟩
  | 54 => ⟨S_, .f32⟩
  | 55 => ⟨S100000x1, .f32⟩
  | 56 => ⟨S100000x1, .f32⟩
  | 57 => ⟨S100000x1, .f32⟩
  | 58 => ⟨S100000x1, .f32⟩
  | 59 => ⟨S100000x1, .f32⟩
  | 60 => ⟨S1700000x1, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x1, .f32⟩
  | 70 => ⟨S1700000x1, .f32⟩
  | 71 => ⟨S_, .f32⟩
  | 72 => ⟨S100000x1, .f32⟩
  | 73 => ⟨S1700000x1, .i32⟩
  | 74 => ⟨S100000x1, .f32⟩
  | 75 => ⟨S_, .f32⟩
  | 76 => ⟨S_, .f32⟩
  | 77 => ⟨S100000x1, .f32⟩
  | 78 => ⟨S100000x1, .f32⟩
  | 79 => ⟨S100000x1, .f32⟩
  | 80 => ⟨S100000x1, .f32⟩
  | 81 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_cst : Ref sig .tc := ⟨.hbm, 53, rfl⟩
abbrev main_call0_v0 : Ref sig .tc := ⟨.hbm, 54, rfl⟩
abbrev main_v38 : Ref sig .tc := ⟨.hbm, 55, rfl⟩
abbrev main_call1_cst : Ref sig .tc := ⟨.hbm, 56, rfl⟩
abbrev main_call1_v0 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_call2_v0 : Ref sig .tc := ⟨.hbm, 77, rfl⟩
abbrev main_call2_v1 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_16 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_c_20 : Ref sig .tc := ⟨.hbm, 123, rfl⟩
abbrev main_v89 : Ref sig .tc := ⟨.hbm, 124, rfl⟩
abbrev main_v90 : Ref sig .tc := ⟨.hbm, 125, rfl⟩
abbrev main_c_21 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_22 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_23 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_24 : Ref sig .tc := ⟨.hbm, 145, rfl⟩
abbrev main_v107 : Ref sig .tc := ⟨.hbm, 146, rfl⟩
abbrev main_v108 : Ref sig .tc := ⟨.hbm, 147, rfl⟩
abbrev main_c_25 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_26 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_27 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_28 : Ref sig .tc := ⟨.hbm, 167, rfl⟩
abbrev main_v125 : Ref sig .tc := ⟨.hbm, 168, rfl⟩
abbrev main_v126 : Ref sig .tc := ⟨.hbm, 169, rfl⟩
abbrev main_c_29 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_30 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_31 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_c_32 : Ref sig .tc := ⟨.hbm, 189, rfl⟩
abbrev main_v143 : Ref sig .tc := ⟨.hbm, 190, rfl⟩
abbrev main_v144 : Ref sig .tc := ⟨.hbm, 191, rfl⟩
abbrev main_c_33 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_34 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_cst_35 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x128_S1600000_d1 : S1600000x128.ReducesTo [1] S1600000
  h_S_ : 0 < S_.numel
  bcast_S_S100000x1 : S_.BroadcastsInDim S100000x1 (![] : Fin 0 → Fin S100000x1.rank)
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KB.Fold.lean ====
/-
  The contents of every unscoped buffer at each boundary between the items of the idealized kernel program's @main,
  as a fold from the launch memory: a stretch of host operations applies them in order; a pallas_call leaves its
  operands as entered and its result array at what the grid's write-backs make of it.

  Region 0 computes, block of 6400 rows by block, the transposed embedding tanh(W · xᵀ + b): sixteen blocks over
  100000 rows, so the last block overhangs the array by 2400 rows. The rows past the array's end hold words nothing
  names; here the block a point works on is the array's rows filled out with a zero word, and what the point writes
  back is the kernel's arithmetic on that — of which only the columns inside the array are moved.
  Region 1 computes, block of 6400 edges by block, the clamped cosine similarity of the two gathered embeddings.
-/
import proofs.«419771_j9096740733412_1_alg».proof.Proof.Gen.Kernel.Launch
import proofs.«419771_j9096740733412_1_alg».proof.Proof.Gen.Kernel.Skeleton
import proofs.«419771_j9096740733412_1_alg».proof.Proof.Gen.Kernel.Points
import Idealize.ShloMosaic.Lib.Pipeline.FrameBody
import Idealize.ShloMosaic.Lib.Pipeline.FrameSuffix
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-- The proof's resource algebra: two copies of the pipeline library's, one per pallas_call. -/
abbrev U2 : Type := UR sig nD τ × UR sig nD τ

/-- A core's buffer contents, read at the TensorCore's references. -/
abbrev Contents (F : FTy → Type) [FloatOps F] : Type :=
  (c : Dev nD) → (b : Ref sig .tc) → Buf (Elt F) ((c : Thread nD τ).loc b)

section Regions

variable (V : Contents F)

/-! ## Region 0: the blocks a point works on, and what it leaves -/

/-- The rows of `x` that point `t`'s block holds: 6400 of them, or the 4000 left at the last point. -/
def xblk (c : Dev nD) (t : Fin cfg0.N) : (win0_0.xblock (grid0.coords t)).Idx → Elt F .f32 :=
  (win0_0.blk t).view.read (Elt F) (V c (Pipeline.arrRef spec0 0))
/-- Those rows filled out to a whole block with a zero word. -/
def xfull (c : Dev nD) (t : Fin cfg0.N) : Vec F S6400x128 .f32 :=
  win0_0.fill (grid0.coords t) (fun _ => Scalar.ofBits .f32 0#32) (xblk V c t)
/-- The weight matrix and the bias column: one block each, the whole array. -/
def wblk (c : Dev nD) (t : Fin cfg0.N) : Vec F S128x128 .f32 :=
  (win0_1.blk t).view.read (Elt F) (V c (Pipeline.arrRef spec0 1))
def bblk (c : Dev nD) (t : Fin cfg0.N) : Vec F S128x1 .f32 :=
  (win0_2.blk t).view.read (Elt F) (V c (Pipeline.arrRef spec0 2))
/-- What point `t` computes from its filled-out block. -/
def oblk (c : Dev nD) (t : Fin cfg0.N) : Vec F S128x6400 .f32 :=
  k0_pay1 (xfull V c t) (wblk V c t) (bblk V c t)

/-- Region 0's proof data at the contents `V` it is entered from. -/
def dat0 (c : Dev nD) : Dat τ (Elt F) Unit ℕ U2 ℕ cfg0 c where
  A w := V c (Pipeline.arrRef spec0 w)
  after w t := match w with
    | ⟨0, _⟩ => xfull V c t
    | ⟨1, _⟩ => wblk V c t
    | ⟨2, _⟩ => bblk V c t
    | ⟨3, _⟩ => oblk V c t
  Φ _ := Pipeline.ΦA spec0 c
  q _ := fullShare
  owed _ := 0

/-! ## Region 1 -/

/-- The two gathered embeddings' columns that point `t`'s blocks hold. -/
def sblk (c : Dev nD) (t : Fin cfg1.N) : Vec F S128x6400 .f32 :=
  (win1_0.blk t).view.read (Elt F) (V c (Pipeline.arrRef spec1 0))
def dblk (c : Dev nD) (t : Fin cfg1.N) : Vec F S128x6400 .f32 :=
  (win1_1.blk t).view.read (Elt F) (V c (Pipeline.arrRef spec1 1))
/-- What point `t` computes from them. -/
def eblk (c : Dev nD) (t : Fin cfg1.N) : Vec F S1x6400 .f32 :=
  k1_pay1 (sblk V c t) (dblk V c t)

/-- Region 1's proof data at the contents `V` it is entered from. -/
def dat1 (c : Dev nD) : Dat τ (Elt F) Unit ℕ U2 ℕ cfg1 c where
  A w := V c (Pipeline.arrRef spec1 w)
  after w t := match w with
    | ⟨0, _⟩ => sblk V c t
    | ⟨1, _⟩ => dblk V c t
    | ⟨2, _⟩ => eblk V c t
  Φ _ := Pipeline.ΦA spec1 c
  q _ := fullShare
  owed _ := 0

end Regions

/-! ## The fold through @main -/

variable (m : (ℓ : Loc nD τ sig) → Buf (Elt F) ℓ)

/-- At launch. -/
abbrev W0 : Dev nD → Valuation τ sig (Elt F) := fun c b => m ((c : Dev nD), b)
/-- After the five operations before region 0. -/
abbrev W1 : Dev nD → Valuation τ sig (Elt F) := fun c => StableHlo.after main_part0_ops0 (W0 m c)
abbrev V1 : Contents F := fun c b => W1 m c b
/-- After region 0. -/
def W2 (c : Dev nD) : Valuation τ sig (Elt F) :=
  Pipeline.withArrays spec0 c (W1 m c) fun w => (dat0 (V1 m) c).arrAt w cfg0.N
/-- After the two gathers. -/
abbrev W3 : Dev nD → Valuation τ sig (Elt F) := fun c => StableHlo.after main_part0_ops1 (W2 m c)
abbrev W4 : Dev nD → Valuation τ sig (Elt F) := fun c => StableHlo.after main_part0_ops2 (W3 m c)
abbrev V4 : Contents F := fun c b => W4 m c b
/-- After region 1. -/
def W5 (c : Dev nD) : Valuation τ sig (Elt F) :=
  Pipeline.withArrays spec1 c (W4 m c) fun w => (dat1 (V4 m) c).arrAt w cfg1.N
/-- After each of the remaining stretches. -/
abbrev W6 : Dev nD → Valuation τ sig (Elt F) := fun c => StableHlo.after main_part0_ops3 (W5 m c)
abbrev W7 : Dev nD → Valuation τ sig (Elt F) := fun c => StableHlo.after main_part0_ops4 (W6 m c)
abbrev W8 : Dev nD → Valuation τ sig (Elt F) := fun c => StableHlo.after main_part0_ops5 (W7 m c)
abbrev W9 : Dev nD → Valuation τ sig (Elt F) := fun c => StableHlo.after main_part0_ops6 (W8 m c)
abbrev W10 : Dev nD → Valuation τ sig (Elt F) := fun c => StableHlo.after main_part0_ops7 (W9 m c)
abbrev W11 : Dev nD → Valuation τ sig (Elt F) := fun c => StableHlo.after main_part1_ops0 (W10 m c)
abbrev W12 : Dev nD → Valuation τ sig (Elt F) := fun c => StableHlo.after main_part2_ops0 (W11 m c)

end Cert.Kernel.Hand

end
-- ==== Proof.KB.Run.lean ====
/-
  The kernel program's run, generic in the float instance: @main as its list of items, each item a step between
  THREAD STATES of the form "for some contents V of the core's unscoped buffers satisfying a predicate, every such
  buffer is held at V" — contents chosen by the run, not fixed beforehand. That is what a program needs whose first
  pallas_call's last block overhangs its array: the staging rows past the array's end hold words the machine picks,
  so where the arithmetic is not local in those rows the result array is not a function of the inputs, and the second
  pallas_call is entered from contents known only when it is entered.
-/
import proofs.«419771_j9096740733412_1_alg».proof.Proof.KB.Fold
import Idealize.ShloMosaic.Lib.Pipeline.Regions
import Idealize.ShloMosaic.Lib.Pipeline.RegionsLoop
import Idealize.ShloMosaic.Lib.Pipeline.Kit

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ U2 ℕ

abbrev 𝒱₀ : Variants := Variants.none
/-- No core owes another anything: no level is assigned. -/
abbrev L : GSem nD τ sig → Finset Unit := fun _ => ∅
abbrev lv : GSem nD τ sig → Unit → ℕ := fun _ _ => 0
/-- No pallas_call has a prefetched table. -/
abbrev adm : (p : Fin 2) → (pcfgs (F := F) p).Adm := fun p => (cfgs p).toPCfg_adm

/-- What rides beside the buffers through every item: the generator register at some state, and nothing owed. -/
abbrev Rst (c : Dev nD) : sProp 𝕄 :=
  iprop((∃ r, prngReg c r) ∗ ∃ W, owes (c : Thread nD τ) (0 : CellTallies nD τ sig Unit) W)

/-- The thread state "some contents satisfying `P c`, every unscoped buffer held at them, `R c` beside". -/
abbrev TS (P : Dev nD → Valuation τ sig (Elt F) → Prop) (R : Dev nD → sProp 𝕄) (c : Dev nD) : sProp 𝕄 :=
  iprop(∃ V : Valuation τ sig (Elt F), ⌜P c V⌝ ∗ StableHlo.held (c : Thread nD τ) (Pipeline.ucRefs τ sig) V ∗ R c)

/-! ## A stretch of host operations between two such states -/

/-- A stretch of host operations runs from contents satisfying `Pin` to contents satisfying `Pout`, when `Pout`
    holds of the stretch applied to anything satisfying `Pin`: the contents are opened, the stretch runs over them. -/
def exHost (ops : List (HloOp τ sig (Elt F))) (hsub : ops.Forall fun op => op.bufs ⊆ StableHlo.tcRefs τ sig)
    (hfresh : ops.Forall fun op => op.fresh = ∅)
    (Pin Pout : Dev nD → Valuation τ sig (Elt F) → Prop)
    (himp : ∀ c V, Pin c V → Pout c (StableHlo.after ops V))
    (R : Dev nD → sProp 𝕄) :
    Pipeline.HostSeg (Name := ℕ) (U := U2) (pcfgs (F := F)) defs₀ 𝒱₀ L lv where
  prog := StableHlo.seq ops
  pre := TS Pin R
  post := TS Pout R
  run c {β} k K := by
    iintro ⟨Hk, Hbd, ⟨%V, %hV, Hh, HR⟩, Hla⟩
    iapply ((Pipeline.HostSeg.ofOps (pcfgs (F := F)) defs₀ 𝒱₀ L lv (Pipeline.ucRefs τ sig) ops
      (fun op h => Pipeline.sub_ucRefs op ((List.forall_iff_forall_mem.mp hsub) op h))
      (fun op h => (List.forall_iff_forall_mem.mp hfresh) op h) (fun _ => V) R).run c k K)
    dsimp only [Pipeline.HostSeg.ofOps]
    isplitl [Hk]
    · iintro ⟨Hbd, Hh, HR⟩
      iapply Hk
      isplitl [Hbd]; · iexact Hbd
      iexists (StableHlo.after ops V)
      isplitr; · ipureintro; exact himp c V hV
      isplitl [Hh] <;> iassumption
    isplitl [Hbd]; · iexact Hbd
    isplitl [Hh HR]
    · isplitl [Hh] <;> iassumption
    iexact Hla

/-! ## The proof data, as relations -/

variable (m : (ℓ : Loc nD τ sig) → Buf (Elt F) ℓ)
variable (fgt0 : Fin cfg0.W → Bool) (fgt1 : Fin cfg1.W → Bool)

/-- Every pallas_call's proof data read as relations, the windows `fgt0` / `fgt1` mark forgotten: region 0 at the
    contents its entry finds (a function of the launch memory), region 1 at contents `V` given when it is entered. -/
def rdats (V : Contents F) : (p : Fin 2) → (c : Dev nD) → RDat τ (Elt F) Unit ℕ U2 ℕ (Pipeline.pin (pcfgs (F := F)) adm p) c
  | ⟨0, _⟩ => fun c => (dat0 (V1 m) c).toRForget fgt0
  | ⟨1, _⟩ => fun c => (dat1 V c).toRForget fgt1

/-- A valuation read at the TensorCore's references. -/
abbrev asContents (V : Valuation τ sig (Elt F)) : Contents F := fun _ b => V b

/-- The same proof data as functions (what the library's lemmas about the arrays are stated over). -/
def pdat (V : Contents F) : (p : Fin 2) → (c : Dev nD) → Dat τ (Elt F) Unit ℕ U2 ℕ (Pipeline.pin (pcfgs (F := F)) adm p) c
  | ⟨0, _⟩ => fun c => dat0 (V1 m) c
  | ⟨1, _⟩ => fun c => dat1 V c

/-! ## Region 0: entered from the contents after the first stretch, left at some contents -/

section Reg0

variable (Vs : Contents F)
variable (hob0 : ∀ c, BodyObligationLoose (dat0 (V1 m) c) (defs₀ (F := F)) 𝒱₀ () Set.univ fgt0)
variable (P2 : Dev nD → Valuation τ sig (Elt F) → Prop)
variable (hP2 : ∀ (c : Dev nD) (Z : (w : Fin cfg0.W) → Buf (Elt F) ((cfg0.win w).arr.view.loc (c : Thread nD τ))),
    (∀ w, ((dat0 (V1 m) c).toRForget fgt0).ArrAt w cfg0.N (Z w)) → P2 c (Pipeline.withArrays spec0 c (W1 m c) Z))
variable (G1 : Dev nD → sProp (MT nD τ sig Unit (Elt F) ℕ U2 ℕ))

include hob0 hP2

set_option backward.isDefEq.respectTransparency.types false in
def reg0 : Pipeline.RDat.RegionSeg (pcfgs (F := F)) adm (rdats m fgt0 fgt1 Vs) () defs₀ 𝒱₀ L lv 0 where
  win := launch0.win.to₀
  block_pos := launch0.block_pos
  stage_whole := launch0.stage_whole
  K := PEmpty
  osem k := k.elim
  ho := Pipeline.OwnSemFacts.none _
  hbody c := (hob0 c).toRForget
  hwaits := Pipeline.RDat.hwaits_of_owed_zero _ _ _ _ L lv 0 fun _ _ => rfl
  pre c := iprop(StableHlo.held (c : Thread nD τ) (Pipeline.ucRefs τ sig) (W1 m c) ∗ (Rst c ∗ G1 c))
  post := TS P2 (fun c => iprop(Rst c ∗ G1 c))
  X c := iprop(∃ r, prngReg c r)
  Y c := iprop(∃ r, prngReg c r)
  Z c := iprop(Pipeline.unscopedRest (Ix := Unit) (Name := ℕ) (U := U2) (Lvl := ℕ) spec0 c (V1 m c) ∗ G1 c)
  hentry c := by
    rw [Pipeline.ownSems0_none]
    have hsplit := Pipeline.RDat.arrays_of_unscopedBufs (p := 0) (pcfgs (F := F)) adm (rdats m fgt0 fgt1 Vs) launch0.win launch0.arr_whole c
      ((dat0 (V1 m) c).share_full fun _ => rfl) (V1 m c) fun _ => rfl
    rw [Pipeline.unscopedBufs_held] at hsplit
    dsimp only
    iintro ⟨⟨Hub, ⟨Hp, HO⟩, HG⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (rdats m fgt0 fgt1 Vs 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt0 fgt1 Vs 0 c).Φ (Fin.last _) = Pipeline.ΦA spec0 c from rfl]; unfold Pipeline.ΦA
    iintro ⟨Hr, Hp⟩
    isplitl [Hp]; · iexact Hp
    isplitr; · iempintro
    iexact Hr
  hexit c := by
    unfold Pipeline.RDat.arraysAt
    rw [bigSep_W0]
    iintro ⟨⟨⟨%F0, %h0, H0⟩, ⟨%F1, %h1, H1⟩, ⟨%F2, %h2, H2⟩, ⟨%F3, %h3, H3⟩⟩, HO, HY, Hrest, HG⟩
    let Zf : (w : Fin cfg0.W) → Buf (Elt F) ((cfg0.win w).arr.view.loc (c : Thread nD τ)) := fun w =>
      match w with | ⟨0, _⟩ => F0 | ⟨1, _⟩ => F1 | ⟨2, _⟩ => F2 | ⟨3, _⟩ => F3
    have hZ : ∀ w, ((dat0 (V1 m) c).toRForget fgt0).ArrAt w cfg0.N (Zf w) := fun w =>
      match w with | ⟨0, _⟩ => h0 | ⟨1, _⟩ => h1 | ⟨2, _⟩ => h2 | ⟨3, _⟩ => h3
    have hjoin := Pipeline.unscopedBufs_of_arrays (p := 0) (pcfgs (F := F)) adm (Ix := Unit) (Name := ℕ) (U := U2) (Lvl := ℕ)
      launch0.win launch0.arr_whole c (pdat m Vs) ((dat0 (V1 m) c).share_full fun _ => rfl)
      (V1 m c) (fun b => Pipeline.withArrays spec0 c (W1 m c) Zf b) Zf
      (fun w => (Pipeline.withArrays_arr spec0 launch0.win.arr_inj c _ _ w).symm)
      (fun b hb => Pipeline.withArrays_of_ne spec0 c _ _ b fun w e => hb (Finset.mem_image.mpr ⟨w, Finset.mem_univ _, e⟩))
    rw [Pipeline.unscopedBufs_held] at hjoin
    imodintro
    iexists (Pipeline.withArrays spec0 c (W1 m c) Zf)
    isplitr; · ipureintro; exact hP2 c Zf hZ
    isplitl [H0 H1 H2 H3 Hrest]
    · iapply hjoin
      isplitl [H0 H1 H2 H3]
      · unfold Pipeline.Dat.arrays
        rw [bigSep_W0]
        isplitl [H0]; · iexact H0
        isplitl [H1]; · iexact H1
        isplitl [H2]; · iexact H2
        iexact H3
      iexact Hrest
    isplitl [HY HO]
    · isplitl [HY]; · iexact HY
      unfold Pipeline.RDat.owesAt Pipeline.owesWithin
      icases HO with ⟨%W, -, HO⟩; iexists W; iexact HO
    iexact HG

end Reg0

/-! ## Region 1: entered from SOME contents, which its proof data are then taken at -/

section Reg1

variable (hob1 : ∀ (V : Contents F) (c : Dev nD), BodyObligationLoose (dat1 V c) (defs₀ (F := F)) 𝒱₀ () Set.univ fgt1)
variable (P4 P5 : Dev nD → Valuation τ sig (Elt F) → Prop)
variable (hP5 : ∀ (c : Dev nD) (V : Valuation τ sig (Elt F))
    (Z : (w : Fin cfg1.W) → Buf (Elt F) ((cfg1.win w).arr.view.loc (c : Thread nD τ))),
    P4 c V → (∀ w, ((dat1 (asContents V) c).toRForget fgt1).ArrAt w cfg1.N (Z w)) → P5 c (Pipeline.withArrays spec1 c V Z))

include hob1 hP5

set_option backward.isDefEq.respectTransparency.types false in
/-- Region 1 as entered from the contents `V`, which satisfy `P4`: its arrays split out of the unscoped buffers at `V`,
    put back at `V` updated by what the write-backs may leave, which satisfies `P5`. -/
def reg1At (V : Valuation τ sig (Elt F)) :
    Pipeline.RDat.RegionSeg (pcfgs (F := F)) adm (rdats m fgt0 fgt1 (asContents V)) () defs₀ 𝒱₀ L lv 1 where
  win := launch1.win.to₀
  block_pos := launch1.block_pos
  stage_whole := launch1.stage_whole
  K := PEmpty
  osem k := k.elim
  ho := Pipeline.OwnSemFacts.none _
  hbody c := (hob1 (asContents V) c).toRForget
  hwaits := Pipeline.RDat.hwaits_of_owed_zero _ _ _ _ L lv 1 fun _ _ => rfl
  pre c := iprop(⌜P4 c V⌝ ∗ StableHlo.held (c : Thread nD τ) (Pipeline.ucRefs τ sig) V ∗ Rst c)
  post := TS P5 Rst
  X c := iprop(∃ r, prngReg c r)
  Y c := iprop(∃ r, prngReg c r)
  Z c := iprop(Pipeline.unscopedRest (Ix := Unit) (Name := ℕ) (U := U2) (Lvl := ℕ) spec1 c (asContents V c) ∗ ⌜P4 c V⌝)
  hentry c := by
    rw [Pipeline.ownSems0_none]
    have hsplit := Pipeline.RDat.arrays_of_unscopedBufs (p := 1) (pcfgs (F := F)) adm (rdats m fgt0 fgt1 (asContents V)) launch1.win launch1.arr_whole c
      ((dat1 (asContents V) c).share_full fun _ => rfl) (asContents V c) fun _ => rfl
    rw [show (asContents V c) = (fun (b : Ref sig .tc) => V b) from rfl, Pipeline.unscopedBufs_held] at hsplit
    dsimp only
    iintro ⟨⟨%hV, Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    isplitl [Hrest]; · iexact Hrest
    ipureintro; exact hV
  hin c := by
    rw [show (rdats m fgt0 fgt1 (asContents V) 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt0 fgt1 (asContents V) 1 c).Φ (Fin.last _) = Pipeline.ΦA spec1 c from rfl]; unfold Pipeline.ΦA
    iintro ⟨Hr, Hp⟩
    isplitl [Hp]; · iexact Hp
    isplitr; · iempintro
    iexact Hr
  hexit c := by
    unfold Pipeline.RDat.arraysAt
    rw [bigSep_W1]
    iintro ⟨⟨⟨%F0, %h0, H0⟩, ⟨%F1, %h1, H1⟩, ⟨%F2, %h2, H2⟩⟩, HO, HY, Hrest, %hV⟩
    let Zf : (w : Fin cfg1.W) → Buf (Elt F) ((cfg1.win w).arr.view.loc (c : Thread nD τ)) := fun w =>
      match w with | ⟨0, _⟩ => F0 | ⟨1, _⟩ => F1 | ⟨2, _⟩ => F2
    have hZ : ∀ w, ((dat1 (asContents V) c).toRForget fgt1).ArrAt w cfg1.N (Zf w) := fun w =>
      match w with | ⟨0, _⟩ => h0 | ⟨1, _⟩ => h1 | ⟨2, _⟩ => h2
    have hjoin := Pipeline.unscopedBufs_of_arrays (p := 1) (pcfgs (F := F)) adm (Ix := Unit) (Name := ℕ) (U := U2) (Lvl := ℕ)
      launch1.win launch1.arr_whole c (pdat m (asContents V)) ((dat1 (asContents V) c).share_full fun _ => rfl)
      (asContents V c) (fun b => Pipeline.withArrays spec1 c V Zf b) Zf
      (fun w => (Pipeline.withArrays_arr spec1 launch1.win.arr_inj c _ _ w).symm)
      (fun b hb => Pipeline.withArrays_of_ne spec1 c _ _ b fun w e => hb (Finset.mem_image.mpr ⟨w, Finset.mem_univ _, e⟩))
    rw [Pipeline.unscopedBufs_held] at hjoin
    imodintro
    iexists (Pipeline.withArrays spec1 c V Zf)
    isplitr; · ipureintro; exact hP5 c V Zf hV hZ
    isplitl [H0 H1 H2 Hrest]
    · iapply hjoin
      isplitl [H0 H1 H2]
      · unfold Pipeline.Dat.arrays
        rw [bigSep_W1]
        isplitl [H0]; · iexact H0
        isplitl [H1]; · iexact H1
        iexact H2
      iexact Hrest
    isplitl [HY]; · iexact HY
    unfold Pipeline.RDat.owesAt Pipeline.owesWithin
    icases HO with ⟨%W, -, HO⟩; iexists W; iexact HO

/-- The second pallas_call's staging cells' launch ghost state and duty tokens, from the proof's second copy of the
    pipeline library's algebra: what its region is entered with. -/
abbrev ghost1 (c : Dev nD) : sProp 𝕄 :=
  iprop(Pipeline.cellsGhost (Pipeline.pin (pcfgs (F := F)) adm) (embR : Emb (UR sig nD τ) 𝕄) (1 : Fin 2) c
    ∗ Pipeline.toksInit (Pipeline.pin (pcfgs (F := F)) adm) (embR : Emb (UR sig nD τ) 𝕄) (1 : Fin 2) c)

set_option backward.isDefEq.respectTransparency.types false in
/-- The second pallas_call as an item between two thread states of the kind above: the contents are opened, the
    region's record is taken at them, and the region's rule runs the call. -/
def reg1Host : Pipeline.HostSeg (Name := ℕ) (U := U2) (pcfgs (F := F)) defs₀ 𝒱₀ L lv where
  prog := Prog.lift (.customCall (Pipeline.entry 1) ())
  pre := TS P4 (fun c => iprop(Rst c ∗ ghost1 (F := F) c))
  post := TS P5 Rst
  run c {β} k K := by
    have hwp := fun V => Pipeline.RDat.RegionSeg.wp (pcfgs (F := F)) adm (rdats m fgt0 fgt1 (asContents V)) () cellOf_inj
      (embR : Emb (UR sig nD τ) 𝕄) defs₀ 𝒱₀ L lv (reg1At m fgt0 fgt1 hob1 P4 P5 hP5 V) c none (fun u hu => by cases hu) k K
    simp only [Prog.lift, Prog.bind_op, Prog.bind_ret]
    iintro ⟨Hk, Hbd, ⟨%V, %hV, Hh, HR, Hg1, Hg2⟩, Hla⟩
    iapply (hwp V)
    isplitl [Hk]; · iexact Hk
    isplitl [Hbd]; · iexact Hbd
    isplitl [Hh HR]
    · dsimp only [reg1At]
      isplitr; · ipureintro; exact hV
      isplitl [Hh] <;> iassumption
    isplitl [Hla]; · iexact Hla
    isplitl [Hg1] <;> iassumption

end Reg1

/-! ## The run -/

section TheRun

variable (ρ : Dev nD → PrngReg)
variable (hob0 : ∀ c, BodyObligationLoose (dat0 (V1 m) c) (defs₀ (F := F)) 𝒱₀ () Set.univ fgt0)
variable (hob1 : ∀ (V : Contents F) (c : Dev nD), BodyObligationLoose (dat1 V c) (defs₀ (F := F)) 𝒱₀ () Set.univ fgt1)
variable (P2 P3 P4 P5 P6 P7 P8 P9 P10 P11 P12 : Dev nD → Valuation τ sig (Elt F) → Prop)
variable (hP2 : ∀ (c : Dev nD) (Z : (w : Fin cfg0.W) → Buf (Elt F) ((cfg0.win w).arr.view.loc (c : Thread nD τ))),
    (∀ w, ((dat0 (V1 m) c).toRForget fgt0).ArrAt w cfg0.N (Z w)) → P2 c (Pipeline.withArrays spec0 c (W1 m c) Z))
variable (h23 : ∀ c V, P2 c V → P3 c (StableHlo.after main_part0_ops1 V))
variable (h34 : ∀ c V, P3 c V → P4 c (StableHlo.after main_part0_ops2 V))
variable (hP5 : ∀ (c : Dev nD) (V : Valuation τ sig (Elt F))
    (Z : (w : Fin cfg1.W) → Buf (Elt F) ((cfg1.win w).arr.view.loc (c : Thread nD τ))),
    P4 c V → (∀ w, ((dat1 (asContents V) c).toRForget fgt1).ArrAt w cfg1.N (Z w)) → P5 c (Pipeline.withArrays spec1 c V Z))
variable (h56 : ∀ c V, P5 c V → P6 c (StableHlo.after main_part0_ops3 V))
variable (h67 : ∀ c V, P6 c V → P7 c (StableHlo.after main_part0_ops4 V))
variable (h78 : ∀ c V, P7 c V → P8 c (StableHlo.after main_part0_ops5 V))
variable (h89 : ∀ c V, P8 c V → P9 c (StableHlo.after main_part0_ops6 V))
variable (h910 : ∀ c V, P9 c V → P10 c (StableHlo.after main_part0_ops7 V))
variable (h1011 : ∀ c V, P10 c V → P11 c (StableHlo.after main_part1_ops0 V))
variable (h1112 : ∀ c V, P11 c V → P12 c (StableHlo.after main_part2_ops0 V))
variable (fr0 : (main_part0_ops0 : List (HloOp τ sig (Elt F))).Forall fun op => op.fresh = ∅)
variable (fr1 : (main_part0_ops1 : List (HloOp τ sig (Elt F))).Forall fun op => op.fresh = ∅)
variable (fr2 : (main_part0_ops2 : List (HloOp τ sig (Elt F))).Forall fun op => op.fresh = ∅)
variable (fr3 : (main_part0_ops3 : List (HloOp τ sig (Elt F))).Forall fun op => op.fresh = ∅)
variable (fr4 : (main_part0_ops4 : List (HloOp τ sig (Elt F))).Forall fun op => op.fresh = ∅)
variable (fr5 : (main_part0_ops5 : List (HloOp τ sig (Elt F))).Forall fun op => op.fresh = ∅)
variable (fr6 : (main_part0_ops6 : List (HloOp τ sig (Elt F))).Forall fun op => op.fresh = ∅)
variable (fr7 : (main_part0_ops7 : List (HloOp τ sig (Elt F))).Forall fun op => op.fresh = ∅)
variable (fr8 : (main_part1_ops0 : List (HloOp τ sig (Elt F))).Forall fun op => op.fresh = ∅)
variable (fr9 : (main_part2_ops0 : List (HloOp τ sig (Elt F))).Forall fun op => op.fresh = ∅)

/-- What rides along before the second pallas_call: the rest and that call's ghost state. -/
abbrev RstG (c : Dev nD) : sProp 𝕄 := iprop(Rst c ∗ ghost1 (F := F) c)

include hob0 hob1 hP2 h23 h34 hP5 h56 h67 h78 h89 h910 h1011 h1112 fr0 fr1 fr2 fr3 fr4 fr5 fr6 fr7 fr8 fr9

/-- @main's twelve items in order: the first stretch from the launch contents, region 0, then every later item between
    thread states of the open kind. -/
def segs : List (Pipeline.RDat.Seg (pcfgs (F := F)) adm (rdats m fgt0 fgt1 (V1 m)) () defs₀ 𝒱₀ L lv) :=
  [ .host (Pipeline.HostSeg.ofOps (pcfgs (F := F)) defs₀ 𝒱₀ L lv (Pipeline.ucRefs τ sig) main_part0_ops0
      (fun op h => Pipeline.sub_ucRefs op ((List.forall_iff_forall_mem.mp main_part0_ops0_sub) op h))
      (fun op h => (List.forall_iff_forall_mem.mp fr0) op h) (W0 m) (RstG (F := F))),
    .region (reg0 m fgt0 fgt1 (V1 m) hob0 P2 hP2 (ghost1 (F := F))),
    .host (exHost main_part0_ops1 main_part0_ops1_sub fr1 P2 P3 h23 (RstG (F := F))),
    .host (exHost main_part0_ops2 main_part0_ops2_sub fr2 P3 P4 h34 (RstG (F := F))),
    .host (reg1Host m fgt0 fgt1 hob1 P4 P5 hP5),
    .host (exHost main_part0_ops3 main_part0_ops3_sub fr3 P5 P6 h56 Rst),
    .host (exHost main_part0_ops4 main_part0_ops4_sub fr4 P6 P7 h67 Rst),
    .host (exHost main_part0_ops5 main_part0_ops5_sub fr5 P7 P8 h78 Rst),
    .host (exHost main_part0_ops6 main_part0_ops6_sub fr6 P8 P9 h89 Rst),
    .host (exHost main_part0_ops7 main_part0_ops7_sub fr7 P9 P10 h910 Rst),
    .host (exHost main_part1_ops0 main_part1_ops0_sub fr8 P10 P11 h1011 Rst),
    .host (exHost main_part2_ops0 main_part2_ops0_sub fr9 P11 P12 h1112 Rst) ]

set_option backward.isDefEq.respectTransparency.types false in
/-- From any launch memory with zero counters every weakly fair execution of @main terminates, nothing faulting, and the
    final memory holds, at every unscoped buffer of every core, contents satisfying the last predicate. -/
theorem run_open : θ_run defs (onTc (τ := τ) (main (F := F))) ⟨m, fun _ => 0, ρ⟩ (fun r => ∀ c : Dev nD,
    ∃ V : Valuation τ sig (Elt F), P12 c V ∧ ∀ b ∈ Pipeline.ucRefs τ sig, r.2.mem (((c : Thread nD τ)).1, b) = V b) := by
  refine Pipeline.RDat.θ_run_regions_kit (pcfgs (F := F)) adm (rdats m fgt0 fgt1 (V1 m)) () cellOf_inj
    (embL : Emb (UR sig nD τ) 𝕄) defs₀ 𝒱₀ L lv m ρ main
    (segs m fgt0 fgt1 hob0 hob1 P2 P3 P4 P5 P6 P7 P8 P9 P10 P11 P12 hP2 h23 h34 hP5 h56 h67 h78 h89 h910 h1011 h1112 fr0 fr1 fr2 fr3 fr4 fr5 fr6 fr7 fr8 fr9)
    (fun c Q => ?hmain) ?hnd (O₀ := 0) (hL := fun _ _ => rfl) (G := ghost1 (F := F))
    (u₀ := (initOf (Pipeline.cells cfgs cellOf_inj) (Pipeline.launchToks cfgs cellOf_inj),
            initOf (Pipeline.cells cfgs cellOf_inj) (Pipeline.launchToks cfgs cellOf_inj)))
    (hu₀ := ?hu)
    (T₀ := fun c => iprop(StableHlo.held (c : Thread nD τ) (Pipeline.ucRefs τ sig) (W0 m c) ∗ RstG (F := F) c))
    (Tₙ := fun c => iprop(∃ V : Valuation τ sig (Elt F), ⌜P12 c V⌝ ∗ StableHlo.held (c : Thread nD τ) (Pipeline.ucRefs τ sig) V ∗ ∃ r, prngReg c r))
    (hch := ?hch) (hinit := ?hinit)
    (QY := fun c s => ∃ V : Valuation τ sig (Elt F), P12 c V ∧ ∀ b ∈ Pipeline.ucRefs τ sig, s.mem (((c : Thread nD τ)).1, b) = V b)
    (hfin := fun c s' => ?hfin) (hQ := fun _ h => h)
  case hmain =>
    rewrite [main_chain_windows c, Pipeline.RDat.Seg.run_eq_chain,
      show (segs m fgt0 fgt1 hob0 hob1 P2 P3 P4 P5 P6 P7 P8 P9 P10 P11 P12 hP2 h23 h34 hP5 h56 h67 h78 h89 h910 h1011 h1112 fr0 fr1 fr2 fr3 fr4 fr5 fr6 fr7 fr8 fr9).map Pipeline.RDat.Seg.prog = [
        StableHlo.seq main_part0_ops0,
        Prog.lift (.customCall (Pipeline.entry 0) ()),
        StableHlo.seq main_part0_ops1,
        StableHlo.seq main_part0_ops2,
        Prog.lift (.customCall (Pipeline.entry 1) ()),
        StableHlo.seq main_part0_ops3,
        StableHlo.seq main_part0_ops4,
        StableHlo.seq main_part0_ops5,
        StableHlo.seq main_part0_ops6,
        StableHlo.seq main_part0_ops7,
        StableHlo.seq main_part1_ops0,
        StableHlo.seq main_part2_ops0 ] from rfl]
    exact .rfl
  case hnd =>
    simp only [segs, Pipeline.RDat.Seg.pipes_host, Pipeline.RDat.Seg.pipes_region, Pipeline.RDat.Seg.pipes_nil]; decide
  case hu =>
    iintro Hu
    ihave H := (ownU_pair (initOf (Pipeline.cells cfgs cellOf_inj) (Pipeline.launchToks cfgs cellOf_inj))
      (initOf (Pipeline.cells cfgs cellOf_inj) (Pipeline.launchToks cfgs cellOf_inj))) $$ Hu
    icases H with ⟨HL, HR⟩
    imod (Pipeline.fund_ghost (Pipeline.pin (pcfgs (F := F)) adm) (embR : Emb (UR sig nD τ) 𝕄) cellOf_inj) $$ HR with ⟨Hg, Ht⟩
    imodintro
    isplitl [HL]; · iexact HL
    ihave Hb := (show (iprop((bigSep Finset.univ fun c : Dev nD => bigSep Finset.univ fun p => Pipeline.cellsGhost (Pipeline.pin (pcfgs (F := F)) adm) (embR : Emb (UR sig nD τ) 𝕄) p c)
          ∗ (bigSep Finset.univ fun c : Dev nD => bigSep Finset.univ fun p => (Pipeline.toksInit (Pipeline.pin (pcfgs (F := F)) adm) (embR : Emb (UR sig nD τ) 𝕄) p c : sProp 𝕄))) : sProp 𝕄)
        ⊢ bigSep Finset.univ fun c : Dev nD => iprop((bigSep Finset.univ fun p => Pipeline.cellsGhost (Pipeline.pin (pcfgs (F := F)) adm) (embR : Emb (UR sig nD τ) 𝕄) p c)
          ∗ bigSep Finset.univ fun p => (Pipeline.toksInit (Pipeline.pin (pcfgs (F := F)) adm) (embR : Emb (UR sig nD τ) 𝕄) p c : sProp 𝕄)) from Entails.of_eq (bigSep_sep' _ _ _).symm) $$ [Hg Ht]
    · isplitl [Hg] <;> iassumption
    ihave Hc := (show (bigSep Finset.univ fun c : Dev nD => iprop((bigSep Finset.univ fun p => Pipeline.cellsGhost (Pipeline.pin (pcfgs (F := F)) adm) (embR : Emb (UR sig nD τ) 𝕄) p c)
          ∗ bigSep Finset.univ fun p => (Pipeline.toksInit (Pipeline.pin (pcfgs (F := F)) adm) (embR : Emb (UR sig nD τ) 𝕄) p c : sProp 𝕄)))
        ⊢ (bigSep Finset.univ (ghost1 (F := F)) : sProp 𝕄) from bigSep_mono fun c _ => sep_mono
      (BI.bigSep_elim (Φ := fun p => Pipeline.cellsGhost (Pipeline.pin (pcfgs (F := F)) adm) (embR : Emb (UR sig nD τ) 𝕄) p c) (Finset.mem_univ (1 : Fin 2)))
      (BI.bigSep_elim (Φ := fun p => (Pipeline.toksInit (Pipeline.pin (pcfgs (F := F)) adm) (embR : Emb (UR sig nD τ) 𝕄) p c : sProp 𝕄)) (Finset.mem_univ (1 : Fin 2)))) $$ Hb
    iexact Hc
  case hch =>
    refine ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => ?_⟩
    show TS P12 (Rst (F := F)) c ⊢ _
    iintro ⟨%V, %hV, Hh, Hp, HO⟩
    isplitl [Hh Hp]
    · iexists V; isplitr; · ipureintro; exact hV
      isplitl [Hh] <;> iassumption
    iexact HO
  case hinit =>
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, HG⟩, -⟩
    imodintro
    isplitl [Hh]; · iexact Hh
    isplitl [Hp HO]
    · isplitl [Hp]; · iexists _; iexact Hp
      iexists ∅; iexact HO
    iexact HG
  case hfin =>
    iintro ⟨⟨%V, %hV, Hh, -⟩, HSI⟩
    unfold StableHlo.held
    ihave Hr := (pointsTo_read_all (Pipeline.ucRefs τ sig) (fun b => (((c : Thread nD τ)).1, b)) V s') $$ [Hh HSI]
    · isplitl [Hh] <;> iassumption
    icases Hr with ⟨%h, HSI⟩
    imodintro
    isplitr
    · ipureintro; exact ⟨V, hV, h⟩
    iexact HSI

end TheRun

end Cert.Kernel.Hand

end
-- ==== Proof.KB.Body0.lean ====
/-
  The body of region 0 — the kernel that computes, block of 6400 rows of `x` by block, the transposed embedding
  tanh(W · xᵀ + b) — as the pipeline calls it at each of its sixteen points.

  The body loads its three input staging buffers whole, computes `k0_pay1` of what it read, and stores that whole
  into the result's staging buffer (`sound_kernel0`, at any float values). Two obligations follow from it:

  * `obl0_forget`: from ANY contents of the four staging buffers the body runs and hands them back at some contents.
  * `obl0_exact`, over the extended reals: the buffers end at what the proof data `dat0` names, stated — for the
    `x` window and the result window, whose last block overhangs the array by 2400 rows / columns — only on the part
    of the block inside the array. The `x` buffer arrives holding the block's rows inside the array and, past them,
    words nothing names. The result at column `q` is tanh(Σₖ W(r,k) · X(q,k) + b(r)): it reads row `q` of the
    block only. A column the write-back moves is a column inside the array, so the row it reads is a row inside the
    array, and the unnamed words never reach it.
-/
import proofs.«419771_j9096740733412_1_alg».proof.Proof.KB.Fold
import Idealize.ShloMosaic.Lib.Tactic
import Idealize.ShloMosaic.Lib.Pipeline.Value
import Idealize.ShloMosaic.Lib.Pipeline.FrameBody
import Idealize.ShloMosaic.PureOps.Ideal
import Idealize.ShloMosaic.PureOps.Ideal.Laws
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ U2 ℕ

namespace Body0

/-! ## The body on whole staging memrefs -/

/-- The four whole-buffer accesses of the body sit at offsets zero, however the zeros are spelt. -/
theorem zero2 : (![0, 0] : Fin 2 → Nat) = fun _ => 0 := funext fun a => by fin_cases a <;> rfl

set_option maxHeartbeats 1000000 in
/-- The body of region 0 on whole staging memrefs: from the three inputs' buffers at read contents `x0`, `x1`, `x2`
    and the result's at anything, it runs to the inputs' as they were and the result's at the kernel's arithmetic
    `k0_pay1 x0 x1 x2` — three whole loads, a load of the result's buffer nothing reads, one whole store. -/
theorem sound_kernel0 (c : Dev nD) (E : Set ℕ) (i : grid0.Coords)
    (arg1 : Memref sig .tc .vmem S6400x128 .f32) (harg1 : arg1.IsWhole)
    (arg2 : Memref sig .tc .vmem S128x128 .f32) (harg2 : arg2.IsWhole)
    (arg3 : Memref sig .tc .vmem S128x1 .f32) (harg3 : arg3.IsWhole)
    (arg4 : Memref sig .tc .vmem S128x6400 .f32) (harg4 : arg4.IsWhole)
    (x0 : Vec F S6400x128 .f32) (x1 : Vec F S128x128 .f32) (x2 : Vec F S128x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k0_pay1 x0 x1 x2)) -∗ K ⟨⟩))
      ⊢ wp frame (wpE (defs₀ (F := F)) Variants.none c none) E
          (cc0__linear_tanh_kernel i arg1 harg1 arg2 harg2 arg3 harg3 arg4 harg4) K := by
  simp only [cc0__linear_tanh_kernel_eq_skeleton]; unfold cc0__linear_tanh_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one store covers the buffer, so the buffer reads its payload; each whole load read its buffer's contents
  refine (View.read_writes_eq_canon _ _ _ fun y => ⟨_, List.mem_singleton_self _, View.mem_set_unit_zero zero2 inb_S128x6400_S128x6400_0_0 y⟩).trans ?_
  rw [View.canon_unit_zero zero2]
  simp only [View.readAt_eq_ld, View.ld_unit_zero (S := S6400x128) zero2, View.ld_unit_zero (S := S128x128) zero2,
    View.ld_unit_zero (S := S128x1) zero2]

/-! ## From any contents -/

/-- Region 0's body at point `t`, called as the pipeline calls it, from its four staging buffers at ANY contents:
    it hands them back at some contents; the invariant and what the core owes pass through unread. -/
theorem body0_forget (V : Contents F) (c : Dev nD) (t : Fin cfg0.N) :
    iprop((dat0 V c).Φ t.castSucc ∗ (dat0 V c).owesAt () t.castSucc
        ∗ (∃ X, owns (c : Thread nD τ) (st0_0 t) fullShare X)
        ∗ (∃ X, owns (c : Thread nD τ) (st0_1 t) fullShare X)
        ∗ (∃ X, owns (c : Thread nD τ) (st0_2 t) fullShare X)
        ∗ (∃ X, owns (c : Thread nD τ) (st0_3 t) fullShare X))
      ⊢ wp frame (wpE (defs₀ (F := F)) Variants.none c none) Set.univ (bodyAt0 t) (fun _ =>
          iprop((dat0 V c).Φ t.succ ∗ (dat0 V c).owesAt () t.succ
            ∗ (∃ X, owns (c : Thread nD τ) (st0_0 t) fullShare X)
            ∗ (∃ X, owns (c : Thread nD τ) (st0_1 t) fullShare X)
            ∗ (∃ X, owns (c : Thread nD τ) (st0_2 t) fullShare X)
            ∗ (∃ X, owns (c : Thread nD τ) (st0_3 t) fullShare X))) := by
  unfold bodyAt0
  rw [show (dat0 V c).Φ t.succ = (dat0 V c).Φ t.castSucc from rfl,
    show (dat0 V c).owesAt () t.succ = (dat0 V c).owesAt () t.castSucc from rfl]
  iintro ⟨HΦ, Ho, ⟨%X0, H0⟩, ⟨%X1, H1⟩, ⟨%X2, H2⟩, ⟨%X3, H3⟩⟩
  iapply (sound_kernel0 (F := F) c Set.univ _ _ _ _ _ _ _ _ _ X0 X1 X2 _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists _; iexact H0
  isplitl [H1]; · iexists _; iexact H1
  isplitl [H2]; · iexists _; iexact H2
  iexists _; iexact H3

/-! ## What the body finds in each staging buffer -/

section Before
variable (V : Contents F) (c : Dev nD)

/-- The rows of `x`, fetched at every point: the block's rows inside the array, and past them a word nothing names. -/
theorem before0_0 (t : Fin cfg0.N) (d) :
    (dat0 V c).before 0 t d = win0_0.fill (grid0.coords t) d (xblk V c t) := by
  unfold Dat.before; rw [if_pos (fetch0_0 t)]; rfl

/-- The weights and the bias are fetched at the first point only; their blocks are the whole arrays at every point, and
    the body leaves them in place. -/
theorem before0_1 (t : Fin cfg0.N) (d) : (dat0 V c).before 1 t d = wblk V c t :=
  ((dat0 V c).before_in_eq_fetched 1 rfl (fun _ => rfl) (fun _ _ _ => rfl) (fun _ => rfl) t d).trans rfl
theorem before0_2 (t : Fin cfg0.N) (d) : (dat0 V c).before 2 t d = bblk V c t :=
  ((dat0 V c).before_in_eq_fetched 2 rfl (fun _ => rfl) (fun _ _ _ => rfl) (fun _ => rfl) t d).trans rfl

/-- The result's buffer was written back at the point before (or this is the first point): it holds anything. -/
theorem before0_3 (t : Fin cfg0.N) (d) : (dat0 V c).before 3 t d = d :=
  (dat0 V c).before_out_reset 3 rfl t
    (by by_cases h : t.val = 0
        · exact .inl h
        · exact .inr ⟨h, flush0_3 _⟩) d

end Before

/-! ## The arithmetic reads one row of `x` per column of the result -/

/-- The matmul's right operand at result index `j` and any contraction position sits in row `j 1`: the
    operand's rows are the result's columns. -/
theorem rhs_row (j : S128x6400.Idx) (k : dot_S128x128_S6400x128_S128x6400_1_1_0_0_n_n.contr.Idx) :
    (dot_S128x128_S6400x128_S128x6400_1_1_0_0_n_n.rhsIdx j k 0).val = (j 1).val := by
  unfold DotDims.rhsIdx
  rw [dif_neg (show ¬(0 : Fin S6400x128.rank) ∈ dot_S128x128_S6400x128_S128x6400_1_1_0_0_n_n.rhsBatch by decide),
    dif_pos (show (0 : Fin S6400x128.rank) ∈ dot_S128x128_S6400x128_S128x6400_1_1_0_0_n_n.rhsNonContracting by decide)]
  rfl

/-- Over the extended reals the result at `(r, q)` is `tanh (Σₖ W (r, k) · X (q, k) + b (r, 0))`: of `X` it reads row
    `q` only. So two blocks that agree on row `j 1` give the same result at `j`. -/
theorem k0_pay1_row (X X' : Vec Ideal S6400x128 .f32) (W : Vec Ideal S128x128 .f32) (b : Vec Ideal S128x1 .f32)
    (j : S128x6400.Idx) (h : ∀ y : S6400x128.Idx, (y 0).val = (j 1).val → X y = X' y) :
    k0_pay1 (F := Ideal) X W b j = k0_pay1 (F := Ideal) X' W b j := by
  have hm : ∀ (Wt : FVec Ideal S128x128 .bf16) (acc : FVec Ideal S128x6400 .f32),
      matmul dot_S128x128_S6400x128_S128x6400_1_1_0_0_n_n none Wt (truncf .bf16 X bitsLt_bf16_f32) acc j
        = matmul dot_S128x128_S6400x128_S128x6400_1_1_0_0_n_n none Wt (truncf .bf16 X' bitsLt_bf16_f32) acc j := by
    intro Wt acc
    refine (Ideal.matmul_apply _ none Wt _ acc j).trans (Eq.trans ?_ (Ideal.matmul_apply _ none Wt _ acc j).symm)
    refine congrArg (acc j + ·) (Finset.sum_congr rfl fun k _ => ?_)
    refine congrArg (Wt (dot_S128x128_S6400x128_S128x6400_1_1_0_0_n_n.lhsIdx j k) * ·) ?_
    exact h _ (rhs_row j k)
  unfold k0_pay1
  exact congrArg (fun z : Ideal .f32 => FloatOps.tanh (FloatOps.addf z _)) (hm _ _)

/-- A filled-out block does not depend on the filler at an index the transfer moves. -/
theorem fill_filler {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- At every point the result's block keeps as many columns inside its array as the `x` block keeps rows, and
    the `x` block keeps all its 128 lanes. -/
theorem xsize_facts : ∀ t : Fin cfg0.N,
    win0_3.xsize (grid0.coords t) 1 = win0_0.xsize (grid0.coords t) 0 ∧ win0_0.xsize (grid0.coords t) 1 = 128 :=
  (by decide +kernel : ∀ t : Fin grid0.N,
    win0_3.xsize (grid0.coords t) 1 = win0_0.xsize (grid0.coords t) 0 ∧ win0_0.xsize (grid0.coords t) 1 = 128)

/-- So, on the columns the write-back moves, what the body computes from the `x` block filled out with ANY words is
    what it computes from the block filled out with zeros: those columns read rows of `x` inside the array. -/
theorem cut_pay_fill (V : Contents Ideal) (c : Dev nD) (t : Fin cfg0.N) (d : Vec Ideal S6400x128 .f32) :
    win0_3.cut (grid0.coords t)
        (k0_pay1 (F := Ideal) (win0_0.fill (grid0.coords t) d (xblk V c t)) (wblk V c t) (bblk V c t))
      = win0_3.cut (grid0.coords t) (oblk V c t) := by
  funext j
  show k0_pay1 (F := Ideal) (win0_0.fill (grid0.coords t) d (xblk V c t)) (wblk V c t) (bblk V c t) (win0_3.xinj (grid0.coords t) j)
    = oblk V c t (win0_3.xinj (grid0.coords t) j)
  unfold oblk xfull
  refine k0_pay1_row _ _ _ _ _ fun y hy => ?_
  refine fill_filler win0_0 (grid0.coords t) _ _ _ y ((win0_0.moved_iff _ y).mpr fun a => ?_)
  have hj : (j 1).val < win0_3.xsize (grid0.coords t) 1 := (j 1).isLt
  have hy1 : (y 1).val < 128 := (y 1).isLt
  match a with
  | ⟨0, _⟩ =>
    show (y 0).val < win0_0.xsize (grid0.coords t) 0
    rw [← (xsize_facts t).1, hy]; exact hj
  | ⟨1, _⟩ =>
    show (y 1).val < win0_0.xsize (grid0.coords t) 1
    rw [(xsize_facts t).2]; exact hy1

/-! ## What the proof data names, window by window -/

section After
variable (V : Contents F) (c : Dev nD) (t : Fin cfg0.N)
theorem after0_0 : (dat0 V c).after 0 t = xfull V c t := by dsimp only [dat0]
theorem after0_1 : (dat0 V c).after 1 t = wblk V c t := by dsimp only [dat0]
theorem after0_2 : (dat0 V c).after 2 t = bblk V c t := by dsimp only [dat0]
theorem after0_3 : (dat0 V c).after 3 t = oblk V c t := by dsimp only [dat0]
end After

/-- Region 0's body at point `t` over the extended reals. It finds the `x` block filled out past the array's end with
    words `d0` nothing names, the weights, the bias, and anything in the result's buffer; it leaves the inputs as
    found and the result's buffer at its arithmetic on them. On the rows inside the array the `x` buffer is the block
    the proof data names; on the columns inside the array the result's is what the proof data names, because those
    columns read only rows of `x` inside the array (`cut_pay_fill`) — which is all the two loose windows' posts state. -/
theorem body0_exact (V : Contents Ideal) (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d)))
      ⊢ wp frame (wpE (defs₀ (F := Ideal)) Variants.none c none) Set.univ (bodyAt0 t) (fun _ =>
          iprop((dat0 V c).Φ t.succ ∗ (dat0 V c).owesAt () t.succ
            ∗ (∃ d, owns (c : Thread nD τ) (st0_0 t) fullShare
                (win0_0.fill (grid0.coords t) d (win0_0.cut (grid0.coords t) ((dat0 V c).after 0 t))))
            ∗ owns (c : Thread nD τ) (st0_1 t) fullShare ((dat0 V c).after 1 t)
            ∗ owns (c : Thread nD τ) (st0_2 t) fullShare ((dat0 V c).after 2 t)
            ∗ (∃ d, owns (c : Thread nD τ) (st0_3 t) fullShare
                (win0_3.fill (grid0.coords t) d (win0_3.cut (grid0.coords t) ((dat0 V c).after 3 t)))))) := by
  unfold bodyAt0
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  rw [before0_0 V c t d0, before0_1 V c t d1, before0_2 V c t d2, before0_3 V c t d3]
  iapply (sound_kernel0 (F := Ideal) c Set.univ _ _ _ _ _ _ _ _ _
    (win0_0.fill (grid0.coords t) d0 (xblk V c t)) (wblk V c t) (bblk V c t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show win0_0.cut (grid0.coords t) (xfull V c t) = xblk V c t from win0_0.cut_fill _ _ _]
    iexact H0
  isplitl [H1]; · iexact H1
  isplitl [H2]; · iexact H2
  iexists (k0_pay1 (F := Ideal) (win0_0.fill (grid0.coords t) d0 (xblk V c t)) (wblk V c t) (bblk V c t))
  rw [win0_3.fill_congr_cut (grid0.coords t) (cut_pay_fill V c t d0)]
  iexact H3

end Body0

open Body0

/-! ## The two obligations -/

/-- Region 0's body at any point runs from ANY contents of its four staging buffers and returns them at some contents. -/
theorem obl0_forget (V : Contents F) (c : Dev nD) :
    BodyObligation (dat0 V c) (defs₀ (F := F)) Variants.none () Set.univ (fun _ => true) := fun t => by
  rw [bigSep_W0]
  exact body0_forget V c t

/-- Over the extended reals region 0's body leaves, on the part of each block inside its array, what `dat0` names. -/
theorem obl0_exact (V : Contents Ideal) (c : Dev nD) :
    BodyObligationLoose (dat0 (F := Ideal) V c) (defs₀ (F := Ideal)) Variants.none () Set.univ := fun t => by
  rw [bigSep_W0, bigSep_W0]
  exact body0_exact V c t

end Cert.Kernel.Hand

end
-- ==== Proof.KB.Body1.lean ====
/-
  Region 1's body at a grid point. The kernel function reads its two input blocks whole — 128 features by 6400 edges of
  each gathered embedding —, reads the output block once without using what it read, and stores over the whole
  output block the clamped cosine similarity of the two inputs, edge by edge. So whatever the three staging buffers
  hold when the body is entered, it leaves the two inputs as they were and the output at the similarity of the two;
  and since every input block is fetched afresh at every point, what the inputs hold on entry is the two arrays'
  blocks of that point.
-/
import proofs.«419771_j9096740733412_1_alg».proof.Proof.KB.Fold
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ U2 ℕ

/-! ## The kernel function on arbitrary whole buffers -/

/-- The offsets of the body's one store, all zero. -/
theorem zero_offsets : (![0, 0] : Fin 2 → Nat) = fun _ => 0 := by
  funext a; match a with | ⟨0, _⟩ => rfl | ⟨1, _⟩ => rfl

set_option maxHeartbeats 1000000 in
/-- From the two inputs at `x0`, `x1` and the output at anything, the kernel function runs to the inputs as they were and
    the output at the similarity of `x0` and `x1`: its one store is through the whole-block rectangle, so what it leaves
    is its payload. -/
theorem sound_kernel1 (c : Dev nD) (E : Set ℕ) (i : grid1.Coords)
    (arg1 : Memref sig .tc .vmem S128x6400 .f32) (harg1 : arg1.IsWhole)
    (arg2 : Memref sig .tc .vmem S128x6400 .f32) (harg2 : arg2.IsWhole)
    (arg3 : Memref sig .tc .vmem S1x6400 .f32) (harg3 : arg3.IsWhole)
    (x0 x1 : Vec F S128x6400 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__cosine_kernel i arg1 harg1 arg2 harg2 arg3 harg3) K := by
  simp only [cc1__cosine_kernel_eq_skeleton]; unfold cc1__cosine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zero_offsets inb_S1x6400_S1x6400_0_0 y⟩),
    View.canon_unit_zero zero_offsets]
  simp only [View.readAt_eq_ld, View.ld_unit_zero (S := S128x6400) zero_offsets]

/-! ## The body at a point, its buffers at anything -/

/-- At any point, from any contents of the three current staging buffers, the body runs and hands the buffers back,
    the invariant and what the core owes untouched. -/
theorem sound_body1_any (V : Contents F) (c : Dev nD) (t : Fin cfg1.N) :
    iprop((dat1 V c).Φ t.castSucc ∗ (dat1 V c).owesAt () t.castSucc
        ∗ (∃ X, owns (c : Thread nD τ) (st1_0 t) fullShare X)
        ∗ (∃ X, owns (c : Thread nD τ) (st1_1 t) fullShare X)
        ∗ (∃ X, owns (c : Thread nD τ) (st1_2 t) fullShare X))
      ⊢ wp frame (wpE (defs₀ (F := F)) Variants.none c none) Set.univ (bodyAt1 t) (fun _ =>
          iprop((dat1 V c).Φ t.succ ∗ (dat1 V c).owesAt () t.succ
            ∗ (∃ X, owns (c : Thread nD τ) (st1_0 t) fullShare X)
            ∗ (∃ X, owns (c : Thread nD τ) (st1_1 t) fullShare X)
            ∗ (∃ X, owns (c : Thread nD τ) (st1_2 t) fullShare X))) := by
  unfold bodyAt1
  rw [show (dat1 V c).Φ t.succ = (dat1 V c).Φ t.castSucc from rfl,
    show (dat1 V c).owesAt () t.succ = (dat1 V c).owesAt () t.castSucc from rfl]
  iintro ⟨HΦ, Ho, ⟨%X0, H0⟩, ⟨%X1, H1⟩, ⟨%X2, H2⟩⟩
  iapply (sound_kernel1 c Set.univ _ _ _ _ _ _ _ X0 X1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

/-- Region 1's body at any point runs from ANY contents of its three staging buffers and returns them at some contents. -/
theorem obl1_forget (V : Contents F) (c : Dev nD) :
    BodyObligation (dat1 V c) (defs₀ (F := F)) Variants.none () Set.univ (fun _ => true) := fun t => by
  rw [bigSep_W1]
  exact sound_body1_any V c t

/-! ## The body at a point, its buffers at what the pipeline put there -/

/-- What the body leaves, window by window. -/
theorem after1_0 (V : Contents F) (c : Dev nD) (t : Fin cfg1.N) : (dat1 V c).after 0 t = sblk V c t := by dsimp only [dat1]
theorem after1_1 (V : Contents F) (c : Dev nD) (t : Fin cfg1.N) : (dat1 V c).after 1 t = dblk V c t := by dsimp only [dat1]
theorem after1_2 (V : Contents F) (c : Dev nD) (t : Fin cfg1.N) : (dat1 V c).after 2 t = eblk V c t := by dsimp only [dat1]

/-- The first gathered embedding's window is fetched at every point and its blocks lie inside the array, so whenever
    the body runs its buffer holds the array's block of that point; -/
theorem before1_0 (V : Contents F) (c : Dev nD) (t : Fin cfg1.N) (d) : (dat1 V c).before 0 t d = sblk V c t := by
  rw [(dat1 V c).before_fetched 0 t (fetch1_0 t) d]
  unfold Dat.fetched Dat.blockOf sblk
  dsimp only [dat1]
  rfl

/-- the same for the second. -/
theorem before1_1 (V : Contents F) (c : Dev nD) (t : Fin cfg1.N) (d) : (dat1 V c).before 1 t d = dblk V c t := by
  rw [(dat1 V c).before_fetched 1 t (fetch1_1 t) d]
  unfold Dat.fetched Dat.blockOf dblk
  dsimp only [dat1]
  rfl

/-- At any point, from the two input buffers at their blocks and the output buffer at anything, the body leaves the
    inputs at their blocks and the output at the similarity of the two. -/
theorem sound_body1 (V : Contents F) (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  unfold bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (sblk V c t) (dblk V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Region 1's body leaves in each staging buffer what `dat1` names. -/
theorem obl1_exact (V : Contents F) (c : Dev nD) :
    BodyObligation (dat1 V c) (defs₀ (F := F)) Variants.none () Set.univ := fun t => by
  rw [bigSep_W1, bigSep_W1]
  exact sound_body1 V c t

end Cert.Kernel.Hand

end
-- ==== Proof.KB.HostFacts.lean ====
/-
  What the host stretches of the idealized kernel program's @main write. Each stretch is a straight line of
  tensor operations, every one of which rewrites exactly one buffer — its result — and allocates none. So a
  stretch changes only the buffers in the list of its operations' results, and a reference outside that list
  holds afterwards what it held before. @main's six argument arrays are the result of no operation, hence every
  stretch leaves each of them as it found it.
-/
import proofs.«419771_j9096740733412_1_alg».proof.Proof.KB.Fold
import Idealize.ShloMosaic.Lib.StableHlo.Run
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

/-- The six argument arrays of @main. -/
abbrev argRefs : List (Ref sig .tc) := [main_arg0, main_arg1, main_arg2, main_arg3, main_arg4, main_arg5]

/-! ### `main_part0_ops0` (5 operations) -/

/-- No operation of `main_part0_ops0` allocates a buffer. -/
theorem part0_ops0_fresh : (main_part0_ops0 : List (HloOp τ sig (Elt F))).Forall fun op => op.fresh = ∅ := by
  simp only [List.Forall]; repeat' constructor
/-- The references `main_part0_ops0`'s operations write: each operation's result, in order. -/
abbrev part0_ops0_W : List (Ref sig .tc) :=
  [main_v0, main_v1, main_v2, main_v3, main_v4]
/-- Every operation of `main_part0_ops0` writes its one result, which is in the list. -/
theorem part0_ops0_writes : (main_part0_ops0 : List (HloOp τ sig (Elt F))).Forall fun op => op.writes ⊆ (part0_ops0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part0_ops0` what it held before. -/
theorem part0_ops0_of (V : Valuation τ sig (Elt F)) (r : Ref sig .tc) (h : r ∉ part0_ops0_W) :
    StableHlo.after (main_part0_ops0 : List (HloOp τ sig (Elt F))) V (Proc.devRef .tc r) = V (Proc.devRef .tc r) :=
  StableHlo.after_of_writes_sub _ V part0_ops0_writes h
/-- `main_part0_ops0` writes none of the six argument arrays. -/
theorem part0_ops0_keep (V : Valuation τ sig (Elt F)) (a : Ref sig .tc) (ha : a ∈ argRefs) :
    StableHlo.after (main_part0_ops0 : List (HloOp τ sig (Elt F))) V (Proc.devRef .tc a) = V (Proc.devRef .tc a) := by
  simp only [argRefs, List.mem_cons, List.not_mem_nil, or_false] at ha
  rcases ha with rfl | rfl | rfl | rfl | rfl | rfl <;> exact part0_ops0_of V _ (by decide)

/-! ### `main_part0_ops1` (23 operations) -/

/-- No operation of `main_part0_ops1` allocates a buffer. -/
theorem part0_ops1_fresh : (main_part0_ops1 : List (HloOp τ sig (Elt F))).Forall fun op => op.fresh = ∅ := by
  simp only [List.Forall]; repeat' constructor
/-- The references `main_part0_ops1`'s operations write: each operation's result, in order. -/
abbrev part0_ops1_W : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v6]
/-- Every operation of `main_part0_ops1` writes its one result, which is in the list. -/
theorem part0_ops1_writes : (main_part0_ops1 : List (HloOp τ sig (Elt F))).Forall fun op => op.writes ⊆ (part0_ops1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part0_ops1` what it held before. -/
theorem part0_ops1_of (V : Valuation τ sig (Elt F)) (r : Ref sig .tc) (h : r ∉ part0_ops1_W) :
    StableHlo.after (main_part0_ops1 : List (HloOp τ sig (Elt F))) V (Proc.devRef .tc r) = V (Proc.devRef .tc r) :=
  StableHlo.after_of_writes_sub _ V part0_ops1_writes h
/-- `main_part0_ops1` writes none of the six argument arrays. -/
theorem part0_ops1_keep (V : Valuation τ sig (Elt F)) (a : Ref sig .tc) (ha : a ∈ argRefs) :
    StableHlo.after (main_part0_ops1 : List (HloOp τ sig (Elt F))) V (Proc.devRef .tc a) = V (Proc.devRef .tc a) := by
  simp only [argRefs, List.mem_cons, List.not_mem_nil, or_false] at ha
  rcases ha with rfl | rfl | rfl | rfl | rfl | rfl <;> exact part0_ops1_of V _ (by decide)

/-! ### `main_part0_ops2` (23 operations) -/

/-- No operation of `main_part0_ops2` allocates a buffer. -/
theorem part0_ops2_fresh : (main_part0_ops2 : List (HloOp τ sig (Elt F))).Forall fun op => op.fresh = ∅ := by
  simp only [List.Forall]; repeat' constructor
/-- The references `main_part0_ops2`'s operations write: each operation's result, in order. -/
abbrev part0_ops2_W : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7]
/-- Every operation of `main_part0_ops2` writes its one result, which is in the list. -/
theorem part0_ops2_writes : (main_part0_ops2 : List (HloOp τ sig (Elt F))).Forall fun op => op.writes ⊆ (part0_ops2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part0_ops2` what it held before. -/
theorem part0_ops2_of (V : Valuation τ sig (Elt F)) (r : Ref sig .tc) (h : r ∉ part0_ops2_W) :
    StableHlo.after (main_part0_ops2 : List (HloOp τ sig (Elt F))) V (Proc.devRef .tc r) = V (Proc.devRef .tc r) :=
  StableHlo.after_of_writes_sub _ V part0_ops2_writes h
/-- `main_part0_ops2` writes none of the six argument arrays. -/
theorem part0_ops2_keep (V : Valuation τ sig (Elt F)) (a : Ref sig .tc) (ha : a ∈ argRefs) :
    StableHlo.after (main_part0_ops2 : List (HloOp τ sig (Elt F))) V (Proc.devRef .tc a) = V (Proc.devRef .tc a) := by
  simp only [argRefs, List.mem_cons, List.not_mem_nil, or_false] at ha
  rcases ha with rfl | rfl | rfl | rfl | rfl | rfl <;> exact part0_ops2_of V _ (by decide)

/-! ### `main_part0_ops3` (1 operation) -/

/-- No operation of `main_part0_ops3` allocates a buffer. -/
theorem part0_ops3_fresh : (main_part0_ops3 : List (HloOp τ sig (Elt F))).Forall fun op => op.fresh = ∅ := by
  simp only [List.Forall]; repeat' constructor
/-- The references `main_part0_ops3`'s operations write: each operation's result, in order. -/
abbrev part0_ops3_W : List (Ref sig .tc) :=
  [main_v9]
/-- Every operation of `main_part0_ops3` writes its one result, which is in the list. -/
theorem part0_ops3_writes : (main_part0_ops3 : List (HloOp τ sig (Elt F))).Forall fun op => op.writes ⊆ (part0_ops3_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part0_ops3` what it held before. -/
theorem part0_ops3_of (V : Valuation τ sig (Elt F)) (r : Ref sig .tc) (h : r ∉ part0_ops3_W) :
    StableHlo.after (main_part0_ops3 : List (HloOp τ sig (Elt F))) V (Proc.devRef .tc r) = V (Proc.devRef .tc r) :=
  StableHlo.after_of_writes_sub _ V part0_ops3_writes h
/-- `main_part0_ops3` writes none of the six argument arrays. -/
theorem part0_ops3_keep (V : Valuation τ sig (Elt F)) (a : Ref sig .tc) (ha : a ∈ argRefs) :
    StableHlo.after (main_part0_ops3 : List (HloOp τ sig (Elt F))) V (Proc.devRef .tc a) = V (Proc.devRef .tc a) := by
  simp only [argRefs, List.mem_cons, List.not_mem_nil, or_false] at ha
  rcases ha with rfl | rfl | rfl | rfl | rfl | rfl <;> exact part0_ops3_of V _ (by decide)

/-! ### `main_part0_ops4` (3 operations) -/

/-- No operation of `main_part0_ops4` allocates a buffer. -/
theorem part0_ops4_fresh : (main_part0_ops4 : List (HloOp τ sig (Elt F))).Forall fun op => op.fresh = ∅ := by
  simp only [List.Forall]; repeat' constructor
/-- The references `main_part0_ops4`'s operations write: each operation's result, in order. -/
abbrev part0_ops4_W : List (Ref sig .tc) :=
  [main_call2_cst, main_call2_v0, main_v10]
/-- Every operation of `main_part0_ops4` writes its one result, which is in the list. -/
theorem part0_ops4_writes : (main_part0_ops4 : List (HloOp τ sig (Elt F))).Forall fun op => op.writes ⊆ (part0_ops4_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part0_ops4` what it held before. -/
theorem part0_ops4_of (V : Valuation τ sig (Elt F)) (r : Ref sig .tc) (h : r ∉ part0_ops4_W) :
    StableHlo.after (main_part0_ops4 : List (HloOp τ sig (Elt F))) V (Proc.devRef .tc r) = V (Proc.devRef .tc r) :=
  StableHlo.after_of_writes_sub _ V part0_ops4_writes h
/-- `main_part0_ops4` writes none of the six argument arrays. -/
theorem part0_ops4_keep (V : Valuation τ sig (Elt F)) (a : Ref sig .tc) (ha : a ∈ argRefs) :
    StableHlo.after (main_part0_ops4 : List (HloOp τ sig (Elt F))) V (Proc.devRef .tc a) = V (Proc.devRef .tc a) := by
  simp only [argRefs, List.mem_cons, List.not_mem_nil, or_false] at ha
  rcases ha with rfl | rfl | rfl | rfl | rfl | rfl <;> exact part0_ops4_of V _ (by decide)

/-! ### `main_part0_ops5` (18 operations) -/

/-- No operation of `main_part0_ops5` allocates a buffer. -/
theorem part0_ops5_fresh : (main_part0_ops5 : List (HloOp τ sig (Elt F))).Forall fun op => op.fresh = ∅ := by
  simp only [List.Forall]; repeat' constructor
/-- The references `main_part0_ops5`'s operations write: each operation's result, in order. -/
abbrev part0_ops5_W : List (Ref sig .tc) :=
  [main_v11, main_v12, main_v13, main_cst, main_v14, main_v15, main_cst_0, main_v16, main_v17, main_v18, main_cst_1, main_v19, main_v20, main_cst_2, main_v21, main_v22, main_v23, main_cst_3]
/-- Every operation of `main_part0_ops5` writes its one result, which is in the list. -/
theorem part0_ops5_writes : (main_part0_ops5 : List (HloOp τ sig (Elt F))).Forall fun op => op.writes ⊆ (part0_ops5_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part0_ops5` what it held before. -/
theorem part0_ops5_of (V : Valuation τ sig (Elt F)) (r : Ref sig .tc) (h : r ∉ part0_ops5_W) :
    StableHlo.after (main_part0_ops5 : List (HloOp τ sig (Elt F))) V (Proc.devRef .tc r) = V (Proc.devRef .tc r) :=
  StableHlo.after_of_writes_sub _ V part0_ops5_writes h
/-- `main_part0_ops5` writes none of the six argument arrays. -/
theorem part0_ops5_keep (V : Valuation τ sig (Elt F)) (a : Ref sig .tc) (ha : a ∈ argRefs) :
    StableHlo.after (main_part0_ops5 : List (HloOp τ sig (Elt F))) V (Proc.devRef .tc a) = V (Proc.devRef .tc a) := by
  simp only [argRefs, List.mem_cons, List.not_mem_nil, or_false] at ha
  rcases ha with rfl | rfl | rfl | rfl | rfl | rfl <;> exact part0_ops5_of V _ (by decide)

/-! ### `main_part0_ops6` (3 operations) -/

/-- No operation of `main_part0_ops6` allocates a buffer. -/
theorem part0_ops6_fresh : (main_part0_ops6 : List (HloOp τ sig (Elt F))).Forall fun op => op.fresh = ∅ := by
  simp only [List.Forall]; repeat' constructor
/-- The references `main_part0_ops6`'s operations write: each operation's result, in order. -/
abbrev part0_ops6_W : List (Ref sig .tc) :=
  [main_call3_v0, main_call3_v1, main_v24]
/-- Every operation of `main_part0_ops6` writes its one result, which is in the list. -/
theorem part0_ops6_writes : (main_part0_ops6 : List (HloOp τ sig (Elt F))).Forall fun op => op.writes ⊆ (part0_ops6_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part0_ops6` what it held before. -/
theorem part0_ops6_of (V : Valuation τ sig (Elt F)) (r : Ref sig .tc) (h : r ∉ part0_ops6_W) :
    StableHlo.after (main_part0_ops6 : List (HloOp τ sig (Elt F))) V (Proc.devRef .tc r) = V (Proc.devRef .tc r) :=
  StableHlo.after_of_writes_sub _ V part0_ops6_writes h
/-- `main_part0_ops6` writes none of the six argument arrays. -/
theorem part0_ops6_keep (V : Valuation τ sig (Elt F)) (a : Ref sig .tc) (ha : a ∈ argRefs) :
    StableHlo.after (main_part0_ops6 : List (HloOp τ sig (Elt F))) V (Proc.devRef .tc a) = V (Proc.devRef .tc a) := by
  simp only [argRefs, List.mem_cons, List.not_mem_nil, or_false] at ha
  rcases ha with rfl | rfl | rfl | rfl | rfl | rfl <;> exact part0_ops6_of V _ (by decide)

/-! ### `main_part0_ops7` (30 operations) -/

set_option maxRecDepth 8192 in
/-- No operation of `main_part0_ops7` allocates a buffer. -/
theorem part0_ops7_fresh : (main_part0_ops7 : List (HloOp τ sig (Elt F))).Forall fun op => op.fresh = ∅ := by
  simp only [List.Forall]; repeat' constructor
/-- The references `main_part0_ops7`'s operations write: each operation's result, in order. -/
abbrev part0_ops7_W : List (Ref sig .tc) :=
  [main_c, main_v25, main_v26, main_c_4, main_v27, main_v28, main_v29, main_v30, main_v31, main_v32, main_c_5, main_v33, main_v34, main_c_6, main_v35, main_v36, main_v37, main_v38, main_v39, main_v40, main_v41, main_c_7, main_v42, main_v43, main_c_8, main_v44, main_v45, main_v46, main_v47, main_v48]
set_option maxRecDepth 8192 in
/-- Every operation of `main_part0_ops7` writes its one result, which is in the list. -/
theorem part0_ops7_writes : (main_part0_ops7 : List (HloOp τ sig (Elt F))).Forall fun op => op.writes ⊆ (part0_ops7_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part0_ops7` what it held before. -/
theorem part0_ops7_of (V : Valuation τ sig (Elt F)) (r : Ref sig .tc) (h : r ∉ part0_ops7_W) :
    StableHlo.after (main_part0_ops7 : List (HloOp τ sig (Elt F))) V (Proc.devRef .tc r) = V (Proc.devRef .tc r) :=
  StableHlo.after_of_writes_sub _ V part0_ops7_writes h
/-- `main_part0_ops7` writes none of the six argument arrays. -/
theorem part0_ops7_keep (V : Valuation τ sig (Elt F)) (a : Ref sig .tc) (ha : a ∈ argRefs) :
    StableHlo.after (main_part0_ops7 : List (HloOp τ sig (Elt F))) V (Proc.devRef .tc a) = V (Proc.devRef .tc a) := by
  simp only [argRefs, List.mem_cons, List.not_mem_nil, or_false] at ha
  rcases ha with rfl | rfl | rfl | rfl | rfl | rfl <;> exact part0_ops7_of V _ (by decide)

/-! ### `main_part1_ops0` (60 operations) -/

set_option maxRecDepth 8192 in
/-- No operation of `main_part1_ops0` allocates a buffer. -/
theorem part1_ops0_fresh : (main_part1_ops0 : List (HloOp τ sig (Elt F))).Forall fun op => op.fresh = ∅ := by
  simp only [List.Forall]; repeat' constructor
/-- The references `main_part1_ops0`'s operations write: each operation's result, in order. -/
abbrev part1_ops0_W : List (Ref sig .tc) :=
  [main_v49, main_cst_9, main_v50, main_v51, main_v52, main_cst_10, main_v53, main_v54, main_v55, main_v56, main_v57, main_v58, main_v59, main_c_11, main_v60, main_v61, main_c_12, main_v62, main_v63, main_v64, main_v65, main_v66, main_v67, main_cst_13, main_v68, main_v69, main_v70, main_cst_14, main_v71, main_v72, main_v73, main_v74, main_v75, main_v76, main_v77, main_c_15, main_v78, main_v79, main_c_16, main_v80, main_v81, main_v82, main_v83, main_v84, main_v85, main_cst_17, main_v86, main_v87, main_v88, main_cst_18, main_v89, main_v90, main_v91, main_v92, main_v93, main_v94, main_v95, main_c_19, main_v96, main_v97]
set_option maxRecDepth 8192 in
/-- Every operation of `main_part1_ops0` writes its one result, which is in the list. -/
theorem part1_ops0_writes : (main_part1_ops0 : List (HloOp τ sig (Elt F))).Forall fun op => op.writes ⊆ (part1_ops0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part1_ops0` what it held before. -/
theorem part1_ops0_of (V : Valuation τ sig (Elt F)) (r : Ref sig .tc) (h : r ∉ part1_ops0_W) :
    StableHlo.after (main_part1_ops0 : List (HloOp τ sig (Elt F))) V (Proc.devRef .tc r) = V (Proc.devRef .tc r) :=
  StableHlo.after_of_writes_sub _ V part1_ops0_writes h
/-- `main_part1_ops0` writes none of the six argument arrays. -/
theorem part1_ops0_keep (V : Valuation τ sig (Elt F)) (a : Ref sig .tc) (ha : a ∈ argRefs) :
    StableHlo.after (main_part1_ops0 : List (HloOp τ sig (Elt F))) V (Proc.devRef .tc a) = V (Proc.devRef .tc a) := by
  simp only [argRefs, List.mem_cons, List.not_mem_nil, or_false] at ha
  rcases ha with rfl | rfl | rfl | rfl | rfl | rfl <;> exact part1_ops0_of V _ (by decide)

/-! ### `main_part2_ops0` (40 operations) -/

set_option maxRecDepth 8192 in
/-- No operation of `main_part2_ops0` allocates a buffer. -/
theorem part2_ops0_fresh : (main_part2_ops0 : List (HloOp τ sig (Elt F))).Forall fun op => op.fresh = ∅ := by
  simp only [List.Forall]; repeat' constructor
/-- The references `main_part2_ops0`'s operations write: each operation's result, in order. -/
abbrev part2_ops0_W : List (Ref sig .tc) :=
  [main_c_20, main_v98, main_v99, main_v100, main_v101, main_v102, main_v103, main_cst_21, main_v104, main_v105, main_v106, main_cst_22, main_v107, main_v108, main_v109, main_v110, main_v111, main_v112, main_v113, main_c_23, main_v114, main_v115, main_c_24, main_v116, main_v117, main_v118, main_v119, main_v120, main_v121, main_cst_25, main_v122, main_v123, main_v124, main_cst_26, main_v125, main_v126, main_v127, main_v128, main_v129, main_v130]
set_option maxRecDepth 8192 in
/-- Every operation of `main_part2_ops0` writes its one result, which is in the list. -/
theorem part2_ops0_writes : (main_part2_ops0 : List (HloOp τ sig (Elt F))).Forall fun op => op.writes ⊆ (part2_ops0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part2_ops0` what it held before. -/
theorem part2_ops0_of (V : Valuation τ sig (Elt F)) (r : Ref sig .tc) (h : r ∉ part2_ops0_W) :
    StableHlo.after (main_part2_ops0 : List (HloOp τ sig (Elt F))) V (Proc.devRef .tc r) = V (Proc.devRef .tc r) :=
  StableHlo.after_of_writes_sub _ V part2_ops0_writes h
/-- `main_part2_ops0` writes none of the six argument arrays. -/
theorem part2_ops0_keep (V : Valuation τ sig (Elt F)) (a : Ref sig .tc) (ha : a ∈ argRefs) :
    StableHlo.after (main_part2_ops0 : List (HloOp τ sig (Elt F))) V (Proc.devRef .tc a) = V (Proc.devRef .tc a) := by
  simp only [argRefs, List.mem_cons, List.not_mem_nil, or_false] at ha
  rcases ha with rfl | rfl | rfl | rfl | rfl | rfl <;> exact part2_ops0_of V _ (by decide)

end Cert.Kernel.Hand

end
-- ==== Proof.KB.FrameInst.lean ====
/-
  The frame of the kernel program at any float instance: no item of @main writes an argument array — a stretch of
  host operations writes only its own results, a pallas_call only its result array (its operands come back as they
  went in) — so whatever contents the run passes through, the six arguments hold their launch contents at the end.
  Nothing is said of what the regions compute: every staging buffer is handed to a body at contents not named and
  taken back at contents not named.
-/
import proofs.«419771_j9096740733412_1_alg».proof.Proof.KB.Run
import proofs.«419771_j9096740733412_1_alg».proof.Proof.KB.Body0
import proofs.«419771_j9096740733412_1_alg».proof.Proof.KB.Body1
import proofs.«419771_j9096740733412_1_alg».proof.Proof.KB.HostFacts

noncomputable section

namespace Cert.Kernel.Hand

open Cert.Kernel Cert.Kernel.Gen
open Idealize.ShloMosaic Idealize.ShloMosaic.TcCoe
open Idealize.SL Idealize.SL.Sem
open Idealize.ShloMosaic.Pipeline (Dat RDat BodyObligation BodyObligationLoose)

variable {F : FTy → Type} [FloatOps F]

/-- Every argument array holds what the launch memory held. -/
def Keeps (m : (ℓ : Loc nD τ sig) → Buf (Elt F) ℓ) (c : Dev nD) (V : Valuation τ sig (Elt F)) : Prop :=
  ∀ a ∈ argRefs, V (Proc.devRef .tc a) = W0 m c (Proc.devRef .tc a)

variable (m : (ℓ : Loc nD τ sig) → Buf (Elt F) ℓ)

/-- A stretch that writes no argument keeps them. -/
theorem Keeps.after {c : Dev nD} {V : Valuation τ sig (Elt F)} (ops : List (HloOp τ sig (Elt F)))
    (hk : ∀ (V : Valuation τ sig (Elt F)) (a : Ref sig .tc), a ∈ argRefs →
      StableHlo.after ops V (Proc.devRef .tc a) = V (Proc.devRef .tc a))
    (h : Keeps m c V) : Keeps m c (StableHlo.after ops V) :=
  fun a ha => (hk V a ha).trans (h a ha)

/-- The first stretch keeps them from the launch contents. -/
theorem keeps_W1 (c : Dev nD) : Keeps m c (W1 m c) := fun a ha => part0_ops0_keep (W0 m c) a ha

/-- No argument is region 1's array. -/
theorem arr1_ne : ∀ a ∈ argRefs, ∀ w : Fin cfg1.W, Pipeline.arrRef spec1 w ≠ a := by decide

/-- Of the arguments, region 0 stages `x` (window 0) and the weight matrix (window 1), as inputs; the others are none
    of its arrays. -/
theorem arr0_ne : ∀ a ∈ [main_arg1, main_arg2, main_arg4, main_arg5], ∀ w : Fin cfg0.W, Pipeline.arrRef spec0 w ≠ a := by decide

/-- Region 0 hands its operands back as entered and writes only its result array. -/
theorem keeps_reg0 (c : Dev nD) (fgt : Fin cfg0.W → Bool)
    (Z : (w : Fin cfg0.W) → Buf (Elt F) ((cfg0.win w).arr.view.loc (c : Thread nD τ)))
    (hZ : ∀ w, ((dat0 (V1 m) c).toRForget fgt).ArrAt w cfg0.N (Z w)) :
    Keeps m c (Pipeline.withArrays spec0 c (W1 m c) Z) := by
  have hin : ∀ w : Fin cfg0.W, (cfg0.win w).isOut = false → Z w = (dat0 (V1 m) c).A w := fun w hw => by
    have := hZ w; rw [Pipeline.RDat.ArrAt_in _ w hw] at this; exact this
  intro a ha
  simp only [argRefs, List.mem_cons, List.mem_singleton, List.not_mem_nil, or_false] at ha
  rcases ha with rfl | rfl | rfl | rfl | rfl | rfl
  · exact (Pipeline.withArrays_arr spec0 launch0.win.arr_inj c _ _ 0).trans ((hin 0 rfl).trans (keeps_W1 m c main_arg0 (by decide)))
  · exact (Pipeline.withArrays_of_ne spec0 c _ _ main_arg1 (arr0_ne main_arg1 (by decide))).trans (keeps_W1 m c main_arg1 (by decide))
  · exact (Pipeline.withArrays_of_ne spec0 c _ _ main_arg2 (arr0_ne main_arg2 (by decide))).trans (keeps_W1 m c main_arg2 (by decide))
  · exact (Pipeline.withArrays_arr spec0 launch0.win.arr_inj c _ _ 1).trans ((hin 1 rfl).trans (keeps_W1 m c main_arg3 (by decide)))
  · exact (Pipeline.withArrays_of_ne spec0 c _ _ main_arg4 (arr0_ne main_arg4 (by decide))).trans (keeps_W1 m c main_arg4 (by decide))
  · exact (Pipeline.withArrays_of_ne spec0 c _ _ main_arg5 (arr0_ne main_arg5 (by decide))).trans (keeps_W1 m c main_arg5 (by decide))

/-- Region 1 stages no argument. -/
theorem keeps_reg1 (c : Dev nD) (V : Valuation τ sig (Elt F))
    (Z : (w : Fin cfg1.W) → Buf (Elt F) ((cfg1.win w).arr.view.loc (c : Thread nD τ))) (h : Keeps m c V) :
    Keeps m c (Pipeline.withArrays spec1 c V Z) :=
  fun a ha => (Pipeline.withArrays_of_ne spec1 c V Z a (arr1_ne a ha)).trans (h a ha)

/-- An argument array is an unscoped buffer of the TensorCore. -/
theorem arg_mem_uc : ∀ a ∈ argRefs, (Proc.devRef .tc a : DevRef τ sig) ∈ Pipeline.ucRefs τ sig := fun a ha =>
  Finset.mem_filter.mpr ⟨StableHlo.devRef_mem_tcRefs a, by
    simp only [argRefs, List.mem_cons, List.mem_singleton, List.not_mem_nil, or_false] at ha
    rcases ha with rfl | rfl | rfl | rfl | rfl | rfl <;> decide⟩

/-- THE FRAME, at any float instance: from any launch memory with zero counters every weakly fair execution of @main
    terminates, nothing faulting, and every argument array ends holding its launch contents. -/
theorem frame_open (ρ : Dev nD → PrngReg) :
    θ_run defs (onTc (τ := τ) (main (F := F))) ⟨m, fun _ => 0, ρ⟩ (fun r => ∀ c : Dev nD, ∀ a ∈ argRefs,
      r.2.mem ((c.tc : Thread nD τ).loc a) = m ((c.tc : Thread nD τ).loc a)) :=
  (θ_run defs _ _).mono
    (fun r h c a ha => by
      obtain ⟨V, hV, hm⟩ := h c
      exact (hm _ (arg_mem_uc a ha)).trans (hV a ha))
    (run_open m (fun _ => true) (fun _ => true) ρ
      (fun c => (obl0_forget (V1 m) c).loose) (fun V c => (obl1_forget V c).loose)
      (Keeps m) (Keeps m) (Keeps m) (Keeps m) (Keeps m) (Keeps m) (Keeps m) (Keeps m) (Keeps m) (Keeps m) (Keeps m)
      (fun c Z hZ => keeps_reg0 m c _ Z hZ)
      (fun c V h => h.after m _ part0_ops1_keep) (fun c V h => h.after m _ part0_ops2_keep)
      (fun c V Z h _ => keeps_reg1 m c V Z h)
      (fun c V h => h.after m _ part0_ops3_keep) (fun c V h => h.after m _ part0_ops4_keep)
      (fun c V h => h.after m _ part0_ops5_keep) (fun c V h => h.after m _ part0_ops6_keep)
      (fun c V h => h.after m _ part0_ops7_keep) (fun c V h => h.after m _ part1_ops0_keep)
      (fun c V h => h.after m _ part2_ops0_keep)
      part0_ops0_fresh part0_ops1_fresh part0_ops2_fresh part0_ops3_fresh part0_ops4_fresh part0_ops5_fresh part0_ops6_fresh part0_ops7_fresh part1_ops0_fresh part2_ops0_fresh)

end Cert.Kernel.Hand

end
-- ==== Proof.KI.Fold.lean ====
/-
  The contents of every unscoped buffer at each boundary between the items of the idealized kernel program's @main,
  as a fold from the launch memory: a stretch of host operations applies them in order; a pallas_call leaves its
  operands as entered and its result array at what the grid's write-backs make of it.

  Region 0 computes, block of 6400 rows by block, the transposed embedding tanh(W · xᵀ + b): sixteen blocks over
  100000 rows, so the last block overhangs the array by 2400 rows. The rows past the array's end hold words nothing
  names; here the block a point works on is the array's rows filled out with a zero word, and what the point writes
  back is the kernel's arithmetic on that — of which only the columns inside the array are moved.
  Region 1 computes, block of 6400 edges by block, the clamped cosine similarity of the two gathered embeddings.
-/
import proofs.«419771_j9096740733412_1_alg».proof.Proof.Gen.KernelIdeal.Launch
import proofs.«419771_j9096740733412_1_alg».proof.Proof.Gen.KernelIdeal.Skeleton
import proofs.«419771_j9096740733412_1_alg».proof.Proof.Gen.KernelIdeal.Points
import Idealize.ShloMosaic.Lib.Pipeline.FrameBody
import Idealize.ShloMosaic.Lib.Pipeline.FrameSuffix
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]

/-- The proof's resource algebra: two copies of the pipeline library's, one per pallas_call. -/
abbrev U2 : Type := UR sig nD τ × UR sig nD τ

/-- A core's buffer contents, read at the TensorCore's references. -/
abbrev Contents (F : FTy → Type) [FloatOps F] : Type :=
  (c : Dev nD) → (b : Ref sig .tc) → Buf (Elt F) ((c : Thread nD τ).loc b)

section Regions

variable (V : Contents F)

/-! ## Region 0: the blocks a point works on, and what it leaves -/

/-- The rows of `x` that point `t`'s block holds: 6400 of them, or the 4000 left at the last point. -/
def xblk (c : Dev nD) (t : Fin cfg0.N) : (win0_0.xblock (grid0.coords t)).Idx → Elt F .f32 :=
  (win0_0.blk t).view.read (Elt F) (V c (Pipeline.arrRef spec0 0))
/-- Those rows filled out to a whole block with a zero word. -/
def xfull (c : Dev nD) (t : Fin cfg0.N) : Vec F S6400x128 .f32 :=
  win0_0.fill (grid0.coords t) (fun _ => Scalar.ofBits .f32 0#32) (xblk V c t)
/-- The weight matrix and the bias column: one block each, the whole array. -/
def wblk (c : Dev nD) (t : Fin cfg0.N) : Vec F S128x128 .f32 :=
  (win0_1.blk t).view.read (Elt F) (V c (Pipeline.arrRef spec0 1))
def bblk (c : Dev nD) (t : Fin cfg0.N) : Vec F S128x1 .f32 :=
  (win0_2.blk t).view.read (Elt F) (V c (Pipeline.arrRef spec0 2))
/-- What point `t` computes from its filled-out block. -/
def oblk (c : Dev nD) (t : Fin cfg0.N) : Vec F S128x6400 .f32 :=
  k0_pay1 (xfull V c t) (wblk V c t) (bblk V c t)

/-- Region 0's proof data at the contents `V` it is entered from. -/
def dat0 (c : Dev nD) : Dat τ (Elt F) Unit ℕ U2 ℕ cfg0 c where
  A w := V c (Pipeline.arrRef spec0 w)
  after w t := match w with
    | ⟨0, _⟩ => xfull V c t
    | ⟨1, _⟩ => wblk V c t
    | ⟨2, _⟩ => bblk V c t
    | ⟨3, _⟩ => oblk V c t
  Φ _ := Pipeline.ΦA spec0 c
  q _ := fullShare
  owed _ := 0

/-! ## Region 1 -/

/-- The two gathered embeddings' columns that point `t`'s blocks hold. -/
def sblk (c : Dev nD) (t : Fin cfg1.N) : Vec F S128x6400 .f32 :=
  (win1_0.blk t).view.read (Elt F) (V c (Pipeline.arrRef spec1 0))
def dblk (c : Dev nD) (t : Fin cfg1.N) : Vec F S128x6400 .f32 :=
  (win1_1.blk t).view.read (Elt F) (V c (Pipeline.arrRef spec1 1))
/-- What point `t` computes from them. -/
def eblk (c : Dev nD) (t : Fin cfg1.N) : Vec F S1x6400 .f32 :=
  k1_pay1 (sblk V c t) (dblk V c t)

/-- Region 1's proof data at the contents `V` it is entered from. -/
def dat1 (c : Dev nD) : Dat τ (Elt F) Unit ℕ U2 ℕ cfg1 c where
  A w := V c (Pipeline.arrRef spec1 w)
  after w t := match w with
    | ⟨0, _⟩ => sblk V c t
    | ⟨1, _⟩ => dblk V c t
    | ⟨2, _⟩ => eblk V c t
  Φ _ := Pipeline.ΦA spec1 c
  q _ := fullShare
  owed _ := 0

end Regions

/-! ## The fold through @main -/

variable (m : (ℓ : Loc nD τ sig) → Buf (Elt F) ℓ)

/-- At launch. -/
abbrev W0 : Dev nD → Valuation τ sig (Elt F) := fun c b => m ((c : Dev nD), b)
/-- After the five operations before region 0. -/
abbrev W1 : Dev nD → Valuation τ sig (Elt F) := fun c => StableHlo.after main_part0_ops0 (W0 m c)
abbrev V1 : Contents F := fun c b => W1 m c b
/-- After region 0. -/
def W2 (c : Dev nD) : Valuation τ sig (Elt F) :=
  Pipeline.withArrays spec0 c (W1 m c) fun w => (dat0 (V1 m) c).arrAt w cfg0.N
/-- After the two gathers. -/
abbrev W3 : Dev nD → Valuation τ sig (Elt F) := fun c => StableHlo.after main_part0_ops1 (W2 m c)
abbrev W4 : Dev nD → Valuation τ sig (Elt F) := fun c => StableHlo.after main_part0_ops2 (W3 m c)
abbrev V4 : Contents F := fun c b => W4 m c b
/-- After region 1. -/
def W5 (c : Dev nD) : Valuation τ sig (Elt F) :=
  Pipeline.withArrays spec1 c (W4 m c) fun w => (dat1 (V4 m) c).arrAt w cfg1.N
/-- After each of the remaining stretches. -/
abbrev W6 : Dev nD → Valuation τ sig (Elt F) := fun c => StableHlo.after main_part0_ops3 (W5 m c)
abbrev W7 : Dev nD → Valuation τ sig (Elt F) := fun c => StableHlo.after main_part0_ops4 (W6 m c)
abbrev W8 : Dev nD → Valuation τ sig (Elt F) := fun c => StableHlo.after main_part0_ops5 (W7 m c)
abbrev W9 : Dev nD → Valuation τ sig (Elt F) := fun c => StableHlo.after main_part0_ops6 (W8 m c)
abbrev W10 : Dev nD → Valuation τ sig (Elt F) := fun c => StableHlo.after main_part0_ops7 (W9 m c)
abbrev W11 : Dev nD → Valuation τ sig (Elt F) := fun c => StableHlo.after main_part1_ops0 (W10 m c)
abbrev W12 : Dev nD → Valuation τ sig (Elt F) := fun c => StableHlo.after main_part2_ops0 (W11 m c)

end Cert.KernelIdeal.Hand

end
-- ==== Proof.KI.Run.lean ====
/-
  The kernel program's run, generic in the float instance: @main as its list of items, each item a step between
  THREAD STATES of the form "for some contents V of the core's unscoped buffers satisfying a predicate, every such
  buffer is held at V" — contents chosen by the run, not fixed beforehand. That is what a program needs whose first
  pallas_call's last block overhangs its array: the staging rows past the array's end hold words the machine picks,
  so where the arithmetic is not local in those rows the result array is not a function of the inputs, and the second
  pallas_call is entered from contents known only when it is entered.
-/
import proofs.«419771_j9096740733412_1_alg».proof.Proof.KI.Fold
import Idealize.ShloMosaic.Lib.Pipeline.Regions
import Idealize.ShloMosaic.Lib.Pipeline.RegionsLoop
import Idealize.ShloMosaic.Lib.Pipeline.Kit

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ U2 ℕ

abbrev 𝒱₀ : Variants := Variants.none
/-- No core owes another anything: no level is assigned. -/
abbrev L : GSem nD τ sig → Finset Unit := fun _ => ∅
abbrev lv : GSem nD τ sig → Unit → ℕ := fun _ _ => 0
/-- No pallas_call has a prefetched table. -/
abbrev adm : (p : Fin 2) → (pcfgs (F := F) p).Adm := fun p => (cfgs p).toPCfg_adm

/-- What rides beside the buffers through every item: the generator register at some state, and nothing owed. -/
abbrev Rst (c : Dev nD) : sProp 𝕄 :=
  iprop((∃ r, prngReg c r) ∗ ∃ W, owes (c : Thread nD τ) (0 : CellTallies nD τ sig Unit) W)

/-- The thread state "some contents satisfying `P c`, every unscoped buffer held at them, `R c` beside". -/
abbrev TS (P : Dev nD → Valuation τ sig (Elt F) → Prop) (R : Dev nD → sProp 𝕄) (c : Dev nD) : sProp 𝕄 :=
  iprop(∃ V : Valuation τ sig (Elt F), ⌜P c V⌝ ∗ StableHlo.held (c : Thread nD τ) (Pipeline.ucRefs τ sig) V ∗ R c)

/-! ## A stretch of host operations between two such states -/

/-- A stretch of host operations runs from contents satisfying `Pin` to contents satisfying `Pout`, when `Pout`
    holds of the stretch applied to anything satisfying `Pin`: the contents are opened, the stretch runs over them. -/
def exHost (ops : List (HloOp τ sig (Elt F))) (hsub : ops.Forall fun op => op.bufs ⊆ StableHlo.tcRefs τ sig)
    (hfresh : ops.Forall fun op => op.fresh = ∅)
    (Pin Pout : Dev nD → Valuation τ sig (Elt F) → Prop)
    (himp : ∀ c V, Pin c V → Pout c (StableHlo.after ops V))
    (R : Dev nD → sProp 𝕄) :
    Pipeline.HostSeg (Name := ℕ) (U := U2) (pcfgs (F := F)) defs₀ 𝒱₀ L lv where
  prog := StableHlo.seq ops
  pre := TS Pin R
  post := TS Pout R
  run c {β} k K := by
    iintro ⟨Hk, Hbd, ⟨%V, %hV, Hh, HR⟩, Hla⟩
    iapply ((Pipeline.HostSeg.ofOps (pcfgs (F := F)) defs₀ 𝒱₀ L lv (Pipeline.ucRefs τ sig) ops
      (fun op h => Pipeline.sub_ucRefs op ((List.forall_iff_forall_mem.mp hsub) op h))
      (fun op h => (List.forall_iff_forall_mem.mp hfresh) op h) (fun _ => V) R).run c k K)
    dsimp only [Pipeline.HostSeg.ofOps]
    isplitl [Hk]
    · iintro ⟨Hbd, Hh, HR⟩
      iapply Hk
      isplitl [Hbd]; · iexact Hbd
      iexists (StableHlo.after ops V)
      isplitr; · ipureintro; exact himp c V hV
      isplitl [Hh] <;> iassumption
    isplitl [Hbd]; · iexact Hbd
    isplitl [Hh HR]
    · isplitl [Hh] <;> iassumption
    iexact Hla

/-! ## The proof data, as relations -/

variable (m : (ℓ : Loc nD τ sig) → Buf (Elt F) ℓ)
variable (fgt0 : Fin cfg0.W → Bool) (fgt1 : Fin cfg1.W → Bool)

/-- Every pallas_call's proof data read as relations, the windows `fgt0` / `fgt1` mark forgotten: region 0 at the
    contents its entry finds (a function of the launch memory), region 1 at contents `V` given when it is entered. -/
def rdats (V : Contents F) : (p : Fin 2) → (c : Dev nD) → RDat τ (Elt F) Unit ℕ U2 ℕ (Pipeline.pin (pcfgs (F := F)) adm p) c
  | ⟨0, _⟩ => fun c => (dat0 (V1 m) c).toRForget fgt0
  | ⟨1, _⟩ => fun c => (dat1 V c).toRForget fgt1

/-- A valuation read at the TensorCore's references. -/
abbrev asContents (V : Valuation τ sig (Elt F)) : Contents F := fun _ b => V b

/-- The same proof data as functions (what the library's lemmas about the arrays are stated over). -/
def pdat (V : Contents F) : (p : Fin 2) → (c : Dev nD) → Dat τ (Elt F) Unit ℕ U2 ℕ (Pipeline.pin (pcfgs (F := F)) adm p) c
  | ⟨0, _⟩ => fun c => dat0 (V1 m) c
  | ⟨1, _⟩ => fun c => dat1 V c

/-! ## Region 0: entered from the contents after the first stretch, left at some contents -/

section Reg0

variable (Vs : Contents F)
variable (hob0 : ∀ c, BodyObligationLoose (dat0 (V1 m) c) (defs₀ (F := F)) 𝒱₀ () Set.univ fgt0)
variable (P2 : Dev nD → Valuation τ sig (Elt F) → Prop)
variable (hP2 : ∀ (c : Dev nD) (Z : (w : Fin cfg0.W) → Buf (Elt F) ((cfg0.win w).arr.view.loc (c : Thread nD τ))),
    (∀ w, ((dat0 (V1 m) c).toRForget fgt0).ArrAt w cfg0.N (Z w)) → P2 c (Pipeline.withArrays spec0 c (W1 m c) Z))
variable (G1 : Dev nD → sProp (MT nD τ sig Unit (Elt F) ℕ U2 ℕ))

include hob0 hP2

set_option backward.isDefEq.respectTransparency.types false in
def reg0 : Pipeline.RDat.RegionSeg (pcfgs (F := F)) adm (rdats m fgt0 fgt1 Vs) () defs₀ 𝒱₀ L lv 0 where
  win := launch0.win.to₀
  block_pos := launch0.block_pos
  stage_whole := launch0.stage_whole
  K := PEmpty
  osem k := k.elim
  ho := Pipeline.OwnSemFacts.none _
  hbody c := (hob0 c).toRForget
  hwaits := Pipeline.RDat.hwaits_of_owed_zero _ _ _ _ L lv 0 fun _ _ => rfl
  pre c := iprop(StableHlo.held (c : Thread nD τ) (Pipeline.ucRefs τ sig) (W1 m c) ∗ (Rst c ∗ G1 c))
  post := TS P2 (fun c => iprop(Rst c ∗ G1 c))
  X c := iprop(∃ r, prngReg c r)
  Y c := iprop(∃ r, prngReg c r)
  Z c := iprop(Pipeline.unscopedRest (Ix := Unit) (Name := ℕ) (U := U2) (Lvl := ℕ) spec0 c (V1 m c) ∗ G1 c)
  hentry c := by
    rw [Pipeline.ownSems0_none]
    have hsplit := Pipeline.RDat.arrays_of_unscopedBufs (p := 0) (pcfgs (F := F)) adm (rdats m fgt0 fgt1 Vs) launch0.win launch0.arr_whole c
      ((dat0 (V1 m) c).share_full fun _ => rfl) (V1 m c) fun _ => rfl
    rw [Pipeline.unscopedBufs_held] at hsplit
    dsimp only
    iintro ⟨⟨Hub, ⟨Hp, HO⟩, HG⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    isplitl [Hrest]; · iexact Hrest
    iexact HG
  hin c := by
    rw [show (rdats m fgt0 fgt1 Vs 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m fgt0 fgt1 Vs 0 c).Φ (Fin.last _) = Pipeline.ΦA spec0 c from rfl]; unfold Pipeline.ΦA
    iintro ⟨Hr, Hp⟩
    isplitl [Hp]; · iexact Hp
    isplitr; · iempintro
    iexact Hr
  hexit c := by
    unfold Pipeline.RDat.arraysAt
    rw [bigSep_W0]
    iintro ⟨⟨⟨%F0, %h0, H0⟩, ⟨%F1, %h1, H1⟩, ⟨%F2, %h2, H2⟩, ⟨%F3, %h3, H3⟩⟩, HO, HY, Hrest, HG⟩
    let Zf : (w : Fin cfg0.W) → Buf (Elt F) ((cfg0.win w).arr.view.loc (c : Thread nD τ)) := fun w =>
      match w with | ⟨0, _⟩ => F0 | ⟨1, _⟩ => F1 | ⟨2, _⟩ => F2 | ⟨3, _⟩ => F3
    have hZ : ∀ w, ((dat0 (V1 m) c).toRForget fgt0).ArrAt w cfg0.N (Zf w) := fun w =>
      match w with | ⟨0, _⟩ => h0 | ⟨1, _⟩ => h1 | ⟨2, _⟩ => h2 | ⟨3, _⟩ => h3
    have hjoin := Pipeline.unscopedBufs_of_arrays (p := 0) (pcfgs (F := F)) adm (Ix := Unit) (Name := ℕ) (U := U2) (Lvl := ℕ)
      launch0.win launch0.arr_whole c (pdat m Vs) ((dat0 (V1 m) c).share_full fun _ => rfl)
      (V1 m c) (fun b => Pipeline.withArrays spec0 c (W1 m c) Zf b) Zf
      (fun w => (Pipeline.withArrays_arr spec0 launch0.win.arr_inj c _ _ w).symm)
      (fun b hb => Pipeline.withArrays_of_ne spec0 c _ _ b fun w e => hb (Finset.mem_image.mpr ⟨w, Finset.mem_univ _, e⟩))
    rw [Pipeline.unscopedBufs_held] at hjoin
    imodintro
    iexists (Pipeline.withArrays spec0 c (W1 m c) Zf)
    isplitr; · ipureintro; exact hP2 c Zf hZ
    isplitl [H0 H1 H2 H3 Hrest]
    · iapply hjoin
      isplitl [H0 H1 H2 H3]
      · unfold Pipeline.Dat.arrays
        rw [bigSep_W0]
        isplitl [H0]; · iexact H0
        isplitl [H1]; · iexact H1
        isplitl [H2]; · iexact H2
        iexact H3
      iexact Hrest
    isplitl [HY HO]
    · isplitl [HY]; · iexact HY
      unfold Pipeline.RDat.owesAt Pipeline.owesWithin
      icases HO with ⟨%W, -, HO⟩; iexists W; iexact HO
    iexact HG

end Reg0

/-! ## Region 1: entered from SOME contents, which its proof data are then taken at -/

section Reg1

variable (hob1 : ∀ (V : Contents F) (c : Dev nD), BodyObligationLoose (dat1 V c) (defs₀ (F := F)) 𝒱₀ () Set.univ fgt1)
variable (P4 P5 : Dev nD → Valuation τ sig (Elt F) → Prop)
variable (hP5 : ∀ (c : Dev nD) (V : Valuation τ sig (Elt F))
    (Z : (w : Fin cfg1.W) → Buf (Elt F) ((cfg1.win w).arr.view.loc (c : Thread nD τ))),
    P4 c V → (∀ w, ((dat1 (asContents V) c).toRForget fgt1).ArrAt w cfg1.N (Z w)) → P5 c (Pipeline.withArrays spec1 c V Z))

include hob1 hP5

set_option backward.isDefEq.respectTransparency.types false in
/-- Region 1 as entered from the contents `V`, which satisfy `P4`: its arrays split out of the unscoped buffers at `V`,
    put back at `V` updated by what the write-backs may leave, which satisfies `P5`. -/
def reg1At (V : Valuation τ sig (Elt F)) :
    Pipeline.RDat.RegionSeg (pcfgs (F := F)) adm (rdats m fgt0 fgt1 (asContents V)) () defs₀ 𝒱₀ L lv 1 where
  win := launch1.win.to₀
  block_pos := launch1.block_pos
  stage_whole := launch1.stage_whole
  K := PEmpty
  osem k := k.elim
  ho := Pipeline.OwnSemFacts.none _
  hbody c := (hob1 (asContents V) c).toRForget
  hwaits := Pipeline.RDat.hwaits_of_owed_zero _ _ _ _ L lv 1 fun _ _ => rfl
  pre c := iprop(⌜P4 c V⌝ ∗ StableHlo.held (c : Thread nD τ) (Pipeline.ucRefs τ sig) V ∗ Rst c)
  post := TS P5 Rst
  X c := iprop(∃ r, prngReg c r)
  Y c := iprop(∃ r, prngReg c r)
  Z c := iprop(Pipeline.unscopedRest (Ix := Unit) (Name := ℕ) (U := U2) (Lvl := ℕ) spec1 c (asContents V c) ∗ ⌜P4 c V⌝)
  hentry c := by
    rw [Pipeline.ownSems0_none]
    have hsplit := Pipeline.RDat.arrays_of_unscopedBufs (p := 1) (pcfgs (F := F)) adm (rdats m fgt0 fgt1 (asContents V)) launch1.win launch1.arr_whole c
      ((dat1 (asContents V) c).share_full fun _ => rfl) (asContents V c) fun _ => rfl
    rw [show (asContents V c) = (fun (b : Ref sig .tc) => V b) from rfl, Pipeline.unscopedBufs_held] at hsplit
    dsimp only
    iintro ⟨⟨%hV, Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    isplitl [Hrest]; · iexact Hrest
    ipureintro; exact hV
  hin c := by
    rw [show (rdats m fgt0 fgt1 (asContents V) 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt0 fgt1 (asContents V) 1 c).Φ (Fin.last _) = Pipeline.ΦA spec1 c from rfl]; unfold Pipeline.ΦA
    iintro ⟨Hr, Hp⟩
    isplitl [Hp]; · iexact Hp
    isplitr; · iempintro
    iexact Hr
  hexit c := by
    unfold Pipeline.RDat.arraysAt
    rw [bigSep_W1]
    iintro ⟨⟨⟨%F0, %h0, H0⟩, ⟨%F1, %h1, H1⟩, ⟨%F2, %h2, H2⟩⟩, HO, HY, Hrest, %hV⟩
    let Zf : (w : Fin cfg1.W) → Buf (Elt F) ((cfg1.win w).arr.view.loc (c : Thread nD τ)) := fun w =>
      match w with | ⟨0, _⟩ => F0 | ⟨1, _⟩ => F1 | ⟨2, _⟩ => F2
    have hZ : ∀ w, ((dat1 (asContents V) c).toRForget fgt1).ArrAt w cfg1.N (Zf w) := fun w =>
      match w with | ⟨0, _⟩ => h0 | ⟨1, _⟩ => h1 | ⟨2, _⟩ => h2
    have hjoin := Pipeline.unscopedBufs_of_arrays (p := 1) (pcfgs (F := F)) adm (Ix := Unit) (Name := ℕ) (U := U2) (Lvl := ℕ)
      launch1.win launch1.arr_whole c (pdat m (asContents V)) ((dat1 (asContents V) c).share_full fun _ => rfl)
      (asContents V c) (fun b => Pipeline.withArrays spec1 c V Zf b) Zf
      (fun w => (Pipeline.withArrays_arr spec1 launch1.win.arr_inj c _ _ w).symm)
      (fun b hb => Pipeline.withArrays_of_ne spec1 c _ _ b fun w e => hb (Finset.mem_image.mpr ⟨w, Finset.mem_univ _, e⟩))
    rw [Pipeline.unscopedBufs_held] at hjoin
    imodintro
    iexists (Pipeline.withArrays spec1 c V Zf)
    isplitr; · ipureintro; exact hP5 c V Zf hV hZ
    isplitl [H0 H1 H2 Hrest]
    · iapply hjoin
      isplitl [H0 H1 H2]
      · unfold Pipeline.Dat.arrays
        rw [bigSep_W1]
        isplitl [H0]; · iexact H0
        isplitl [H1]; · iexact H1
        iexact H2
      iexact Hrest
    isplitl [HY]; · iexact HY
    unfold Pipeline.RDat.owesAt Pipeline.owesWithin
    icases HO with ⟨%W, -, HO⟩; iexists W; iexact HO

/-- The second pallas_call's staging cells' launch ghost state and duty tokens, from the proof's second copy of the
    pipeline library's algebra: what its region is entered with. -/
abbrev ghost1 (c : Dev nD) : sProp 𝕄 :=
  iprop(Pipeline.cellsGhost (Pipeline.pin (pcfgs (F := F)) adm) (embR : Emb (UR sig nD τ) 𝕄) (1 : Fin 2) c
    ∗ Pipeline.toksInit (Pipeline.pin (pcfgs (F := F)) adm) (embR : Emb (UR sig nD τ) 𝕄) (1 : Fin 2) c)

set_option backward.isDefEq.respectTransparency.types false in
/-- The second pallas_call as an item between two thread states of the kind above: the contents are opened, the
    region's record is taken at them, and the region's rule runs the call. -/
def reg1Host : Pipeline.HostSeg (Name := ℕ) (U := U2) (pcfgs (F := F)) defs₀ 𝒱₀ L lv where
  prog := Prog.lift (.customCall (Pipeline.entry 1) ())
  pre := TS P4 (fun c => iprop(Rst c ∗ ghost1 (F := F) c))
  post := TS P5 Rst
  run c {β} k K := by
    have hwp := fun V => Pipeline.RDat.RegionSeg.wp (pcfgs (F := F)) adm (rdats m fgt0 fgt1 (asContents V)) () cellOf_inj
      (embR : Emb (UR sig nD τ) 𝕄) defs₀ 𝒱₀ L lv (reg1At m fgt0 fgt1 hob1 P4 P5 hP5 V) c none (fun u hu => by cases hu) k K
    simp only [Prog.lift, Prog.bind_op, Prog.bind_ret]
    iintro ⟨Hk, Hbd, ⟨%V, %hV, Hh, HR, Hg1, Hg2⟩, Hla⟩
    iapply (hwp V)
    isplitl [Hk]; · iexact Hk
    isplitl [Hbd]; · iexact Hbd
    isplitl [Hh HR]
    · dsimp only [reg1At]
      isplitr; · ipureintro; exact hV
      isplitl [Hh] <;> iassumption
    isplitl [Hla]; · iexact Hla
    isplitl [Hg1] <;> iassumption

end Reg1

/-! ## The run -/

section TheRun

variable (ρ : Dev nD → PrngReg)
variable (hob0 : ∀ c, BodyObligationLoose (dat0 (V1 m) c) (defs₀ (F := F)) 𝒱₀ () Set.univ fgt0)
variable (hob1 : ∀ (V : Contents F) (c : Dev nD), BodyObligationLoose (dat1 V c) (defs₀ (F := F)) 𝒱₀ () Set.univ fgt1)
variable (P2 P3 P4 P5 P6 P7 P8 P9 P10 P11 P12 : Dev nD → Valuation τ sig (Elt F) → Prop)
variable (hP2 : ∀ (c : Dev nD) (Z : (w : Fin cfg0.W) → Buf (Elt F) ((cfg0.win w).arr.view.loc (c : Thread nD τ))),
    (∀ w, ((dat0 (V1 m) c).toRForget fgt0).ArrAt w cfg0.N (Z w)) → P2 c (Pipeline.withArrays spec0 c (W1 m c) Z))
variable (h23 : ∀ c V, P2 c V → P3 c (StableHlo.after main_part0_ops1 V))
variable (h34 : ∀ c V, P3 c V → P4 c (StableHlo.after main_part0_ops2 V))
variable (hP5 : ∀ (c : Dev nD) (V : Valuation τ sig (Elt F))
    (Z : (w : Fin cfg1.W) → Buf (Elt F) ((cfg1.win w).arr.view.loc (c : Thread nD τ))),
    P4 c V → (∀ w, ((dat1 (asContents V) c).toRForget fgt1).ArrAt w cfg1.N (Z w)) → P5 c (Pipeline.withArrays spec1 c V Z))
variable (h56 : ∀ c V, P5 c V → P6 c (StableHlo.after main_part0_ops3 V))
variable (h67 : ∀ c V, P6 c V → P7 c (StableHlo.after main_part0_ops4 V))
variable (h78 : ∀ c V, P7 c V → P8 c (StableHlo.after main_part0_ops5 V))
variable (h89 : ∀ c V, P8 c V → P9 c (StableHlo.after main_part0_ops6 V))
variable (h910 : ∀ c V, P9 c V → P10 c (StableHlo.after main_part0_ops7 V))
variable (h1011 : ∀ c V, P10 c V → P11 c (StableHlo.after main_part1_ops0 V))
variable (h1112 : ∀ c V, P11 c V → P12 c (StableHlo.after main_part2_ops0 V))
variable (fr0 : (main_part0_ops0 : List (HloOp τ sig (Elt F))).Forall fun op => op.fresh = ∅)
variable (fr1 : (main_part0_ops1 : List (HloOp τ sig (Elt F))).Forall fun op => op.fresh = ∅)
variable (fr2 : (main_part0_ops2 : List (HloOp τ sig (Elt F))).Forall fun op => op.fresh = ∅)
variable (fr3 : (main_part0_ops3 : List (HloOp τ sig (Elt F))).Forall fun op => op.fresh = ∅)
variable (fr4 : (main_part0_ops4 : List (HloOp τ sig (Elt F))).Forall fun op => op.fresh = ∅)
variable (fr5 : (main_part0_ops5 : List (HloOp τ sig (Elt F))).Forall fun op => op.fresh = ∅)
variable (fr6 : (main_part0_ops6 : List (HloOp τ sig (Elt F))).Forall fun op => op.fresh = ∅)
variable (fr7 : (main_part0_ops7 : List (HloOp τ sig (Elt F))).Forall fun op => op.fresh = ∅)
variable (fr8 : (main_part1_ops0 : List (HloOp τ sig (Elt F))).Forall fun op => op.fresh = ∅)
variable (fr9 : (main_part2_ops0 : List (HloOp τ sig (Elt F))).Forall fun op => op.fresh = ∅)

/-- What rides along before the second pallas_call: the rest and that call's ghost state. -/
abbrev RstG (c : Dev nD) : sProp 𝕄 := iprop(Rst c ∗ ghost1 (F := F) c)

include hob0 hob1 hP2 h23 h34 hP5 h56 h67 h78 h89 h910 h1011 h1112 fr0 fr1 fr2 fr3 fr4 fr5 fr6 fr7 fr8 fr9

/-- @main's twelve items in order: the first stretch from the launch contents, region 0, then every later item between
    thread states of the open kind. -/
def segs : List (Pipeline.RDat.Seg (pcfgs (F := F)) adm (rdats m fgt0 fgt1 (V1 m)) () defs₀ 𝒱₀ L lv) :=
  [ .host (Pipeline.HostSeg.ofOps (pcfgs (F := F)) defs₀ 𝒱₀ L lv (Pipeline.ucRefs τ sig) main_part0_ops0
      (fun op h => Pipeline.sub_ucRefs op ((List.forall_iff_forall_mem.mp main_part0_ops0_sub) op h))
      (fun op h => (List.forall_iff_forall_mem.mp fr0) op h) (W0 m) (RstG (F := F))),
    .region (reg0 m fgt0 fgt1 (V1 m) hob0 P2 hP2 (ghost1 (F := F))),
    .host (exHost main_part0_ops1 main_part0_ops1_sub fr1 P2 P3 h23 (RstG (F := F))),
    .host (exHost main_part0_ops2 main_part0_ops2_sub fr2 P3 P4 h34 (RstG (F := F))),
    .host (reg1Host m fgt0 fgt1 hob1 P4 P5 hP5),
    .host (exHost main_part0_ops3 main_part0_ops3_sub fr3 P5 P6 h56 Rst),
    .host (exHost main_part0_ops4 main_part0_ops4_sub fr4 P6 P7 h67 Rst),
    .host (exHost main_part0_ops5 main_part0_ops5_sub fr5 P7 P8 h78 Rst),
    .host (exHost main_part0_ops6 main_part0_ops6_sub fr6 P8 P9 h89 Rst),
    .host (exHost main_part0_ops7 main_part0_ops7_sub fr7 P9 P10 h910 Rst),
    .host (exHost main_part1_ops0 main_part1_ops0_sub fr8 P10 P11 h1011 Rst),
    .host (exHost main_part2_ops0 main_part2_ops0_sub fr9 P11 P12 h1112 Rst) ]

set_option backward.isDefEq.respectTransparency.types false in
/-- From any launch memory with zero counters every weakly fair execution of @main terminates, nothing faulting, and the
    final memory holds, at every unscoped buffer of every core, contents satisfying the last predicate. -/
theorem run_open : θ_run defs (onTc (τ := τ) (main (F := F))) ⟨m, fun _ => 0, ρ⟩ (fun r => ∀ c : Dev nD,
    ∃ V : Valuation τ sig (Elt F), P12 c V ∧ ∀ b ∈ Pipeline.ucRefs τ sig, r.2.mem (((c : Thread nD τ)).1, b) = V b) := by
  refine Pipeline.RDat.θ_run_regions_kit (pcfgs (F := F)) adm (rdats m fgt0 fgt1 (V1 m)) () cellOf_inj
    (embL : Emb (UR sig nD τ) 𝕄) defs₀ 𝒱₀ L lv m ρ main
    (segs m fgt0 fgt1 hob0 hob1 P2 P3 P4 P5 P6 P7 P8 P9 P10 P11 P12 hP2 h23 h34 hP5 h56 h67 h78 h89 h910 h1011 h1112 fr0 fr1 fr2 fr3 fr4 fr5 fr6 fr7 fr8 fr9)
    (fun c Q => ?hmain) ?hnd (O₀ := 0) (hL := fun _ _ => rfl) (G := ghost1 (F := F))
    (u₀ := (initOf (Pipeline.cells cfgs cellOf_inj) (Pipeline.launchToks cfgs cellOf_inj),
            initOf (Pipeline.cells cfgs cellOf_inj) (Pipeline.launchToks cfgs cellOf_inj)))
    (hu₀ := ?hu)
    (T₀ := fun c => iprop(StableHlo.held (c : Thread nD τ) (Pipeline.ucRefs τ sig) (W0 m c) ∗ RstG (F := F) c))
    (Tₙ := fun c => iprop(∃ V : Valuation τ sig (Elt F), ⌜P12 c V⌝ ∗ StableHlo.held (c : Thread nD τ) (Pipeline.ucRefs τ sig) V ∗ ∃ r, prngReg c r))
    (hch := ?hch) (hinit := ?hinit)
    (QY := fun c s => ∃ V : Valuation τ sig (Elt F), P12 c V ∧ ∀ b ∈ Pipeline.ucRefs τ sig, s.mem (((c : Thread nD τ)).1, b) = V b)
    (hfin := fun c s' => ?hfin) (hQ := fun _ h => h)
  case hmain =>
    rewrite [main_chain_windows c, Pipeline.RDat.Seg.run_eq_chain,
      show (segs m fgt0 fgt1 hob0 hob1 P2 P3 P4 P5 P6 P7 P8 P9 P10 P11 P12 hP2 h23 h34 hP5 h56 h67 h78 h89 h910 h1011 h1112 fr0 fr1 fr2 fr3 fr4 fr5 fr6 fr7 fr8 fr9).map Pipeline.RDat.Seg.prog = [
        StableHlo.seq main_part0_ops0,
        Prog.lift (.customCall (Pipeline.entry 0) ()),
        StableHlo.seq main_part0_ops1,
        StableHlo.seq main_part0_ops2,
        Prog.lift (.customCall (Pipeline.entry 1) ()),
        StableHlo.seq main_part0_ops3,
        StableHlo.seq main_part0_ops4,
        StableHlo.seq main_part0_ops5,
        StableHlo.seq main_part0_ops6,
        StableHlo.seq main_part0_ops7,
        StableHlo.seq main_part1_ops0,
        StableHlo.seq main_part2_ops0 ] from rfl]
    exact .rfl
  case hnd =>
    simp only [segs, Pipeline.RDat.Seg.pipes_host, Pipeline.RDat.Seg.pipes_region, Pipeline.RDat.Seg.pipes_nil]; decide
  case hu =>
    iintro Hu
    ihave H := (ownU_pair (initOf (Pipeline.cells cfgs cellOf_inj) (Pipeline.launchToks cfgs cellOf_inj))
      (initOf (Pipeline.cells cfgs cellOf_inj) (Pipeline.launchToks cfgs cellOf_inj))) $$ Hu
    icases H with ⟨HL, HR⟩
    imod (Pipeline.fund_ghost (Pipeline.pin (pcfgs (F := F)) adm) (embR : Emb (UR sig nD τ) 𝕄) cellOf_inj) $$ HR with ⟨Hg, Ht⟩
    imodintro
    isplitl [HL]; · iexact HL
    ihave Hb := (show (iprop((bigSep Finset.univ fun c : Dev nD => bigSep Finset.univ fun p => Pipeline.cellsGhost (Pipeline.pin (pcfgs (F := F)) adm) (embR : Emb (UR sig nD τ) 𝕄) p c)
          ∗ (bigSep Finset.univ fun c : Dev nD => bigSep Finset.univ fun p => (Pipeline.toksInit (Pipeline.pin (pcfgs (F := F)) adm) (embR : Emb (UR sig nD τ) 𝕄) p c : sProp 𝕄))) : sProp 𝕄)
        ⊢ bigSep Finset.univ fun c : Dev nD => iprop((bigSep Finset.univ fun p => Pipeline.cellsGhost (Pipeline.pin (pcfgs (F := F)) adm) (embR : Emb (UR sig nD τ) 𝕄) p c)
          ∗ bigSep Finset.univ fun p => (Pipeline.toksInit (Pipeline.pin (pcfgs (F := F)) adm) (embR : Emb (UR sig nD τ) 𝕄) p c : sProp 𝕄)) from Entails.of_eq (bigSep_sep' _ _ _).symm) $$ [Hg Ht]
    · isplitl [Hg] <;> iassumption
    ihave Hc := (show (bigSep Finset.univ fun c : Dev nD => iprop((bigSep Finset.univ fun p => Pipeline.cellsGhost (Pipeline.pin (pcfgs (F := F)) adm) (embR : Emb (UR sig nD τ) 𝕄) p c)
          ∗ bigSep Finset.univ fun p => (Pipeline.toksInit (Pipeline.pin (pcfgs (F := F)) adm) (embR : Emb (UR sig nD τ) 𝕄) p c : sProp 𝕄)))
        ⊢ (bigSep Finset.univ (ghost1 (F := F)) : sProp 𝕄) from bigSep_mono fun c _ => sep_mono
      (BI.bigSep_elim (Φ := fun p => Pipeline.cellsGhost (Pipeline.pin (pcfgs (F := F)) adm) (embR : Emb (UR sig nD τ) 𝕄) p c) (Finset.mem_univ (1 : Fin 2)))
      (BI.bigSep_elim (Φ := fun p => (Pipeline.toksInit (Pipeline.pin (pcfgs (F := F)) adm) (embR : Emb (UR sig nD τ) 𝕄) p c : sProp 𝕄)) (Finset.mem_univ (1 : Fin 2)))) $$ Hb
    iexact Hc
  case hch =>
    refine ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => ?_⟩
    show TS P12 (Rst (F := F)) c ⊢ _
    iintro ⟨%V, %hV, Hh, Hp, HO⟩
    isplitl [Hh Hp]
    · iexists V; isplitr; · ipureintro; exact hV
      isplitl [Hh] <;> iassumption
    iexact HO
  case hinit =>
    refine Pipeline.initEach L lv fun c => ?_
    rw [show unscopedBufs c (fun b => m ((c : Thread nD τ).loc b)) = StableHlo.held (c : Thread nD τ) (Pipeline.ucRefs τ sig) (W0 m c)
      from Pipeline.unscopedBufs_held c (W0 m c)]
    iintro ⟨⟨Hh, -, HO, -, Hp, HG⟩, -⟩
    imodintro
    isplitl [Hh]; · iexact Hh
    isplitl [Hp HO]
    · isplitl [Hp]; · iexists _; iexact Hp
      iexists ∅; iexact HO
    iexact HG
  case hfin =>
    iintro ⟨⟨%V, %hV, Hh, -⟩, HSI⟩
    unfold StableHlo.held
    ihave Hr := (pointsTo_read_all (Pipeline.ucRefs τ sig) (fun b => (((c : Thread nD τ)).1, b)) V s') $$ [Hh HSI]
    · isplitl [Hh] <;> iassumption
    icases Hr with ⟨%h, HSI⟩
    imodintro
    isplitr
    · ipureintro; exact ⟨V, hV, h⟩
    iexact HSI

end TheRun

end Cert.KernelIdeal.Hand

end
-- ==== Proof.KI.Body0.lean ====
/-
  The body of region 0 — the kernel that computes, block of 6400 rows of `x` by block, the transposed embedding
  tanh(W · xᵀ + b) — as the pipeline calls it at each of its sixteen points.

  The body loads its three input staging buffers whole, computes `k0_pay1` of what it read, and stores that whole
  into the result's staging buffer (`sound_kernel0`, at any float values). Two obligations follow from it:

  * `obl0_forget`: from ANY contents of the four staging buffers the body runs and hands them back at some contents.
  * `obl0_exact`, over the extended reals: the buffers end at what the proof data `dat0` names, stated — for the
    `x` window and the result window, whose last block overhangs the array by 2400 rows / columns — only on the part
    of the block inside the array. The `x` buffer arrives holding the block's rows inside the array and, past them,
    words nothing names. The result at column `q` is tanh(Σₖ W(r,k) · X(q,k) + b(r)): it reads row `q` of the
    block only. A column the write-back moves is a column inside the array, so the row it reads is a row inside the
    array, and the unnamed words never reach it.
-/
import proofs.«419771_j9096740733412_1_alg».proof.Proof.KI.Fold
import Idealize.ShloMosaic.Lib.Tactic
import Idealize.ShloMosaic.Lib.Pipeline.Value
import Idealize.ShloMosaic.Lib.Pipeline.FrameBody
import Idealize.ShloMosaic.PureOps.Ideal
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ U2 ℕ

namespace Body0

/-! ## The body on whole staging memrefs -/

/-- The four whole-buffer accesses of the body sit at offsets zero, however the zeros are spelt. -/
theorem zero2 : (![0, 0] : Fin 2 → Nat) = fun _ => 0 := funext fun a => by fin_cases a <;> rfl

set_option maxHeartbeats 1000000 in
/-- The body of region 0 on whole staging memrefs: from the three inputs' buffers at read contents `x0`, `x1`, `x2`
    and the result's at anything, it runs to the inputs' as they were and the result's at the kernel's arithmetic
    `k0_pay1 x0 x1 x2` — three whole loads, a load of the result's buffer nothing reads, one whole store. -/
theorem sound_kernel0 (c : Dev nD) (E : Set ℕ) (i : grid0.Coords)
    (arg1 : Memref sig .tc .vmem S6400x128 .f32) (harg1 : arg1.IsWhole)
    (arg2 : Memref sig .tc .vmem S128x128 .f32) (harg2 : arg2.IsWhole)
    (arg3 : Memref sig .tc .vmem S128x1 .f32) (harg3 : arg3.IsWhole)
    (arg4 : Memref sig .tc .vmem S128x6400 .f32) (harg4 : arg4.IsWhole)
    (x0 : Vec F S6400x128 .f32) (x1 : Vec F S128x128 .f32) (x2 : Vec F S128x1 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k0_pay1 x0 x1 x2)) -∗ K ⟨⟩))
      ⊢ wp frame (wpE (defs₀ (F := F)) Variants.none c none) E
          (cc0__linear_tanh_kernel i arg1 harg1 arg2 harg2 arg3 harg3 arg4 harg4) K := by
  simp only [cc0__linear_tanh_kernel_eq_skeleton]; unfold cc0__linear_tanh_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the one store covers the buffer, so the buffer reads its payload; each whole load read its buffer's contents
  refine (View.read_writes_eq_canon _ _ _ fun y => ⟨_, List.mem_singleton_self _, View.mem_set_unit_zero zero2 inb_S128x6400_S128x6400_0_0 y⟩).trans ?_
  rw [View.canon_unit_zero zero2]
  simp only [View.readAt_eq_ld, View.ld_unit_zero (S := S6400x128) zero2, View.ld_unit_zero (S := S128x128) zero2,
    View.ld_unit_zero (S := S128x1) zero2]

/-! ## From any contents -/

/-- Region 0's body at point `t`, called as the pipeline calls it, from its four staging buffers at ANY contents:
    it hands them back at some contents; the invariant and what the core owes pass through unread. -/
theorem body0_forget (V : Contents F) (c : Dev nD) (t : Fin cfg0.N) :
    iprop((dat0 V c).Φ t.castSucc ∗ (dat0 V c).owesAt () t.castSucc
        ∗ (∃ X, owns (c : Thread nD τ) (st0_0 t) fullShare X)
        ∗ (∃ X, owns (c : Thread nD τ) (st0_1 t) fullShare X)
        ∗ (∃ X, owns (c : Thread nD τ) (st0_2 t) fullShare X)
        ∗ (∃ X, owns (c : Thread nD τ) (st0_3 t) fullShare X))
      ⊢ wp frame (wpE (defs₀ (F := F)) Variants.none c none) Set.univ (bodyAt0 t) (fun _ =>
          iprop((dat0 V c).Φ t.succ ∗ (dat0 V c).owesAt () t.succ
            ∗ (∃ X, owns (c : Thread nD τ) (st0_0 t) fullShare X)
            ∗ (∃ X, owns (c : Thread nD τ) (st0_1 t) fullShare X)
            ∗ (∃ X, owns (c : Thread nD τ) (st0_2 t) fullShare X)
            ∗ (∃ X, owns (c : Thread nD τ) (st0_3 t) fullShare X))) := by
  unfold bodyAt0
  rw [show (dat0 V c).Φ t.succ = (dat0 V c).Φ t.castSucc from rfl,
    show (dat0 V c).owesAt () t.succ = (dat0 V c).owesAt () t.castSucc from rfl]
  iintro ⟨HΦ, Ho, ⟨%X0, H0⟩, ⟨%X1, H1⟩, ⟨%X2, H2⟩, ⟨%X3, H3⟩⟩
  iapply (sound_kernel0 (F := F) c Set.univ _ _ _ _ _ _ _ _ _ X0 X1 X2 _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists _; iexact H0
  isplitl [H1]; · iexists _; iexact H1
  isplitl [H2]; · iexists _; iexact H2
  iexists _; iexact H3

/-! ## What the body finds in each staging buffer -/

section Before
variable (V : Contents F) (c : Dev nD)

/-- The rows of `x`, fetched at every point: the block's rows inside the array, and past them a word nothing names. -/
theorem before0_0 (t : Fin cfg0.N) (d) :
    (dat0 V c).before 0 t d = win0_0.fill (grid0.coords t) d (xblk V c t) := by
  unfold Dat.before; rw [if_pos (fetch0_0 t)]; rfl

/-- The weights and the bias are fetched at the first point only; their blocks are the whole arrays at every point, and
    the body leaves them in place. -/
theorem before0_1 (t : Fin cfg0.N) (d) : (dat0 V c).before 1 t d = wblk V c t :=
  ((dat0 V c).before_in_eq_fetched 1 rfl (fun _ => rfl) (fun _ _ _ => rfl) (fun _ => rfl) t d).trans rfl
theorem before0_2 (t : Fin cfg0.N) (d) : (dat0 V c).before 2 t d = bblk V c t :=
  ((dat0 V c).before_in_eq_fetched 2 rfl (fun _ => rfl) (fun _ _ _ => rfl) (fun _ => rfl) t d).trans rfl

/-- The result's buffer was written back at the point before (or this is the first point): it holds anything. -/
theorem before0_3 (t : Fin cfg0.N) (d) : (dat0 V c).before 3 t d = d :=
  (dat0 V c).before_out_reset 3 rfl t
    (by by_cases h : t.val = 0
        · exact .inl h
        · exact .inr ⟨h, flush0_3 _⟩) d

end Before

/-! ## The arithmetic reads one row of `x` per column of the result -/

/-- The matmul's right operand at result index `j` and any contraction position sits in row `j 1`: the
    operand's rows are the result's columns. -/
theorem rhs_row (j : S128x6400.Idx) (k : dot_S128x128_S6400x128_S128x6400_1_1_0_0_n_n.contr.Idx) :
    (dot_S128x128_S6400x128_S128x6400_1_1_0_0_n_n.rhsIdx j k 0).val = (j 1).val := by
  unfold DotDims.rhsIdx
  rw [dif_neg (show ¬(0 : Fin S6400x128.rank) ∈ dot_S128x128_S6400x128_S128x6400_1_1_0_0_n_n.rhsBatch by decide),
    dif_pos (show (0 : Fin S6400x128.rank) ∈ dot_S128x128_S6400x128_S128x6400_1_1_0_0_n_n.rhsNonContracting by decide)]
  rfl

/-- Over the extended reals the result at `(r, q)` is `tanh (Σₖ W (r, k) · X (q, k) + b (r, 0))`: of `X` it reads row
    `q` only. So two blocks that agree on row `j 1` give the same result at `j`. -/
theorem k0_pay1_row (X X' : Vec Ideal S6400x128 .f32) (W : Vec Ideal S128x128 .f32) (b : Vec Ideal S128x1 .f32)
    (j : S128x6400.Idx) (h : ∀ y : S6400x128.Idx, (y 0).val = (j 1).val → X y = X' y) :
    k0_pay1 (F := Ideal) X W b j = k0_pay1 (F := Ideal) X' W b j := by
  have hm : ∀ (Wt : FVec Ideal S128x128 .bf16) (acc : FVec Ideal S128x6400 .f32),
      matmul dot_S128x128_S6400x128_S128x6400_1_1_0_0_n_n none Wt (truncf .bf16 X bitsLt_bf16_f32) acc j
        = matmul dot_S128x128_S6400x128_S128x6400_1_1_0_0_n_n none Wt (truncf .bf16 X' bitsLt_bf16_f32) acc j := by
    intro Wt acc
    refine (Ideal.matmul_apply _ none Wt _ acc j).trans (Eq.trans ?_ (Ideal.matmul_apply _ none Wt _ acc j).symm)
    refine congrArg (acc j + ·) (Finset.sum_congr rfl fun k _ => ?_)
    refine congrArg (Wt (dot_S128x128_S6400x128_S128x6400_1_1_0_0_n_n.lhsIdx j k) * ·) ?_
    exact h _ (rhs_row j k)
  unfold k0_pay1
  exact congrArg (fun z : Ideal .f32 => FloatOps.tanh (FloatOps.addf z _)) (hm _ _)

/-- A filled-out block does not depend on the filler at an index the transfer moves. -/
theorem fill_filler {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- At every point the result's block keeps as many columns inside its array as the `x` block keeps rows, and
    the `x` block keeps all its 128 lanes. -/
theorem xsize_facts : ∀ t : Fin cfg0.N,
    win0_3.xsize (grid0.coords t) 1 = win0_0.xsize (grid0.coords t) 0 ∧ win0_0.xsize (grid0.coords t) 1 = 128 :=
  (by decide +kernel : ∀ t : Fin grid0.N,
    win0_3.xsize (grid0.coords t) 1 = win0_0.xsize (grid0.coords t) 0 ∧ win0_0.xsize (grid0.coords t) 1 = 128)

/-- So, on the columns the write-back moves, what the body computes from the `x` block filled out with ANY words is
    what it computes from the block filled out with zeros: those columns read rows of `x` inside the array. -/
theorem cut_pay_fill (V : Contents Ideal) (c : Dev nD) (t : Fin cfg0.N) (d : Vec Ideal S6400x128 .f32) :
    win0_3.cut (grid0.coords t)
        (k0_pay1 (F := Ideal) (win0_0.fill (grid0.coords t) d (xblk V c t)) (wblk V c t) (bblk V c t))
      = win0_3.cut (grid0.coords t) (oblk V c t) := by
  funext j
  show k0_pay1 (F := Ideal) (win0_0.fill (grid0.coords t) d (xblk V c t)) (wblk V c t) (bblk V c t) (win0_3.xinj (grid0.coords t) j)
    = oblk V c t (win0_3.xinj (grid0.coords t) j)
  unfold oblk xfull
  refine k0_pay1_row _ _ _ _ _ fun y hy => ?_
  refine fill_filler win0_0 (grid0.coords t) _ _ _ y ((win0_0.moved_iff _ y).mpr fun a => ?_)
  have hj : (j 1).val < win0_3.xsize (grid0.coords t) 1 := (j 1).isLt
  have hy1 : (y 1).val < 128 := (y 1).isLt
  match a with
  | ⟨0, _⟩ =>
    show (y 0).val < win0_0.xsize (grid0.coords t) 0
    rw [← (xsize_facts t).1, hy]; exact hj
  | ⟨1, _⟩ =>
    show (y 1).val < win0_0.xsize (grid0.coords t) 1
    rw [(xsize_facts t).2]; exact hy1

/-! ## What the proof data names, window by window -/

section After
variable (V : Contents F) (c : Dev nD) (t : Fin cfg0.N)
theorem after0_0 : (dat0 V c).after 0 t = xfull V c t := by dsimp only [dat0]
theorem after0_1 : (dat0 V c).after 1 t = wblk V c t := by dsimp only [dat0]
theorem after0_2 : (dat0 V c).after 2 t = bblk V c t := by dsimp only [dat0]
theorem after0_3 : (dat0 V c).after 3 t = oblk V c t := by dsimp only [dat0]
end After

/-- Region 0's body at point `t` over the extended reals. It finds the `x` block filled out past the array's end with
    words `d0` nothing names, the weights, the bias, and anything in the result's buffer; it leaves the inputs as
    found and the result's buffer at its arithmetic on them. On the rows inside the array the `x` buffer is the block
    the proof data names; on the columns inside the array the result's is what the proof data names, because those
    columns read only rows of `x` inside the array (`cut_pay_fill`) — which is all the two loose windows' posts state. -/
theorem body0_exact (V : Contents Ideal) (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d)))
      ⊢ wp frame (wpE (defs₀ (F := Ideal)) Variants.none c none) Set.univ (bodyAt0 t) (fun _ =>
          iprop((dat0 V c).Φ t.succ ∗ (dat0 V c).owesAt () t.succ
            ∗ (∃ d, owns (c : Thread nD τ) (st0_0 t) fullShare
                (win0_0.fill (grid0.coords t) d (win0_0.cut (grid0.coords t) ((dat0 V c).after 0 t))))
            ∗ owns (c : Thread nD τ) (st0_1 t) fullShare ((dat0 V c).after 1 t)
            ∗ owns (c : Thread nD τ) (st0_2 t) fullShare ((dat0 V c).after 2 t)
            ∗ (∃ d, owns (c : Thread nD τ) (st0_3 t) fullShare
                (win0_3.fill (grid0.coords t) d (win0_3.cut (grid0.coords t) ((dat0 V c).after 3 t)))))) := by
  unfold bodyAt0
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  rw [before0_0 V c t d0, before0_1 V c t d1, before0_2 V c t d2, before0_3 V c t d3]
  iapply (sound_kernel0 (F := Ideal) c Set.univ _ _ _ _ _ _ _ _ _
    (win0_0.fill (grid0.coords t) d0 (xblk V c t)) (wblk V c t) (bblk V c t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists d0
    rw [show win0_0.cut (grid0.coords t) (xfull V c t) = xblk V c t from win0_0.cut_fill _ _ _]
    iexact H0
  isplitl [H1]; · iexact H1
  isplitl [H2]; · iexact H2
  iexists (k0_pay1 (F := Ideal) (win0_0.fill (grid0.coords t) d0 (xblk V c t)) (wblk V c t) (bblk V c t))
  rw [win0_3.fill_congr_cut (grid0.coords t) (cut_pay_fill V c t d0)]
  iexact H3

end Body0

open Body0

/-! ## The two obligations -/

/-- Region 0's body at any point runs from ANY contents of its four staging buffers and returns them at some contents. -/
theorem obl0_forget (V : Contents F) (c : Dev nD) :
    BodyObligation (dat0 V c) (defs₀ (F := F)) Variants.none () Set.univ (fun _ => true) := fun t => by
  rw [bigSep_W0]
  exact body0_forget V c t

/-- Over the extended reals region 0's body leaves, on the part of each block inside its array, what `dat0` names. -/
theorem obl0_exact (V : Contents Ideal) (c : Dev nD) :
    BodyObligationLoose (dat0 (F := Ideal) V c) (defs₀ (F := Ideal)) Variants.none () Set.univ := fun t => by
  rw [bigSep_W0, bigSep_W0]
  exact body0_exact V c t

end Cert.KernelIdeal.Hand

end
-- ==== Proof.KI.Body1.lean ====
/-
  Region 1's body at a grid point. The kernel function reads its two input blocks whole — 128 features by 6400 edges of
  each gathered embedding —, reads the output block once without using what it read, and stores over the whole
  output block the clamped cosine similarity of the two inputs, edge by edge. So whatever the three staging buffers
  hold when the body is entered, it leaves the two inputs as they were and the output at the similarity of the two;
  and since every input block is fetched afresh at every point, what the inputs hold on entry is the two arrays'
  blocks of that point.
-/
import proofs.«419771_j9096740733412_1_alg».proof.Proof.KI.Fold
import Idealize.ShloMosaic.Lib.Pipeline.FrameBody
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ U2 ℕ

/-! ## The kernel function on arbitrary whole buffers -/

/-- The offsets of the body's one store, all zero. -/
theorem zero_offsets : (![0, 0] : Fin 2 → Nat) = fun _ => 0 := by
  funext a; match a with | ⟨0, _⟩ => rfl | ⟨1, _⟩ => rfl

set_option maxHeartbeats 1000000 in
/-- From the two inputs at `x0`, `x1` and the output at anything, the kernel function runs to the inputs as they were and
    the output at the similarity of `x0` and `x1`: its one store is through the whole-block rectangle, so what it leaves
    is its payload. -/
theorem sound_kernel1 (c : Dev nD) (E : Set ℕ) (i : grid1.Coords)
    (arg1 : Memref sig .tc .vmem S128x6400 .f32) (harg1 : arg1.IsWhole)
    (arg2 : Memref sig .tc .vmem S128x6400 .f32) (harg2 : arg2.IsWhole)
    (arg3 : Memref sig .tc .vmem S1x6400 .f32) (harg3 : arg3.IsWhole)
    (x0 x1 : Vec F S128x6400 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 x0 x1)) -∗ K ⟨⟩))
      ⊢ wp frame (wpE (defs₀ (F := F)) Variants.none c none) E (cc1__cosine_kernel i arg1 harg1 arg2 harg2 arg3 harg3) K := by
  simp only [cc1__cosine_kernel_eq_skeleton]; unfold cc1__cosine_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero zero_offsets inb_S1x6400_S1x6400_0_0 y⟩),
    View.canon_unit_zero zero_offsets]
  simp only [View.readAt_eq_ld, View.ld_unit_zero (S := S128x6400) zero_offsets]

/-! ## The body at a point, its buffers at anything -/

/-- At any point, from any contents of the three current staging buffers, the body runs and hands the buffers back,
    the invariant and what the core owes untouched. -/
theorem sound_body1_any (V : Contents F) (c : Dev nD) (t : Fin cfg1.N) :
    iprop((dat1 V c).Φ t.castSucc ∗ (dat1 V c).owesAt () t.castSucc
        ∗ (∃ X, owns (c : Thread nD τ) (st1_0 t) fullShare X)
        ∗ (∃ X, owns (c : Thread nD τ) (st1_1 t) fullShare X)
        ∗ (∃ X, owns (c : Thread nD τ) (st1_2 t) fullShare X))
      ⊢ wp frame (wpE (defs₀ (F := F)) Variants.none c none) Set.univ (bodyAt1 t) (fun _ =>
          iprop((dat1 V c).Φ t.succ ∗ (dat1 V c).owesAt () t.succ
            ∗ (∃ X, owns (c : Thread nD τ) (st1_0 t) fullShare X)
            ∗ (∃ X, owns (c : Thread nD τ) (st1_1 t) fullShare X)
            ∗ (∃ X, owns (c : Thread nD τ) (st1_2 t) fullShare X))) := by
  unfold bodyAt1
  rw [show (dat1 V c).Φ t.succ = (dat1 V c).Φ t.castSucc from rfl,
    show (dat1 V c).owesAt () t.succ = (dat1 V c).owesAt () t.castSucc from rfl]
  iintro ⟨HΦ, Ho, ⟨%X0, H0⟩, ⟨%X1, H1⟩, ⟨%X2, H2⟩⟩
  iapply (sound_kernel1 c Set.univ _ _ _ _ _ _ _ X0 X1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

/-- Region 1's body at any point runs from ANY contents of its three staging buffers and returns them at some contents. -/
theorem obl1_forget (V : Contents F) (c : Dev nD) :
    BodyObligation (dat1 V c) (defs₀ (F := F)) Variants.none () Set.univ (fun _ => true) := fun t => by
  rw [bigSep_W1]
  exact sound_body1_any V c t

/-! ## The body at a point, its buffers at what the pipeline put there -/

/-- What the body leaves, window by window. -/
theorem after1_0 (V : Contents F) (c : Dev nD) (t : Fin cfg1.N) : (dat1 V c).after 0 t = sblk V c t := by dsimp only [dat1]
theorem after1_1 (V : Contents F) (c : Dev nD) (t : Fin cfg1.N) : (dat1 V c).after 1 t = dblk V c t := by dsimp only [dat1]
theorem after1_2 (V : Contents F) (c : Dev nD) (t : Fin cfg1.N) : (dat1 V c).after 2 t = eblk V c t := by dsimp only [dat1]

/-- The first gathered embedding's window is fetched at every point and its blocks lie inside the array, so whenever
    the body runs its buffer holds the array's block of that point; -/
theorem before1_0 (V : Contents F) (c : Dev nD) (t : Fin cfg1.N) (d) : (dat1 V c).before 0 t d = sblk V c t := by
  rw [(dat1 V c).before_fetched 0 t (fetch1_0 t) d]
  unfold Dat.fetched Dat.blockOf sblk
  dsimp only [dat1]
  rfl

/-- the same for the second. -/
theorem before1_1 (V : Contents F) (c : Dev nD) (t : Fin cfg1.N) (d) : (dat1 V c).before 1 t d = dblk V c t := by
  rw [(dat1 V c).before_fetched 1 t (fetch1_1 t) d]
  unfold Dat.fetched Dat.blockOf dblk
  dsimp only [dat1]
  rfl

/-- At any point, from the two input buffers at their blocks and the output buffer at anything, the body leaves the
    inputs at their blocks and the output at the similarity of the two. -/
theorem sound_body1 (V : Contents F) (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  unfold bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (sblk V c t) (dblk V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- Region 1's body leaves in each staging buffer what `dat1` names. -/
theorem obl1_exact (V : Contents F) (c : Dev nD) :
    BodyObligation (dat1 V c) (defs₀ (F := F)) Variants.none () Set.univ := fun t => by
  rw [bigSep_W1, bigSep_W1]
  exact sound_body1 V c t

end Cert.KernelIdeal.Hand

end
-- ==== Proof.KI.HostFacts.lean ====
/-
  What the host stretches of the idealized kernel program's @main write. Each stretch is a straight line of
  tensor operations, every one of which rewrites exactly one buffer — its result — and allocates none. So a
  stretch changes only the buffers in the list of its operations' results, and a reference outside that list
  holds afterwards what it held before. @main's six argument arrays are the result of no operation, hence every
  stretch leaves each of them as it found it.
-/
import proofs.«419771_j9096740733412_1_alg».proof.Proof.KI.Fold
import Idealize.ShloMosaic.Lib.StableHlo.Run
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

/-- The six argument arrays of @main. -/
abbrev argRefs : List (Ref sig .tc) := [main_arg0, main_arg1, main_arg2, main_arg3, main_arg4, main_arg5]

/-! ### `main_part0_ops0` (5 operations) -/

/-- No operation of `main_part0_ops0` allocates a buffer. -/
theorem part0_ops0_fresh : (main_part0_ops0 : List (HloOp τ sig (Elt F))).Forall fun op => op.fresh = ∅ := by
  simp only [List.Forall]; repeat' constructor
/-- The references `main_part0_ops0`'s operations write: each operation's result, in order. -/
abbrev part0_ops0_W : List (Ref sig .tc) :=
  [main_v0, main_v1, main_v2, main_v3, main_v4]
/-- Every operation of `main_part0_ops0` writes its one result, which is in the list. -/
theorem part0_ops0_writes : (main_part0_ops0 : List (HloOp τ sig (Elt F))).Forall fun op => op.writes ⊆ (part0_ops0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part0_ops0` what it held before. -/
theorem part0_ops0_of (V : Valuation τ sig (Elt F)) (r : Ref sig .tc) (h : r ∉ part0_ops0_W) :
    StableHlo.after (main_part0_ops0 : List (HloOp τ sig (Elt F))) V (Proc.devRef .tc r) = V (Proc.devRef .tc r) :=
  StableHlo.after_of_writes_sub _ V part0_ops0_writes h
/-- `main_part0_ops0` writes none of the six argument arrays. -/
theorem part0_ops0_keep (V : Valuation τ sig (Elt F)) (a : Ref sig .tc) (ha : a ∈ argRefs) :
    StableHlo.after (main_part0_ops0 : List (HloOp τ sig (Elt F))) V (Proc.devRef .tc a) = V (Proc.devRef .tc a) := by
  simp only [argRefs, List.mem_cons, List.not_mem_nil, or_false] at ha
  rcases ha with rfl | rfl | rfl | rfl | rfl | rfl <;> exact part0_ops0_of V _ (by decide)

/-! ### `main_part0_ops1` (23 operations) -/

/-- No operation of `main_part0_ops1` allocates a buffer. -/
theorem part0_ops1_fresh : (main_part0_ops1 : List (HloOp τ sig (Elt F))).Forall fun op => op.fresh = ∅ := by
  simp only [List.Forall]; repeat' constructor
/-- The references `main_part0_ops1`'s operations write: each operation's result, in order. -/
abbrev part0_ops1_W : List (Ref sig .tc) :=
  [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v6]
/-- Every operation of `main_part0_ops1` writes its one result, which is in the list. -/
theorem part0_ops1_writes : (main_part0_ops1 : List (HloOp τ sig (Elt F))).Forall fun op => op.writes ⊆ (part0_ops1_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part0_ops1` what it held before. -/
theorem part0_ops1_of (V : Valuation τ sig (Elt F)) (r : Ref sig .tc) (h : r ∉ part0_ops1_W) :
    StableHlo.after (main_part0_ops1 : List (HloOp τ sig (Elt F))) V (Proc.devRef .tc r) = V (Proc.devRef .tc r) :=
  StableHlo.after_of_writes_sub _ V part0_ops1_writes h
/-- `main_part0_ops1` writes none of the six argument arrays. -/
theorem part0_ops1_keep (V : Valuation τ sig (Elt F)) (a : Ref sig .tc) (ha : a ∈ argRefs) :
    StableHlo.after (main_part0_ops1 : List (HloOp τ sig (Elt F))) V (Proc.devRef .tc a) = V (Proc.devRef .tc a) := by
  simp only [argRefs, List.mem_cons, List.not_mem_nil, or_false] at ha
  rcases ha with rfl | rfl | rfl | rfl | rfl | rfl <;> exact part0_ops1_of V _ (by decide)

/-! ### `main_part0_ops2` (23 operations) -/

/-- No operation of `main_part0_ops2` allocates a buffer. -/
theorem part0_ops2_fresh : (main_part0_ops2 : List (HloOp τ sig (Elt F))).Forall fun op => op.fresh = ∅ := by
  simp only [List.Forall]; repeat' constructor
/-- The references `main_part0_ops2`'s operations write: each operation's result, in order. -/
abbrev part0_ops2_W : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v7]
/-- Every operation of `main_part0_ops2` writes its one result, which is in the list. -/
theorem part0_ops2_writes : (main_part0_ops2 : List (HloOp τ sig (Elt F))).Forall fun op => op.writes ⊆ (part0_ops2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part0_ops2` what it held before. -/
theorem part0_ops2_of (V : Valuation τ sig (Elt F)) (r : Ref sig .tc) (h : r ∉ part0_ops2_W) :
    StableHlo.after (main_part0_ops2 : List (HloOp τ sig (Elt F))) V (Proc.devRef .tc r) = V (Proc.devRef .tc r) :=
  StableHlo.after_of_writes_sub _ V part0_ops2_writes h
/-- `main_part0_ops2` writes none of the six argument arrays. -/
theorem part0_ops2_keep (V : Valuation τ sig (Elt F)) (a : Ref sig .tc) (ha : a ∈ argRefs) :
    StableHlo.after (main_part0_ops2 : List (HloOp τ sig (Elt F))) V (Proc.devRef .tc a) = V (Proc.devRef .tc a) := by
  simp only [argRefs, List.mem_cons, List.not_mem_nil, or_false] at ha
  rcases ha with rfl | rfl | rfl | rfl | rfl | rfl <;> exact part0_ops2_of V _ (by decide)

/-! ### `main_part0_ops3` (1 operation) -/

/-- No operation of `main_part0_ops3` allocates a buffer. -/
theorem part0_ops3_fresh : (main_part0_ops3 : List (HloOp τ sig (Elt F))).Forall fun op => op.fresh = ∅ := by
  simp only [List.Forall]; repeat' constructor
/-- The references `main_part0_ops3`'s operations write: each operation's result, in order. -/
abbrev part0_ops3_W : List (Ref sig .tc) :=
  [main_v9]
/-- Every operation of `main_part0_ops3` writes its one result, which is in the list. -/
theorem part0_ops3_writes : (main_part0_ops3 : List (HloOp τ sig (Elt F))).Forall fun op => op.writes ⊆ (part0_ops3_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part0_ops3` what it held before. -/
theorem part0_ops3_of (V : Valuation τ sig (Elt F)) (r : Ref sig .tc) (h : r ∉ part0_ops3_W) :
    StableHlo.after (main_part0_ops3 : List (HloOp τ sig (Elt F))) V (Proc.devRef .tc r) = V (Proc.devRef .tc r) :=
  StableHlo.after_of_writes_sub _ V part0_ops3_writes h
/-- `main_part0_ops3` writes none of the six argument arrays. -/
theorem part0_ops3_keep (V : Valuation τ sig (Elt F)) (a : Ref sig .tc) (ha : a ∈ argRefs) :
    StableHlo.after (main_part0_ops3 : List (HloOp τ sig (Elt F))) V (Proc.devRef .tc a) = V (Proc.devRef .tc a) := by
  simp only [argRefs, List.mem_cons, List.not_mem_nil, or_false] at ha
  rcases ha with rfl | rfl | rfl | rfl | rfl | rfl <;> exact part0_ops3_of V _ (by decide)

/-! ### `main_part0_ops4` (3 operations) -/

/-- No operation of `main_part0_ops4` allocates a buffer. -/
theorem part0_ops4_fresh : (main_part0_ops4 : List (HloOp τ sig (Elt F))).Forall fun op => op.fresh = ∅ := by
  simp only [List.Forall]; repeat' constructor
/-- The references `main_part0_ops4`'s operations write: each operation's result, in order. -/
abbrev part0_ops4_W : List (Ref sig .tc) :=
  [main_call2_cst, main_call2_v0, main_v10]
/-- Every operation of `main_part0_ops4` writes its one result, which is in the list. -/
theorem part0_ops4_writes : (main_part0_ops4 : List (HloOp τ sig (Elt F))).Forall fun op => op.writes ⊆ (part0_ops4_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part0_ops4` what it held before. -/
theorem part0_ops4_of (V : Valuation τ sig (Elt F)) (r : Ref sig .tc) (h : r ∉ part0_ops4_W) :
    StableHlo.after (main_part0_ops4 : List (HloOp τ sig (Elt F))) V (Proc.devRef .tc r) = V (Proc.devRef .tc r) :=
  StableHlo.after_of_writes_sub _ V part0_ops4_writes h
/-- `main_part0_ops4` writes none of the six argument arrays. -/
theorem part0_ops4_keep (V : Valuation τ sig (Elt F)) (a : Ref sig .tc) (ha : a ∈ argRefs) :
    StableHlo.after (main_part0_ops4 : List (HloOp τ sig (Elt F))) V (Proc.devRef .tc a) = V (Proc.devRef .tc a) := by
  simp only [argRefs, List.mem_cons, List.not_mem_nil, or_false] at ha
  rcases ha with rfl | rfl | rfl | rfl | rfl | rfl <;> exact part0_ops4_of V _ (by decide)

/-! ### `main_part0_ops5` (18 operations) -/

/-- No operation of `main_part0_ops5` allocates a buffer. -/
theorem part0_ops5_fresh : (main_part0_ops5 : List (HloOp τ sig (Elt F))).Forall fun op => op.fresh = ∅ := by
  simp only [List.Forall]; repeat' constructor
/-- The references `main_part0_ops5`'s operations write: each operation's result, in order. -/
abbrev part0_ops5_W : List (Ref sig .tc) :=
  [main_v11, main_v12, main_v13, main_cst, main_v14, main_v15, main_cst_0, main_v16, main_v17, main_v18, main_cst_1, main_v19, main_v20, main_cst_2, main_v21, main_v22, main_v23, main_cst_3]
/-- Every operation of `main_part0_ops5` writes its one result, which is in the list. -/
theorem part0_ops5_writes : (main_part0_ops5 : List (HloOp τ sig (Elt F))).Forall fun op => op.writes ⊆ (part0_ops5_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part0_ops5` what it held before. -/
theorem part0_ops5_of (V : Valuation τ sig (Elt F)) (r : Ref sig .tc) (h : r ∉ part0_ops5_W) :
    StableHlo.after (main_part0_ops5 : List (HloOp τ sig (Elt F))) V (Proc.devRef .tc r) = V (Proc.devRef .tc r) :=
  StableHlo.after_of_writes_sub _ V part0_ops5_writes h
/-- `main_part0_ops5` writes none of the six argument arrays. -/
theorem part0_ops5_keep (V : Valuation τ sig (Elt F)) (a : Ref sig .tc) (ha : a ∈ argRefs) :
    StableHlo.after (main_part0_ops5 : List (HloOp τ sig (Elt F))) V (Proc.devRef .tc a) = V (Proc.devRef .tc a) := by
  simp only [argRefs, List.mem_cons, List.not_mem_nil, or_false] at ha
  rcases ha with rfl | rfl | rfl | rfl | rfl | rfl <;> exact part0_ops5_of V _ (by decide)

/-! ### `main_part0_ops6` (3 operations) -/

/-- No operation of `main_part0_ops6` allocates a buffer. -/
theorem part0_ops6_fresh : (main_part0_ops6 : List (HloOp τ sig (Elt F))).Forall fun op => op.fresh = ∅ := by
  simp only [List.Forall]; repeat' constructor
/-- The references `main_part0_ops6`'s operations write: each operation's result, in order. -/
abbrev part0_ops6_W : List (Ref sig .tc) :=
  [main_call3_v0, main_call3_v1, main_v24]
/-- Every operation of `main_part0_ops6` writes its one result, which is in the list. -/
theorem part0_ops6_writes : (main_part0_ops6 : List (HloOp τ sig (Elt F))).Forall fun op => op.writes ⊆ (part0_ops6_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part0_ops6` what it held before. -/
theorem part0_ops6_of (V : Valuation τ sig (Elt F)) (r : Ref sig .tc) (h : r ∉ part0_ops6_W) :
    StableHlo.after (main_part0_ops6 : List (HloOp τ sig (Elt F))) V (Proc.devRef .tc r) = V (Proc.devRef .tc r) :=
  StableHlo.after_of_writes_sub _ V part0_ops6_writes h
/-- `main_part0_ops6` writes none of the six argument arrays. -/
theorem part0_ops6_keep (V : Valuation τ sig (Elt F)) (a : Ref sig .tc) (ha : a ∈ argRefs) :
    StableHlo.after (main_part0_ops6 : List (HloOp τ sig (Elt F))) V (Proc.devRef .tc a) = V (Proc.devRef .tc a) := by
  simp only [argRefs, List.mem_cons, List.not_mem_nil, or_false] at ha
  rcases ha with rfl | rfl | rfl | rfl | rfl | rfl <;> exact part0_ops6_of V _ (by decide)

/-! ### `main_part0_ops7` (30 operations) -/

set_option maxRecDepth 8192 in
/-- No operation of `main_part0_ops7` allocates a buffer. -/
theorem part0_ops7_fresh : (main_part0_ops7 : List (HloOp τ sig (Elt F))).Forall fun op => op.fresh = ∅ := by
  simp only [List.Forall]; repeat' constructor
/-- The references `main_part0_ops7`'s operations write: each operation's result, in order. -/
abbrev part0_ops7_W : List (Ref sig .tc) :=
  [main_c, main_v25, main_v26, main_c_4, main_v27, main_v28, main_v29, main_v30, main_v31, main_v32, main_c_5, main_v33, main_v34, main_c_6, main_v35, main_v36, main_v37, main_v38, main_v39, main_v40, main_v41, main_c_7, main_v42, main_v43, main_c_8, main_v44, main_v45, main_v46, main_v47, main_v48]
set_option maxRecDepth 8192 in
/-- Every operation of `main_part0_ops7` writes its one result, which is in the list. -/
theorem part0_ops7_writes : (main_part0_ops7 : List (HloOp τ sig (Elt F))).Forall fun op => op.writes ⊆ (part0_ops7_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part0_ops7` what it held before. -/
theorem part0_ops7_of (V : Valuation τ sig (Elt F)) (r : Ref sig .tc) (h : r ∉ part0_ops7_W) :
    StableHlo.after (main_part0_ops7 : List (HloOp τ sig (Elt F))) V (Proc.devRef .tc r) = V (Proc.devRef .tc r) :=
  StableHlo.after_of_writes_sub _ V part0_ops7_writes h
/-- `main_part0_ops7` writes none of the six argument arrays. -/
theorem part0_ops7_keep (V : Valuation τ sig (Elt F)) (a : Ref sig .tc) (ha : a ∈ argRefs) :
    StableHlo.after (main_part0_ops7 : List (HloOp τ sig (Elt F))) V (Proc.devRef .tc a) = V (Proc.devRef .tc a) := by
  simp only [argRefs, List.mem_cons, List.not_mem_nil, or_false] at ha
  rcases ha with rfl | rfl | rfl | rfl | rfl | rfl <;> exact part0_ops7_of V _ (by decide)

/-! ### `main_part1_ops0` (60 operations) -/

set_option maxRecDepth 8192 in
/-- No operation of `main_part1_ops0` allocates a buffer. -/
theorem part1_ops0_fresh : (main_part1_ops0 : List (HloOp τ sig (Elt F))).Forall fun op => op.fresh = ∅ := by
  simp only [List.Forall]; repeat' constructor
/-- The references `main_part1_ops0`'s operations write: each operation's result, in order. -/
abbrev part1_ops0_W : List (Ref sig .tc) :=
  [main_v49, main_cst_9, main_v50, main_v51, main_v52, main_cst_10, main_v53, main_v54, main_v55, main_v56, main_v57, main_v58, main_v59, main_c_11, main_v60, main_v61, main_c_12, main_v62, main_v63, main_v64, main_v65, main_v66, main_v67, main_cst_13, main_v68, main_v69, main_v70, main_cst_14, main_v71, main_v72, main_v73, main_v74, main_v75, main_v76, main_v77, main_c_15, main_v78, main_v79, main_c_16, main_v80, main_v81, main_v82, main_v83, main_v84, main_v85, main_cst_17, main_v86, main_v87, main_v88, main_cst_18, main_v89, main_v90, main_v91, main_v92, main_v93, main_v94, main_v95, main_c_19, main_v96, main_v97]
set_option maxRecDepth 8192 in
/-- Every operation of `main_part1_ops0` writes its one result, which is in the list. -/
theorem part1_ops0_writes : (main_part1_ops0 : List (HloOp τ sig (Elt F))).Forall fun op => op.writes ⊆ (part1_ops0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part1_ops0` what it held before. -/
theorem part1_ops0_of (V : Valuation τ sig (Elt F)) (r : Ref sig .tc) (h : r ∉ part1_ops0_W) :
    StableHlo.after (main_part1_ops0 : List (HloOp τ sig (Elt F))) V (Proc.devRef .tc r) = V (Proc.devRef .tc r) :=
  StableHlo.after_of_writes_sub _ V part1_ops0_writes h
/-- `main_part1_ops0` writes none of the six argument arrays. -/
theorem part1_ops0_keep (V : Valuation τ sig (Elt F)) (a : Ref sig .tc) (ha : a ∈ argRefs) :
    StableHlo.after (main_part1_ops0 : List (HloOp τ sig (Elt F))) V (Proc.devRef .tc a) = V (Proc.devRef .tc a) := by
  simp only [argRefs, List.mem_cons, List.not_mem_nil, or_false] at ha
  rcases ha with rfl | rfl | rfl | rfl | rfl | rfl <;> exact part1_ops0_of V _ (by decide)

/-! ### `main_part2_ops0` (40 operations) -/

set_option maxRecDepth 8192 in
/-- No operation of `main_part2_ops0` allocates a buffer. -/
theorem part2_ops0_fresh : (main_part2_ops0 : List (HloOp τ sig (Elt F))).Forall fun op => op.fresh = ∅ := by
  simp only [List.Forall]; repeat' constructor
/-- The references `main_part2_ops0`'s operations write: each operation's result, in order. -/
abbrev part2_ops0_W : List (Ref sig .tc) :=
  [main_c_20, main_v98, main_v99, main_v100, main_v101, main_v102, main_v103, main_cst_21, main_v104, main_v105, main_v106, main_cst_22, main_v107, main_v108, main_v109, main_v110, main_v111, main_v112, main_v113, main_c_23, main_v114, main_v115, main_c_24, main_v116, main_v117, main_v118, main_v119, main_v120, main_v121, main_cst_25, main_v122, main_v123, main_v124, main_cst_26, main_v125, main_v126, main_v127, main_v128, main_v129, main_v130]
set_option maxRecDepth 8192 in
/-- Every operation of `main_part2_ops0` writes its one result, which is in the list. -/
theorem part2_ops0_writes : (main_part2_ops0 : List (HloOp τ sig (Elt F))).Forall fun op => op.writes ⊆ (part2_ops0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A reference outside the list holds after `main_part2_ops0` what it held before. -/
theorem part2_ops0_of (V : Valuation τ sig (Elt F)) (r : Ref sig .tc) (h : r ∉ part2_ops0_W) :
    StableHlo.after (main_part2_ops0 : List (HloOp τ sig (Elt F))) V (Proc.devRef .tc r) = V (Proc.devRef .tc r) :=
  StableHlo.after_of_writes_sub _ V part2_ops0_writes h
/-- `main_part2_ops0` writes none of the six argument arrays. -/
theorem part2_ops0_keep (V : Valuation τ sig (Elt F)) (a : Ref sig .tc) (ha : a ∈ argRefs) :
    StableHlo.after (main_part2_ops0 : List (HloOp τ sig (Elt F))) V (Proc.devRef .tc a) = V (Proc.devRef .tc a) := by
  simp only [argRefs, List.mem_cons, List.not_mem_nil, or_false] at ha
  rcases ha with rfl | rfl | rfl | rfl | rfl | rfl <;> exact part2_ops0_of V _ (by decide)

end Cert.KernelIdeal.Hand

end
-- ==== Proof.KI.FrameInst.lean ====
/-
  The frame of the kernel program at any float instance: no item of @main writes an argument array — a stretch of
  host operations writes only its own results, a pallas_call only its result array (its operands come back as they
  went in) — so whatever contents the run passes through, the six arguments hold their launch contents at the end.
  Nothing is said of what the regions compute: every staging buffer is handed to a body at contents not named and
  taken back at contents not named.
-/
import proofs.«419771_j9096740733412_1_alg».proof.Proof.KI.Run
import proofs.«419771_j9096740733412_1_alg».proof.Proof.KI.Body0
import proofs.«419771_j9096740733412_1_alg».proof.Proof.KI.Body1
import proofs.«419771_j9096740733412_1_alg».proof.Proof.KI.HostFacts

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat RDat BodyObligation BodyObligationLoose)

variable {F : FTy → Type} [FloatOps F]

/-- Every argument array holds what the launch memory held. -/
def Keeps (m : (ℓ : Loc nD τ sig) → Buf (Elt F) ℓ) (c : Dev nD) (V : Valuation τ sig (Elt F)) : Prop :=
  ∀ a ∈ argRefs, V (Proc.devRef .tc a) = W0 m c (Proc.devRef .tc a)

variable (m : (ℓ : Loc nD τ sig) → Buf (Elt F) ℓ)

/-- A stretch that writes no argument keeps them. -/
theorem Keeps.after {c : Dev nD} {V : Valuation τ sig (Elt F)} (ops : List (HloOp τ sig (Elt F)))
    (hk : ∀ (V : Valuation τ sig (Elt F)) (a : Ref sig .tc), a ∈ argRefs →
      StableHlo.after ops V (Proc.devRef .tc a) = V (Proc.devRef .tc a))
    (h : Keeps m c V) : Keeps m c (StableHlo.after ops V) :=
  fun a ha => (hk V a ha).trans (h a ha)

/-- The first stretch keeps them from the launch contents. -/
theorem keeps_W1 (c : Dev nD) : Keeps m c (W1 m c) := fun a ha => part0_ops0_keep (W0 m c) a ha

/-- No argument is region 1's array. -/
theorem arr1_ne : ∀ a ∈ argRefs, ∀ w : Fin cfg1.W, Pipeline.arrRef spec1 w ≠ a := by decide

/-- Of the arguments, region 0 stages `x` (window 0) and the weight matrix (window 1), as inputs; the others are none
    of its arrays. -/
theorem arr0_ne : ∀ a ∈ [main_arg1, main_arg2, main_arg4, main_arg5], ∀ w : Fin cfg0.W, Pipeline.arrRef spec0 w ≠ a := by decide

/-- Region 0 hands its operands back as entered and writes only its result array. -/
theorem keeps_reg0 (c : Dev nD) (fgt : Fin cfg0.W → Bool)
    (Z : (w : Fin cfg0.W) → Buf (Elt F) ((cfg0.win w).arr.view.loc (c : Thread nD τ)))
    (hZ : ∀ w, ((dat0 (V1 m) c).toRForget fgt).ArrAt w cfg0.N (Z w)) :
    Keeps m c (Pipeline.withArrays spec0 c (W1 m c) Z) := by
  have hin : ∀ w : Fin cfg0.W, (cfg0.win w).isOut = false → Z w = (dat0 (V1 m) c).A w := fun w hw => by
    have := hZ w; rw [Pipeline.RDat.ArrAt_in _ w hw] at this; exact this
  intro a ha
  simp only [argRefs, List.mem_cons, List.mem_singleton, List.not_mem_nil, or_false] at ha
  rcases ha with rfl | rfl | rfl | rfl | rfl | rfl
  · exact (Pipeline.withArrays_arr spec0 launch0.win.arr_inj c _ _ 0).trans ((hin 0 rfl).trans (keeps_W1 m c main_arg0 (by decide)))
  · exact (Pipeline.withArrays_of_ne spec0 c _ _ main_arg1 (arr0_ne main_arg1 (by decide))).trans (keeps_W1 m c main_arg1 (by decide))
  · exact (Pipeline.withArrays_of_ne spec0 c _ _ main_arg2 (arr0_ne main_arg2 (by decide))).trans (keeps_W1 m c main_arg2 (by decide))
  · exact (Pipeline.withArrays_arr spec0 launch0.win.arr_inj c _ _ 1).trans ((hin 1 rfl).trans (keeps_W1 m c main_arg3 (by decide)))
  · exact (Pipeline.withArrays_of_ne spec0 c _ _ main_arg4 (arr0_ne main_arg4 (by decide))).trans (keeps_W1 m c main_arg4 (by decide))
  · exact (Pipeline.withArrays_of_ne spec0 c _ _ main_arg5 (arr0_ne main_arg5 (by decide))).trans (keeps_W1 m c main_arg5 (by decide))

/-- Region 1 stages no argument. -/
theorem keeps_reg1 (c : Dev nD) (V : Valuation τ sig (Elt F))
    (Z : (w : Fin cfg1.W) → Buf (Elt F) ((cfg1.win w).arr.view.loc (c : Thread nD τ))) (h : Keeps m c V) :
    Keeps m c (Pipeline.withArrays spec1 c V Z) :=
  fun a ha => (Pipeline.withArrays_of_ne spec1 c V Z a (arr1_ne a ha)).trans (h a ha)

/-- An argument array is an unscoped buffer of the TensorCore. -/
theorem arg_mem_uc : ∀ a ∈ argRefs, (Proc.devRef .tc a : DevRef τ sig) ∈ Pipeline.ucRefs τ sig := fun a ha =>
  Finset.mem_filter.mpr ⟨StableHlo.devRef_mem_tcRefs a, by
    simp only [argRefs, List.mem_cons, List.mem_singleton, List.not_mem_nil, or_false] at ha
    rcases ha with rfl | rfl | rfl | rfl | rfl | rfl <;> decide⟩

/-- THE FRAME, at any float instance: from any launch memory with zero counters every weakly fair execution of @main
    terminates, nothing faulting, and every argument array ends holding its launch contents. -/
theorem frame_open (ρ : Dev nD → PrngReg) :
    θ_run defs (onTc (τ := τ) (main (F := F))) ⟨m, fun _ => 0, ρ⟩ (fun r => ∀ c : Dev nD, ∀ a ∈ argRefs,
      r.2.mem ((c.tc : Thread nD τ).loc a) = m ((c.tc : Thread nD τ).loc a)) :=
  (θ_run defs _ _).mono
    (fun r h c a ha => by
      obtain ⟨V, hV, hm⟩ := h c
      exact (hm _ (arg_mem_uc a ha)).trans (hV a ha))
    (run_open m (fun _ => true) (fun _ => true) ρ
      (fun c => (obl0_forget (V1 m) c).loose) (fun V c => (obl1_forget V c).loose)
      (Keeps m) (Keeps m) (Keeps m) (Keeps m) (Keeps m) (Keeps m) (Keeps m) (Keeps m) (Keeps m) (Keeps m) (Keeps m)
      (fun c Z hZ => keeps_reg0 m c _ Z hZ)
      (fun c V h => h.after m _ part0_ops1_keep) (fun c V h => h.after m _ part0_ops2_keep)
      (fun c V Z h _ => keeps_reg1 m c V Z h)
      (fun c V h => h.after m _ part0_ops3_keep) (fun c V h => h.after m _ part0_ops4_keep)
      (fun c V h => h.after m _ part0_ops5_keep) (fun c V h => h.after m _ part0_ops6_keep)
      (fun c V h => h.after m _ part0_ops7_keep) (fun c V h => h.after m _ part1_ops0_keep)
      (fun c V h => h.after m _ part2_ops0_keep)
      part0_ops0_fresh part0_ops1_fresh part0_ops2_fresh part0_ops3_fresh part0_ops4_fresh part0_ops5_fresh part0_ops6_fresh part0_ops7_fresh part1_ops0_fresh part2_ops0_fresh)

end Cert.KernelIdeal.Hand

end
-- ==== Proof.KI.ValueInst.lean ====
/-
  The kernel program's run over the extended reals, with nothing forgotten: there each region's body leaves, on the
  part of every block its write-back moves, a function of the region's entry contents (the arithmetic is local in the
  rows a clipped block fills with unnamed words), so the contents at every boundary of @main are the fold of Fold.lean
  and the run ends with every unscoped buffer at its last stage.
-/
import proofs.«419771_j9096740733412_1_alg».proof.Proof.KI.Run
import proofs.«419771_j9096740733412_1_alg».proof.Proof.KI.Body0
import proofs.«419771_j9096740733412_1_alg».proof.Proof.KI.Body1
import proofs.«419771_j9096740733412_1_alg».proof.Proof.KI.HostFacts
import proofs.«419771_j9096740733412_1_alg».proof.Proof.KI.FrameInst
import Idealize.ShloMosaic.PureOps.Ideal

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat RDat BodyObligation BodyObligationLoose)

variable (m : (ℓ : Loc nD τ sig) → Buf (Elt Ideal) ℓ)

/-- With no window forgotten, what the write-backs may leave in region 0's arrays is what they do leave. -/
theorem is_W2 (c : Dev nD) (Z : (w : Fin cfg0.W) → Buf (Elt Ideal) ((cfg0.win w).arr.view.loc (c : Thread nD τ)))
    (hZ : ∀ w, ((dat0 (F := Ideal) (V1 m) c).toRForget (fun _ => false)).ArrAt w cfg0.N (Z w)) :
    Pipeline.withArrays spec0 c (W1 m c) Z = W2 m c := by
  have : Z = fun w => (dat0 (F := Ideal) (V1 m) c).arrAt w cfg0.N :=
    funext fun w => (Pipeline.Dat.toRForget_arrAt_iff (dat0 (F := Ideal) (V1 m) c) (fgt := fun _ => false) (w := w) rfl cfg0.N (Z w)).mp (hZ w)
  subst this; rfl

/-- Region 1's proof data read the entry contents on its own core only. -/
theorem dat1_congr {F : FTy → Type} [FloatOps F] (V V' : Contents F) (c : Dev nD) (h : V c = V' c) : dat1 V c = dat1 V' c := by
  unfold dat1 eblk sblk dblk
  rw [h]

/-- The same of region 1, entered from the contents after the two gathers. -/
theorem is_W5 (c : Dev nD) (Z : (w : Fin cfg1.W) → Buf (Elt Ideal) ((cfg1.win w).arr.view.loc (c : Thread nD τ)))
    (hZ : ∀ w, ((dat1 (F := Ideal) (asContents (W4 m c)) c).toRForget (fun _ => false)).ArrAt w cfg1.N (Z w)) :
    Pipeline.withArrays spec1 c (W4 m c) Z = W5 m c := by
  rw [dat1_congr (asContents (W4 m c)) (V4 m) c rfl] at hZ
  have : Z = fun w => (dat1 (F := Ideal) (V4 m) c).arrAt w cfg1.N :=
    funext fun w => (Pipeline.Dat.toRForget_arrAt_iff (dat1 (F := Ideal) (V4 m) c) (fgt := fun _ => false) (w := w) rfl cfg1.N (Z w)).mp (hZ w)
  subst this; rfl

/-- THE RUN at the extended reals: every weakly fair execution of @main terminates, nothing faulting, with every
    unscoped buffer of every core at the last stage of the fold. -/
theorem value_open (ρ : Dev nD → PrngReg) :
    θ_run defs (onTc (τ := τ) (main (F := Ideal))) ⟨m, fun _ => 0, ρ⟩ (fun r => ∀ c : Dev nD,
      ∀ b ∈ Pipeline.ucRefs τ sig, r.2.mem (((c : Thread nD τ)).1, b) = W12 m c b) :=
  (θ_run defs _ _).mono
    (fun r h c b hb => by
      obtain ⟨V, hV, hm⟩ := h c
      rw [hm b hb, hV])
    (run_open (F := Ideal) m (fun _ => false) (fun _ => false) ρ
      (fun c => obl0_exact (V1 m) c) (fun V c => (obl1_exact V c).loose)
      (fun c V => V = W2 m c) (fun c V => V = W3 m c) (fun c V => V = W4 m c) (fun c V => V = W5 m c) (fun c V => V = W6 m c) (fun c V => V = W7 m c) (fun c V => V = W8 m c) (fun c V => V = W9 m c) (fun c V => V = W10 m c) (fun c V => V = W11 m c) (fun c V => V = W12 m c)
      (fun c Z hZ => is_W2 m c Z hZ)
      (fun c V h => by subst h; rfl) (fun c V h => by subst h; rfl)
      (fun c V Z h hZ => by subst h; exact is_W5 m c Z hZ)
      (fun c V h => by subst h; rfl) (fun c V h => by subst h; rfl) (fun c V h => by subst h; rfl)
      (fun c V h => by subst h; rfl) (fun c V h => by subst h; rfl) (fun c V h => by subst h; rfl)
      (fun c V h => by subst h; rfl)
      part0_ops0_fresh part0_ops1_fresh part0_ops2_fresh part0_ops3_fresh part0_ops4_fresh part0_ops5_fresh part0_ops6_fresh part0_ops7_fresh part1_ops0_fresh part2_ops0_fresh)

/-- Along the fold no item writes an argument: at the last stage each holds its launch contents. -/
theorem keeps_W12 (c : Dev nD) : Keeps m c (W12 m c) := by
  have h2 : Keeps m c (W2 m c) :=
    keeps_reg0 m c (fun _ => false) (fun w => (dat0 (F := Ideal) (V1 m) c).arrAt w cfg0.N)
      (fun w => (Pipeline.Dat.toRForget_arrAt_iff (dat0 (F := Ideal) (V1 m) c) (fgt := fun _ => false) (w := w) rfl cfg0.N _).mpr rfl)
  have h4 : Keeps m c (W4 m c) := (h2.after m _ part0_ops1_keep).after m _ part0_ops2_keep
  have h5 : Keeps m c (W5 m c) := keeps_reg1 m c (W4 m c) (fun w => (dat1 (F := Ideal) (V4 m) c).arrAt w cfg1.N) h4
  exact ((((((h5.after m _ part0_ops3_keep).after m _ part0_ops4_keep).after m _ part0_ops5_keep).after m _ part0_ops6_keep).after m _
    part0_ops7_keep).after m _ part1_ops0_keep).after m _ part2_ops0_keep

end Cert.KernelIdeal.Hand

end
-- ==== Proof.KI.Spec.lean ====
/-
  The two closed forms the kernel regions are shown to compute, over plain coordinates on the extended reals:
  the transposed embedding's entry (d, n) = tanh(Σₖ W[d,k] · x[n,k] + b[d]), and the cosine similarity of two
  embedding columns, each norm clamped from below by the f32 word nearest 1e-8, the quotient clamped at zero.
-/
import Idealize.ShloMosaic.PureOps.Ideal

noncomputable section

namespace Cert.KernelIdeal.Hand

open Idealize.ShloMosaic

/-- Entry (d, n) of the transposed embedding. -/
def embT (x : Fin 100000 → Fin 128 → EReal) (W : Fin 128 → Fin 128 → EReal) (b : Fin 128 → EReal)
    (d : Fin 128) (n : Fin 100000) : EReal :=
  Ideal.tanh ((∑ k : Fin 128, W d k * x n k) + b d)

/-- The clamped cosine similarity of two columns of 128 entries. -/
def cosClamped (s t : Fin 128 → EReal) : EReal :=
  max (Ideal.div (∑ d : Fin 128, s d * t d)
        (max (Ideal.sqrt (∑ d : Fin 128, s d * s d)) (Ideal.ofBits .f32 0x322BCC77#32)
          * max (Ideal.sqrt (∑ d : Fin 128, t d * t d)) (Ideal.ofBits .f32 0x322BCC77#32))) 0

/-- The node an index word names: the word read as a natural number (reduced below the node count, which changes
    nothing for a word in range). -/
def nodeOf (w : BitVec 32) : Fin 100000 := ⟨w.toNat % 100000, Nat.mod_lt _ (by decide)⟩

theorem nodeOf_val {w : BitVec 32} (h : w.toNat < 100000) : (nodeOf w).val = w.toNat := Nat.mod_eq_of_lt h

/-- Edge `e`'s weight from the inputs: the clamped cosine similarity of the embeddings of its two end nodes. -/
def edgeWeight (x : Fin 100000 → Fin 128 → EReal) (W : Fin 128 → Fin 128 → EReal) (b : Fin 128 → EReal)
    (src dst : Fin 1600000 → BitVec 32) (e : Fin 1600000) : EReal :=
  cosClamped (fun d => embT x W b d (nodeOf (src e))) (fun d => embT x W b d (nodeOf (dst e)))

end Cert.KernelIdeal.Hand

end
-- ==== Proof.KI.Value0.lean ====
/-
  What region 0 leaves in its arrays, over the extended reals.

  Region 0 computes the transposed embedding h_T = tanh(W · xᵀ + b) of x : [100000, 128] block by block: point t of
  sixteen takes rows 6400·t … 6400·t + 6399 of x, all of W : [128, 128] and of the bias column b : [128, 1], and writes
  columns 6400·t … of the result [128, 100000]. Point 15's block overhangs the arrays by 2400 rows (columns): only
  the 4000 rows inside x are read, and only the 4000 columns inside the result are written back.

  Entry (d, j) of what a point computes is tanh(Σₖ W[d, k] · x_blk[j, k] + b[d]): the matrix product into a zero
  accumulator is the plain sum over the 128 features, the change of float format is the identity on the extended
  reals, the bias column is broadcast along the columns. It depends on row j of the point's block only, so for a
  column inside the array nothing of the rows past the end of x is read: the entry is the transposed embedding's
  entry (d, 6400·t + j). Column n lies in the block of point n / 6400, and every point writes back its block of that
  one array; so after the sixteen write-backs the result array is the transposed embedding. The three operands are
  never written.
-/
import proofs.«419771_j9096740733412_1_alg».proof.Proof.KI.Fold
import proofs.«419771_j9096740733412_1_alg».proof.Proof.KI.Spec
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
open Idealize.ShloMosaic.ValueIdx

variable {F : FTy → Type} [FloatOps F]

namespace Value0

/-! ## The block's arithmetic at an entry -/

/-- In the product W · x_blkᵀ the weight operand is read, at result entry i and feature q, at row i₀ … -/
theorem weightIdx_row (i : S128x6400.Idx) (q : dot_S128x128_S6400x128_S128x6400_1_1_0_0_n_n.contr.Idx) :
    (dot_S128x128_S6400x128_S128x6400_1_1_0_0_n_n.lhsIdx i q 0).val = (i 0).val := by
  unfold DotDims.lhsIdx
  rw [dif_neg (show ¬(0 : Fin S128x128.rank) ∈ dot_S128x128_S6400x128_S128x6400_1_1_0_0_n_n.lhsBatch by decide),
    dif_pos (show (0 : Fin S128x128.rank) ∈ dot_S128x128_S6400x128_S128x6400_1_1_0_0_n_n.lhsNonContracting by decide)]
  rfl

/-- … and column q; -/
theorem weightIdx_feature (i : S128x6400.Idx) (q : dot_S128x128_S6400x128_S128x6400_1_1_0_0_n_n.contr.Idx) :
    (dot_S128x128_S6400x128_S128x6400_1_1_0_0_n_n.lhsIdx i q 1).val = (q ⟨0, by decide⟩).val :=
  dot_S128x128_S6400x128_S128x6400_1_1_0_0_n_n.lhsIdx_val_of_single rfl i q

/-- the block of x at row i₁ … -/
theorem rowIdx_row (i : S128x6400.Idx) (q : dot_S128x128_S6400x128_S128x6400_1_1_0_0_n_n.contr.Idx) :
    (dot_S128x128_S6400x128_S128x6400_1_1_0_0_n_n.rhsIdx i q 0).val = (i 1).val := by
  unfold DotDims.rhsIdx
  rw [dif_neg (show ¬(0 : Fin S6400x128.rank) ∈ dot_S128x128_S6400x128_S128x6400_1_1_0_0_n_n.rhsBatch by decide),
    dif_pos (show (0 : Fin S6400x128.rank) ∈ dot_S128x128_S6400x128_S128x6400_1_1_0_0_n_n.rhsNonContracting by decide)]
  rfl

/-- … and column q. -/
theorem rowIdx_feature (i : S128x6400.Idx) (q : dot_S128x128_S6400x128_S128x6400_1_1_0_0_n_n.contr.Idx) :
    (dot_S128x128_S6400x128_S128x6400_1_1_0_0_n_n.rhsIdx i q 1).val = (q ⟨0, by decide⟩).val :=
  dot_S128x128_S6400x128_S128x6400_1_1_0_0_n_n.rhsIdx_val_of_single rfl i q

/-- The product of the weight block by the transposed row block, into a zero accumulator, at entry (d, j):
    the sum over the 128 features of W[d, k] · x_blk[j, k]. -/
theorem matmul_W_xT_apply (l : FVec Ideal S128x128 .bf16) (r : FVec Ideal S6400x128 .bf16) (d : Fin 128) (j : Fin 6400) :
    matmul dot_S128x128_S6400x128_S128x6400_1_1_0_0_n_n none l r (constant (F := Ideal) S128x6400 .f32 0x00000000#32) (ix2 d j)
      = ∑ k : Fin 128, l (ix2 d k) * r (ix2 j k) := by
  show FloatOps.matmul dot_S128x128_S6400x128_S128x6400_1_1_0_0_n_n none l r
      (constant (F := Ideal) S128x6400 .f32 0x00000000#32) (ix2 d j) = _
  rw [Ideal.matmul_constant_zero_apply,
    ← Equiv.sum_comp (contrEquiv1 dot_S128x128_S6400x128_S128x6400_1_1_0_0_n_n 128 rfl rfl).symm]
  refine Finset.sum_congr rfl fun k _ => ?_
  have hk := contrEquiv1_symm_val dot_S128x128_S6400x128_S128x6400_1_1_0_0_n_n 128 rfl rfl k
  have el : dot_S128x128_S6400x128_S128x6400_1_1_0_0_n_n.lhsIdx (ix2 d j)
      ((contrEquiv1 dot_S128x128_S6400x128_S128x6400_1_1_0_0_n_n 128 rfl rfl).symm k) = ix2 d k :=
    funext fun a => Fin.ext (by
      match a with
      | ⟨0, _⟩ => exact weightIdx_row _ _
      | ⟨1, _⟩ => exact (weightIdx_feature _ _).trans hk)
  have er : dot_S128x128_S6400x128_S128x6400_1_1_0_0_n_n.rhsIdx (ix2 d j)
      ((contrEquiv1 dot_S128x128_S6400x128_S128x6400_1_1_0_0_n_n 128 rfl rfl).symm k) = ix2 j k :=
    funext fun a => Fin.ext (by
      match a with
      | ⟨0, _⟩ => exact rowIdx_row _ _
      | ⟨1, _⟩ => exact (rowIdx_feature _ _).trans hk)
  rw [el, er]

/-- A column [a, 1] broadcast to [a, b] reads, at (p, c), the column's entry p. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- What a point computes, at entry (d, j) of its block: tanh of the d-th weight row against the j-th row of the
    block of x, plus the d-th bias. -/
theorem k0_pay1_apply (x0 : Vec Ideal S6400x128 .f32) (w0 : Vec Ideal S128x128 .f32) (b0 : Vec Ideal S128x1 .f32)
    (d : Fin 128) (j : Fin 6400) :
    (k0_pay1 (F := Ideal) x0 w0 b0 : S128x6400.Idx → EReal) (ix2 d j)
      = Ideal.tanh ((∑ k : Fin 128, (w0 : S128x128.Idx → EReal) (ix2 d k) * (x0 : S6400x128.Idx → EReal) (ix2 j k))
          + (b0 : S128x1.Idx → EReal) (ix2 d 0)) := by
  unfold k0_pay1
  show Ideal.tanh
      (matmul dot_S128x128_S6400x128_S128x6400_1_1_0_0_n_n none (truncf .bf16 w0 bitsLt_bf16_f32)
          (truncf .bf16 x0 bitsLt_bf16_f32) (constant (F := Ideal) S128x6400 .f32 0x00000000#32) (ix2 d j)
        + broadcastTo S128x6400 (shapeCast S128x1 b0 shapeCasts_S128x1_S128x1) broadcasts_S128x1_S128x6400 (ix2 d j)) = _
  rw [matmul_W_xT_apply, broadcastTo_column_apply, shapeCast_self]
  rfl

/-! ## The printed index maps and cuts, decided once over the sixteen points -/

/-- Point t's block of x starts at row block t, the result's at column block t; the weights' and the bias's one
    block is the array. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- What of a block lies inside its array: all 6400 rows (columns), or those left before row (column) 100000. -/
theorem blockExtent : ∀ t : Fin cfg0.N,
    win0_0.xsize (grid0.coords t) (0 : Fin 2) = min 6400 (100000 - 6400 * t.val)
    ∧ win0_0.xsize (grid0.coords t) (1 : Fin 2) = 128
    ∧ win0_3.xsize (grid0.coords t) (0 : Fin 2) = 128
    ∧ win0_3.xsize (grid0.coords t) (1 : Fin 2) = min 6400 (100000 - 6400 * t.val) :=
  (by decide +kernel : ∀ t : Fin grid0.N, _)

/-! ## The blocks a point works on, read at an entry -/

/-- Row j of point t's filled-out block of x, when row 6400·t + j is inside the array, is that row of x:
    the filler is not read there. -/
theorem fill_x_apply (X : S100000x128.Idx → Elt F .f32) (dflt : S6400x128.Idx → Elt F .f32) (t : Fin cfg0.N)
    (j : Fin 6400) (k : Fin 128) (n : Fin 100000) (hn : n.val = 6400 * t.val + j.val) :
    win0_0.fill (grid0.coords t) dflt ((win0_0.blk t).view.read (Elt F) X) (ix2 j k) = X (ix2 n k) := by
  obtain ⟨i00, i01, -⟩ := blockIndex t
  obtain ⟨c00, c01, -⟩ := blockExtent t
  have hmv : win0_0.moved (grid0.coords t) (ix2 j k) = true := by
    rw [Window.moved_iff]
    intro a
    match a with
    | ⟨0, _⟩ =>
      show j.val < win0_0.xsize (grid0.coords t) (0 : Fin 2)
      rw [c00]; have := n.isLt; have := j.isLt; omega
    | ⟨1, _⟩ =>
      show k.val < win0_0.xsize (grid0.coords t) (1 : Fin 2)
      rw [c01]; exact k.isLt
  unfold Window.fill
  rw [dif_pos hmv, View.read_apply]
  show X _ = X _
  refine congrArg X (funext fun a => Fin.ext ?_)
  match a with
  | ⟨0, _⟩ => show win0_0.index t (0 : Fin 2) * 6400 + 1 * j.val = n.val; rw [i00, hn]; omega
  | ⟨1, _⟩ => show win0_0.index t (1 : Fin 2) * 128 + 1 * k.val = k.val; rw [i01]; omega

/-- The weights' one block is the weight matrix. -/
theorem weights_block_apply (Wv : S128x128.Idx → Elt F .f32) (t : Fin cfg0.N) (d k : Fin 128) :
    ((win0_1.blk t).view.read (Elt F) Wv : S128x128.Idx → Elt F .f32) (ix2 d k) = Wv (ix2 d k) := by
  obtain ⟨-, -, i10, i11, -⟩ := blockIndex t
  rw [View.read_apply]
  show Wv _ = Wv _
  refine congrArg Wv (funext fun a => Fin.ext ?_)
  match a with
  | ⟨0, _⟩ => show win0_1.index t (0 : Fin 2) * 128 + 1 * d.val = d.val; rw [i10]; omega
  | ⟨1, _⟩ => show win0_1.index t (1 : Fin 2) * 128 + 1 * k.val = k.val; rw [i11]; omega

/-- The bias's one block is the bias column. -/
theorem bias_block_apply (Bv : S128x1.Idx → Elt F .f32) (t : Fin cfg0.N) (d : Fin 128) :
    ((win0_2.blk t).view.read (Elt F) Bv : S128x1.Idx → Elt F .f32) (ix2 d 0) = Bv (ix2 d 0) := by
  obtain ⟨-, -, -, -, i20, i21, -⟩ := blockIndex t
  rw [View.read_apply]
  show Bv _ = Bv _
  refine congrArg Bv (funext fun a => Fin.ext ?_)
  match a with
  | ⟨0, _⟩ => show win0_2.index t (0 : Fin 2) * 128 + 1 * d.val = d.val; rw [i20]; omega
  | ⟨1, _⟩ => show win0_2.index t (1 : Fin 2) * 1 + 1 * 0 = 0; rw [i21]

/-- Entry (d, j) of what point t computes, for a column 6400·t + j inside the array, is the transposed embedding's
    entry (d, 6400·t + j). -/
theorem oblk_apply (V : Contents Ideal) (c : Dev nD) (t : Fin cfg0.N) (d d' : Fin 128) (j : Fin 6400) (n : Fin 100000)
    (hd : d'.val = d.val) (hn : n.val = 6400 * t.val + j.val) :
    (oblk V c t : S128x6400.Idx → EReal) (ix2 d j)
      = embT (fun n k => (V c main_arg0 : S100000x128.Idx → EReal) (ix2 n k))
          (fun d k => (V c main_arg3 : S128x128.Idx → EReal) (ix2 d k))
          (fun d => (V c main_v4 : S128x1.Idx → EReal) (ix2 d 0)) d' n := by
  obtain rfl : d' = d := Fin.ext hd
  have hx : ∀ k : Fin 128, (xfull V c t : S6400x128.Idx → EReal) (ix2 j k)
      = (V c main_arg0 : S100000x128.Idx → EReal) (ix2 n k) :=
    fun k => fill_x_apply (F := Ideal) (V c main_arg0) _ t j k n hn
  have hw : ∀ k : Fin 128, (wblk V c t : S128x128.Idx → EReal) (ix2 d' k)
      = (V c main_arg3 : S128x128.Idx → EReal) (ix2 d' k) :=
    fun k => weights_block_apply (F := Ideal) (V c main_arg3) t d' k
  have hb : (bblk V c t : S128x1.Idx → EReal) (ix2 d' 0) = (V c main_v4 : S128x1.Idx → EReal) (ix2 d' 0) :=
    bias_block_apply (F := Ideal) (V c main_v4) t d'
  unfold oblk embT
  refine (k0_pay1_apply _ _ _ d' j).trans ?_
  rw [hb]
  exact congrArg (fun s => Ideal.tanh (s + _)) (Finset.sum_congr rfl fun k _ => by rw [hx k, hw k])

/-! ## From the blocks to the array -/

/-- The transposed embedding of the arrays region 0 is entered with, as one array. -/
def embTArr (V : Contents Ideal) (c : Dev nD) : S128x100000.Idx → EReal := fun i =>
  embT (fun n k => (V c main_arg0 : S100000x128.Idx → EReal) (ix2 n k))
    (fun d k => (V c main_arg3 : S128x128.Idx → EReal) (ix2 d k))
    (fun d => (V c main_v4 : S128x1.Idx → EReal) (ix2 d 0)) (i 0) (i 1)

/-- What point t writes back — the columns of its result inside the array — is its block of that array. -/
theorem writeback_eq (V : Contents Ideal) (c : Dev nD) (t : Fin cfg0.N) :
    (dat0 (F := Ideal) V c).flushed 3 t = ((cfg0.win 3).blk t).view.read (Elt Ideal) (embTArr V c) := by
  obtain ⟨-, -, -, -, -, -, i30, i31⟩ := blockIndex t
  obtain ⟨-, -, c30, c31⟩ := blockExtent t
  funext y
  have h0 : (y 0).val < win0_3.xsize (grid0.coords t) (0 : Fin 2) := (y 0).isLt
  have h1 : (y 1).val < win0_3.xsize (grid0.coords t) (1 : Fin 2) := (y 1).isLt
  rw [c30] at h0; rw [c31] at h1
  have h1' : (y 1).val < 6400 := by omega
  show oblk V c t (win0_3.xinj (grid0.coords t) y) = embTArr V c ((win0_3.blk t).view.emb y)
  have e : win0_3.xinj (grid0.coords t) y = ix2 (⟨(y 0).val, h0⟩ : Fin 128) (⟨(y 1).val, h1'⟩ : Fin 6400) :=
    funext fun a => Fin.ext (by match a with | ⟨0, _⟩ => rfl | ⟨1, _⟩ => rfl)
  rw [e]
  unfold embTArr
  refine oblk_apply V c t ⟨(y 0).val, h0⟩ ((win0_3.blk t).view.emb y 0) ⟨(y 1).val, h1'⟩ ((win0_3.blk t).view.emb y 1) ?_ ?_
  · show win0_3.index t (0 : Fin 2) * 128 + 1 * (y 0).val = (y 0).val
    rw [i30]; omega
  · show win0_3.index t (1 : Fin 2) * 6400 + 1 * (y 1).val = 6400 * t.val + (y 1).val
    rw [i31]; omega

/-- An entry of the result array is in point t's block iff, on each axis, it lies among the block's coordinates
    inside the array. -/
theorem mem_resultBlock (t : Fin cfg0.N) (i : S128x100000.Idx) :
    i ∈ ((cfg0.win 3).blk t).view.set ↔ ∀ a : Fin 2, win0_3.index t a * S128x6400.size a ≤ (i a).val
      ∧ (i a).val < win0_3.index t a * S128x6400.size a + win0_3.xsize (grid0.coords t) a := by
  show i ∈ ((View.whole main_v5).slice (win0_3.rect t)).set ↔ _
  rw [View.set_slice_whole, Rect.mem_set_unit]
  exact Iff.rfl

/-- Column n is in the block of point n / 6400: the sixteen blocks, the last cut at column 100000, cover the array. -/
theorem resultBlocks_cover (i : S128x100000.Idx) :
    ∃ t : Fin cfg0.N, (cfg0.win 3).flush t = true ∧ i ∈ ((cfg0.win 3).blk t).view.set := by
  have hN : cfg0.N = 16 := N_0
  have hi0 : (i 0).val < 128 := (i 0).isLt
  have hi1 : (i 1).val < 100000 := (i 1).isLt
  obtain ⟨t, ht⟩ : ∃ t : Fin cfg0.N, t.val = (i 1).val / 6400 := ⟨⟨(i 1).val / 6400, by rw [hN]; omega⟩, rfl⟩
  refine ⟨t, flush0_3 t, ?_⟩
  obtain ⟨-, -, -, -, -, -, i30, i31⟩ := blockIndex t
  obtain ⟨-, -, c30, c31⟩ := blockExtent t
  rw [mem_resultBlock]
  intro a
  match a with
  | ⟨0, _⟩ =>
    show win0_3.index t (0 : Fin 2) * 128 ≤ (i 0).val
      ∧ (i 0).val < win0_3.index t (0 : Fin 2) * 128 + win0_3.xsize (grid0.coords t) (0 : Fin 2)
    rw [i30, c30]; omega
  | ⟨1, _⟩ =>
    show win0_3.index t (1 : Fin 2) * 6400 ≤ (i 1).val
      ∧ (i 1).val < win0_3.index t (1 : Fin 2) * 6400 + win0_3.xsize (grid0.coords t) (1 : Fin 2)
    rw [i31, c31]; omega

end Value0

/-! ## What region 0 leaves -/

/-- Region 0 writes none of its three operands. -/
theorem arrAt0_in (V : Contents F) (c : Dev nD) (w : Fin cfg0.W) (hw : (cfg0.win w).isOut = false) :
    (dat0 V c).arrAt w cfg0.N = (dat0 V c).A w := (dat0 V c).arrAt_in w hw _

/-- After region 0 its result array holds the transposed embedding of the arrays it was entered with. -/
theorem arrAt0_out (V : Contents Ideal) (c : Dev nD) (d : Fin 128) (n : Fin 100000) :
    ((dat0 (F := Ideal) V c).arrAt 3 cfg0.N : S128x100000.Idx → EReal) (ValueIdx.ix2 d n)
      = embT (fun n k => (V c main_arg0 : S100000x128.Idx → EReal) (ValueIdx.ix2 n k))
          (fun d k => (V c main_arg3 : S128x128.Idx → EReal) (ValueIdx.ix2 d k))
          (fun d => (V c main_v4 : S128x1.Idx → EReal) (ValueIdx.ix2 d 0)) d n :=
  congrFun ((dat0 (F := Ideal) V c).arrAt_eq_of_cover 3 (Value0.embTArr V c)
    (fun t _ => Value0.writeback_eq V c t) Value0.resultBlocks_cover) (ix2 d n)

end Cert.KernelIdeal.Hand

end
-- ==== Proof.KI.Value1.lean ====
/-
  What region 1 leaves in its arrays, read over the extended reals. Its two operands are never written. Its result,
  one row of 1600000 edges, is written block of 6400 edges by block: point t of the 250 computes, for each of its 6400
  edges j, the clamped cosine similarity of column 6400·t + j of the two operands — the three sums over the 128 rows
  (s·d, s·s, d·d), each norm clamped from below by the word nearest 1e-8, the quotient clamped at zero. The 250 blocks
  tile the row (edge e lies in block e / 6400), so after the last write-back the row is that one function of the two
  operand arrays at every edge.
-/
import proofs.«419771_j9096740733412_1_alg».proof.Proof.KI.Fold
import proofs.«419771_j9096740733412_1_alg».proof.Proof.KI.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
open Idealize.ShloMosaic.ValueIdx

variable {F : FTy → Type} [FloatOps F]

namespace EdgeCosine

/-! ## The block's arithmetic at one edge -/

/-- Summing a [128, 6400] block over its rows puts row `k` back above lane `j` at `(k, j)`. -/
theorem lift_rows (j : Fin 6400) (k : Fin 128) :
    reduces_S128x6400_S6400.lift (ix1 j) k = (ix2 k j : S128x6400.Idx) := by
  funext a
  apply Fin.ext
  match a with
  | ⟨0, _⟩ => rfl
  | ⟨1, _⟩ => rfl

/-- The sum of a [128, 6400] block over its rows, at lane `j`: the sum over the 128 rows of column `j`. -/
theorem rows_sum (v : FVec Ideal S128x6400 .f32) (hacc : (0x00000000#32 : BitVec 32) = 0x00000000#32) (j : Fin 6400) :
    multiReduction .add [0] S6400 v 0x00000000#32 reduces_S128x6400_S6400 (.inl rfl) hacc (ix1 j)
      = ∑ k : Fin 128, v (ix2 k j) := by
  refine (Ideal.multiReduction_add_single v 0x00000000#32 reduces_S128x6400_S6400 (.inl rfl) hacc (ix1 j)).trans ?_
  exact Finset.sum_congr rfl fun k _ => congrArg v (lift_rows j k)

/-- What a point computes from two [128, 6400] blocks, at edge `j` of its block: the clamped cosine similarity of
    the two blocks' columns `j`. Every operation but the three row sums acts lane by lane; the clamp constant stays
    the word it is, and the zero word is the extended real 0. -/
theorem pay_apply (s d : Vec Ideal S128x6400 .f32) (u : Fin 1) (j : Fin 6400) :
    (k1_pay1 (F := Ideal) s d : S1x6400.Idx → EReal) (ix2 u j)
      = cosClamped (fun k => s (ix2 k j)) (fun k => d (ix2 k j)) := by
  unfold k1_pay1
  dsimp only
  rw [shapeCast_self, shapeCast_self]
  refine (shapeCast_a_1a_apply _ _ u j).trans ?_
  have e5 := rows_sum (mulf s d) rfl j
  have e7 := rows_sum (mulf s s) rfl j
  have e9 := rows_sum (mulf d d) rfl j
  unfold cosClamped
  exact congrArg₂ max
    (congrArg₂ Ideal.div e5
      (congrArg₂ (fun a b : EReal => a * b)
        (congrArg (fun x => max (Ideal.sqrt x) (Ideal.ofBits .f32 0x322BCC77#32)) e7)
        (congrArg (fun x => max (Ideal.sqrt x) (Ideal.ofBits .f32 0x322BCC77#32)) e9)))
    Ideal.ofBits_zero_f32

/-! ## The blocks as columns of the arrays -/

/-- The three index maps of region 1 over its 250 points: block row 0, block column the point itself. -/
theorem index_maps : ∀ t : Fin cfg1.N,
    (win1_0.index t (0 : Fin 2) = 0 ∧ win1_0.index t (1 : Fin 2) = t.val)
    ∧ (win1_1.index t (0 : Fin 2) = 0 ∧ win1_1.index t (1 : Fin 2) = t.val)
    ∧ (win1_2.index t (0 : Fin 2) = 0 ∧ win1_2.index t (1 : Fin 2) = t.val) :=
  (by decide +kernel : ∀ t : Fin grid1.N, _)

/-- Entry `(k, j)` of the first operand's block at point `t` is entry `(k, 6400·t + j)` of the array: a block's
    coordinate is its index times its size plus the coordinate inside it. -/
theorem sblk_apply (V : Contents F) (c : Dev nD) (t : Fin cfg1.N) (k : Fin 128) (j : Fin 6400) (e : Fin 1600000)
    (he : e.val = 6400 * t.val + j.val) :
    sblk V c t (ix2 k j) = (V c main_v6 : S128x1600000.Idx → Elt F .f32) (ix2 k e) := by
  obtain ⟨⟨h0, h1⟩, -, -⟩ := index_maps t
  unfold sblk
  rw [View.read_apply]
  show V c main_v6 _ = V c main_v6 _
  refine congrArg _ ?_
  funext a
  apply Fin.ext
  match a with
  | ⟨0, _⟩ => show win1_0.index t (0 : Fin 2) * 128 + 1 * k.val = k.val; rw [h0]; omega
  | ⟨1, _⟩ => show win1_0.index t (1 : Fin 2) * 6400 + 1 * j.val = e.val; rw [h1, he]; omega

/-- The same for the second operand. -/
theorem dblk_apply (V : Contents F) (c : Dev nD) (t : Fin cfg1.N) (k : Fin 128) (j : Fin 6400) (e : Fin 1600000)
    (he : e.val = 6400 * t.val + j.val) :
    dblk V c t (ix2 k j) = (V c main_v7 : S128x1600000.Idx → Elt F .f32) (ix2 k e) := by
  obtain ⟨-, ⟨h0, h1⟩, -⟩ := index_maps t
  unfold dblk
  rw [View.read_apply]
  show V c main_v7 _ = V c main_v7 _
  refine congrArg _ ?_
  funext a
  apply Fin.ext
  match a with
  | ⟨0, _⟩ => show win1_1.index t (0 : Fin 2) * 128 + 1 * k.val = k.val; rw [h0]; omega
  | ⟨1, _⟩ => show win1_1.index t (1 : Fin 2) * 6400 + 1 * j.val = e.val; rw [h1, he]; omega

/-- Every edge's clamped cosine similarity, as one row over the two operand arrays. -/
def cosRow (s d : S128x1600000.Idx → EReal) : S1x1600000.Idx → EReal :=
  fun i => cosClamped (fun k => s (ix2 k (i 1 : Fin 1600000))) (fun k => d (ix2 k (i 1 : Fin 1600000)))

/-- What the result window holds after the body at point `t`. -/
theorem after_result (V : Contents F) (c : Dev nD) (t : Fin cfg1.N) : (dat1 V c).after 2 t = eblk V c t := by
  dsimp only [dat1]

/-- Entry `y` of what point `t` computes is `cosRow` at the edge `6400·t + y`. -/
theorem eblk_apply (V : Contents Ideal) (c : Dev nD) (t : Fin cfg1.N) (y : S1x6400.Idx) (i : S1x1600000.Idx)
    (hi : (i 1).val = 6400 * t.val + (y 1).val) :
    (eblk V c t : S1x6400.Idx → EReal) y = cosRow (V c main_v6) (V c main_v7) i := by
  obtain ⟨u, j, rfl⟩ : ∃ (u : Fin 1) (j : Fin 6400), y = ix2 u j := ⟨y 0, y 1, eq_ix2 y⟩
  obtain ⟨u', e, rfl⟩ : ∃ (u' : Fin 1) (e : Fin 1600000), i = ix2 u' e := ⟨i 0, i 1, eq_ix2 i⟩
  unfold eblk cosRow
  refine (pay_apply _ _ u j).trans ?_
  exact congrArg₂ cosClamped (funext fun k => sblk_apply V c t k j e hi) (funext fun k => dblk_apply V c t k j e hi)

/-! ## From the blocks to the row -/

/-- What point `t` writes back is its block of 6400 edges of the one row `cosRow`. -/
theorem flushed_eq (V : Contents Ideal) (c : Dev nD) (t : Fin cfg1.N) :
    (dat1 (F := Ideal) V c).flushed 2 t
      = ((cfg1.win 2).blk t).view.read (Elt Ideal) (cosRow (V c main_v6) (V c main_v7)) := by
  show (cfg1.win 2).cut (grid1.coords t) ((dat1 V c).after 2 t) = _
  rw [after_result]
  funext y
  show (eblk V c t : S1x6400.Idx → EReal) y = cosRow (V c main_v6) (V c main_v7) (((cfg1.win 2).blk t).view.emb y)
  refine eblk_apply V c t y _ ?_
  show win1_2.index t (1 : Fin 2) * 6400 + 1 * (y 1).val = 6400 * t.val + (y 1).val
  rw [(index_maps t).2.2.2]; omega

/-- An index of the row lies in point `t`'s block iff each coordinate lies in the block's range on its axis. -/
theorem mem_blk (t : Fin cfg1.N) (i : S1x1600000.Idx) :
    i ∈ ((cfg1.win 2).blk t).view.set
      ↔ ∀ a : Fin 2, win1_2.index t a * S1x6400.size a ≤ (i a).val
          ∧ (i a).val < win1_2.index t a * S1x6400.size a + S1x6400.size a := by
  show i ∈ ((View.whole main_v8).slice (win1_2.rect t)).set ↔ _
  rw [View.set_slice_whole, Rect.mem_set_unit]
  exact Iff.rfl

/-- Edge `e` lies in the block of point `e / 6400`: the 250 blocks of 6400 edges tile the 1600000. -/
theorem covered (i : S1x1600000.Idx) :
    ∃ t : Fin cfg1.N, (cfg1.win 2).flush t = true ∧ i ∈ ((cfg1.win 2).blk t).view.set := by
  have hN : cfg1.N = 250 := N_1
  have h0 : (i 0).val < 1 := (i 0).isLt
  have h1 : (i 1).val < 1600000 := (i 1).isLt
  have ht : (i 1).val / 6400 < cfg1.N := by rw [hN]; omega
  obtain ⟨-, -, e0, e1⟩ := index_maps ⟨(i 1).val / 6400, ht⟩
  refine ⟨⟨(i 1).val / 6400, ht⟩, flush1_2 _, ?_⟩
  rw [mem_blk]
  intro a
  match a with
  | ⟨0, _⟩ =>
    show win1_2.index ⟨(i 1).val / 6400, ht⟩ (0 : Fin 2) * 1 ≤ (i 0).val
      ∧ (i 0).val < win1_2.index ⟨(i 1).val / 6400, ht⟩ (0 : Fin 2) * 1 + 1
    rw [e0]; omega
  | ⟨1, _⟩ =>
    show win1_2.index ⟨(i 1).val / 6400, ht⟩ (1 : Fin 2) * 6400 ≤ (i 1).val
      ∧ (i 1).val < win1_2.index ⟨(i 1).val / 6400, ht⟩ (1 : Fin 2) * 6400 + 6400
    rw [e1]
    show (i 1).val / 6400 * 6400 ≤ (i 1).val ∧ (i 1).val < (i 1).val / 6400 * 6400 + 6400
    omega

/-- The result row after the 250 write-backs is `cosRow` of the two operand arrays. -/
theorem result_row (V : Contents Ideal) (c : Dev nD) :
    (dat1 (F := Ideal) V c).arrAt 2 cfg1.N = cosRow (V c main_v6) (V c main_v7) :=
  (dat1 (F := Ideal) V c).arrAt_eq_of_cover 2 (cosRow (V c main_v6) (V c main_v7))
    (fun t _ => flushed_eq V c t) covered

end EdgeCosine

/-- Region 1 writes neither of its two operands. -/
theorem arrAt1_in (V : Contents F) (c : Dev nD) (w : Fin cfg1.W) (hw : (cfg1.win w).isOut = false) :
    (dat1 V c).arrAt w cfg1.N = (dat1 V c).A w :=
  (dat1 V c).arrAt_in w hw cfg1.N

/-- After region 1 its result array holds, edge by edge, the clamped cosine similarity of the two operands' columns. -/
theorem arrAt1_out (V : Contents Ideal) (c : Dev nD) (e : Fin 1600000) :
    ((dat1 (F := Ideal) V c).arrAt 2 cfg1.N : S1x1600000.Idx → EReal) (ValueIdx.ix2 0 e)
      = cosClamped (fun d => (V c main_v6 : S128x1600000.Idx → EReal) (ValueIdx.ix2 d e))
          (fun d => (V c main_v7 : S128x1600000.Idx → EReal) (ValueIdx.ix2 d e)) :=
  congrFun (EdgeCosine.result_row V c) (ValueIdx.ix2 0 e)

end Cert.KernelIdeal.Hand

end
-- ==== Proof.KI.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.KI.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.KI.KFront.lean ====
/-
  The front half of the kernel program read as values over the extended reals: from the contents of the buffers at each
  boundary of @main to the closed form `edgeWeight`.

  Entry e of the edge-weight vector is, walking @main backwards: a reshape of region 1's one-row result, which nothing
  later writes; region 1's result at column e is the clamped cosine similarity of column e of its two operands; each
  operand is `jnp.take` of the transposed embedding along the node axis at one row of `edge_index` — the index words
  wrapped the NumPy way, range-tested, gathered with a clamp, and masked with NaN where the test fails; when every word
  names a node the wrap is the identity, the test passes everywhere and the clamp does nothing, so column e is the
  embedding's column at the word's node; the embedding is region 0's result, computed from the arguments as launched
  and the bias as a column. Region 0 and region 1 change only their result arrays, and each stretch of host operations
  only the buffers it names as results.
-/
import proofs.«419771_j9096740733412_1_alg».proof.Proof.KI.Fold
import proofs.«419771_j9096740733412_1_alg».proof.Proof.KI.Spec
import proofs.«419771_j9096740733412_1_alg».proof.Proof.KI.LibIndexWrap
import proofs.«419771_j9096740733412_1_alg».proof.Proof.KI.LibTRef
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

open Idealize.ShloMosaic.ValueIdx

/-! ## Whole columns gathered at a column of indices -/

section Cols
variable {α : Type}

/-- The dimension numbers of a gather of whole columns: operand `[D, N]`, start indices an `[E, 1]` column, result
    `[D, E]`; the result's axis 0 is the offset axis, the operand's axis 1 is collapsed and start-indexed, nothing is
    batched, and the index vector lies on axis 1 of the start indices. -/
abbrev colsDims (D N E : Nat)
    (wf : GatherDims.WF ⟨2, ![D, N]⟩ ⟨2, ![E, 1]⟩ ⟨2, ![D, E]⟩ [0] [1] [] [1] [] 1 ![D, 1]) :
    GatherDims ⟨2, ![D, N]⟩ ⟨2, ![E, 1]⟩ ⟨2, ![D, E]⟩ where
  offsetDims := [0]
  collapsedSliceDims := [1]
  operandBatchingDims := []
  startIndicesBatchingDims := []
  startIndexMap := [1]
  indexVectorDim := 1
  sliceSizes := ![D, 1]
  wf := wf

/-- That gather read at `(d, e)`: the operand's entry `(d, idx[e, 0])`, the index read signed and clamped into
    `[0, N - 1]`. -/
theorem gather_cols_apply {D N E w : Nat} (hN : 0 < N)
    (wf : GatherDims.WF ⟨2, ![D, N]⟩ ⟨2, ![E, 1]⟩ ⟨2, ![D, E]⟩ [0] [1] [] [1] [] 1 ![D, 1])
    (x : (⟨2, ![D, N]⟩ : Shape).Idx → α) (idx : IVec ⟨2, ![E, 1]⟩ w) (d : Fin D) (e : Fin E) :
    Host.gather (colsDims D N E wf) x idx (ix2 d e)
      = x (ix2 d ⟨min (idx (ix2 e 0)).toInt.toNat (N - 1), by omega⟩) := by
  unfold Host.gather
  congr 1
  funext a
  refine Fin.ext ?_
  show (colsDims D N E wf).start (ix2 d e) idx a + (colsDims D N E wf).batchCoord (ix2 d e) a
    + (colsDims D N E wf).offCoord (ix2 d e) a = _
  match a with
  | ⟨0, h0⟩ =>
    -- the offset axis: no start, no batching, the result's row
    have hm : (⟨0, h0⟩ : Fin (⟨2, ![D, N]⟩ : Shape).rank) ∈ (colsDims D N E wf).sKept :=
      (GatherDims.mem_sKept _ _).mpr
        ⟨fun h => absurd (congrArg Fin.val (List.mem_singleton.mp h)) (show (0 : ℕ) ≠ 1 by decide), List.not_mem_nil⟩
    have hs : (colsDims D N E wf).start (ix2 d e) idx ⟨0, h0⟩ = 0 := by
      unfold GatherDims.start
      rw [dif_neg (fun h => absurd (congrArg Fin.val (List.mem_singleton.mp h)) (show (0 : ℕ) ≠ 1 by decide))]
    rw [hs, GatherDims.batchCoord_eq_zero _ _ _ List.not_mem_nil]
    unfold GatherDims.offCoord
    rw [dif_pos hm, Nat.zero_add]
    rfl
  | ⟨1, h1⟩ =>
    -- the collapsed axis: the clamped start index alone
    have hm : (⟨1, h1⟩ : Fin (⟨2, ![D, N]⟩ : Shape).rank) ∈ (colsDims D N E wf).startIndexMap :=
      List.mem_singleton.mpr rfl
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos hm]
    have hsi : ∀ hk, (colsDims D N E wf).siIdx (ix2 d e) ⟨0, hk⟩ = ix2 e 0 := by
      intro hk
      funext b; refine Fin.ext ?_
      match b with
      | ⟨0, _⟩ => rfl
      | ⟨1, _⟩ => rfl
    exact congrArg (fun q : (⟨2, ![E, 1]⟩ : Shape).Idx => min (idx q).toInt.toNat (N - 1)) (hsi _)

end Cols

/-! ## `jnp.take` along the node axis, as the program spells it -/

open Idealize.ShloMosaic.IndexWrap

section Take

/-- The index words as the gather reads them: a negative word counts from the end (100000 is added), and the words stand
    as a column. -/
def takeIdxCol (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- Per index word, whether it lies in `[0, 99999]` after the wrap. -/
def takeMask (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The columns of `h` at the index words `idx`, a column of NaN where a word is out of range. -/
def takeCols (h : Vec F S128x100000 .f32) (idx : IVec S1600000 32) : Vec F S128x1600000 .f32 :=
  select (broadcastInDim S128x1600000 ![1] bcast_S1600000_S128x1600000_1 (takeMask (takeIdxCol idx)))
    (Host.gather gather_S128x100000_S1600000x1_S128x1600000_0_1_n_n_1_1_1281 h (takeIdxCol idx))
    (broadcastInDim S128x1600000 ![] bcast_S_S128x1600000 (constant S_ .f32 0x7FC00000#32))

/-- Entry `(e, 0)` of the index column is the wrapped word of edge `e`. -/
theorem takeIdxCol_apply (idx : IVec S1600000 32) (e : Fin 1600000) (z : Fin 1) :
    takeIdxCol idx (ix2 e z) = wrapWord 100000#32 (idx (ix1 e)) := by
  unfold takeIdxCol
  refine (broadcastInDim_apply _ _ _ (ix2 e z) (ix1 e) (fun a => ?_)).trans rfl
  match a with
  | ⟨0, _⟩ => rfl

/-- A word below 100000 is not negative read signed, so the wrap leaves it. -/
theorem wrapWord_of_lt (s : BitVec 32) (hs : s.toNat < 100000) : wrapWord 100000#32 s = s := by
  have hI : s.toInt = s.toNat := StableHlo.Predicate.toInt_eq_toNat_of_lt (by omega)
  unfold wrapWord Scalar.select
  rw [if_neg]
  intro h
  have := IntOp.cmpi_slt.1 h
  rw [hI, show (0#32 : BitVec 32).toInt = 0 by decide] at this
  omega

/-- When every index word names a node, every mask bit is 1. -/
theorem takeMask_of_lt (idx : IVec S1600000 32) (hidx : ∀ i, (idx i).toNat < 100000) (j : S1600000.Idx) :
    takeMask (takeIdxCol idx) j = 1#1 := by
  unfold takeMask
  refine reduce_andi_of_all _ _ _ _ (fun _ => rfl) (fun i => ?_) j
  obtain ⟨p, q, rfl⟩ : ∃ (p : Fin 1600000) (q : Fin 1), i = ix2 p q := ⟨i 0, i 1, eq_ix2 i⟩
  show IntOp.andi (IntOp.cmpi .sge (takeIdxCol idx (ix2 p q)) 0#32) (IntOp.cmpi .sle (takeIdxCol idx (ix2 p q)) 99999#32) = 1#1
  rw [takeIdxCol_apply]
  have hs := hidx (ix1 p)
  have hI : (idx (ix1 p)).toInt = (idx (ix1 p)).toNat := StableHlo.Predicate.toInt_eq_toNat_of_lt (by omega)
  exact rangeTest_wrap 100000 (by decide) (by decide) 99999#32 (by decide) _ (by rw [hI]; omega) (by rw [hI]; omega)

/-- When every index word names a node, `jnp.take` reads column `idx e` of `h`. -/
theorem takeCols_apply (h : Vec F S128x100000 .f32) (idx : IVec S1600000 32) (hidx : ∀ i, (idx i).toNat < 100000)
    (d : Fin 128) (e : Fin 1600000) :
    takeCols h idx (ix2 d e) = h (ix2 d (nodeOf (idx (ix1 e)))) := by
  unfold takeCols
  show Scalar.select (takeMask (takeIdxCol idx) _)
      (Host.gather (colsDims 128 100000 1600000 gather_S128x100000_S1600000x1_S128x1600000_0_1_n_n_1_1_1281_wf) h (takeIdxCol idx) (ix2 d e)) _ = _
  rw [takeMask_of_lt idx hidx, select_one, gather_cols_apply (by decide)]
  have hs := hidx (ix1 e)
  have hI : (idx (ix1 e)).toInt = (idx (ix1 e)).toNat := StableHlo.Predicate.toInt_eq_toNat_of_lt (by omega)
  refine congrArg h (funext fun a => Fin.ext ?_)
  match a with
  | ⟨0, _⟩ => rfl
  | ⟨1, _⟩ =>
    show min (takeIdxCol idx (ix2 e 0)).toInt.toNat (100000 - 1) = (idx (ix1 e)).toNat % 100000
    rw [takeIdxCol_apply, wrapWord_of_lt _ (hidx _), hI, Int.toNat_natCast, Nat.mod_eq_of_lt hs]
    omega

end Take

/-! ## The stretches of host operations, read at the buffers this half needs -/

section Stretches

/-- The buffer is the result of no operation of the stretch, so the stretch leaves it as it was. -/
local macro "not_written_in " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

variable (V : Valuation τ sig (Elt F))

/-! ### Before region 0: the arguments stay, the two rows of `edge_index` become vectors, the bias a column -/

theorem ops0_arg0 : StableHlo.after (main_part0_ops0 : List (HloOp τ sig (Elt F))) V (Proc.devRef .tc main_arg0)
    = V (Proc.devRef .tc main_arg0) := by
  not_written_in main_part0_ops0

theorem ops0_arg3 : StableHlo.after (main_part0_ops0 : List (HloOp τ sig (Elt F))) V (Proc.devRef .tc main_arg3)
    = V (Proc.devRef .tc main_arg3) := by
  not_written_in main_part0_ops0

theorem ops0_v4 : StableHlo.after (main_part0_ops0 : List (HloOp τ sig (Elt F))) V (Proc.devRef .tc main_v4)
    = shapeCast S128x1 (V (Proc.devRef .tc main_arg4) : (⟨S128, .f32⟩ : BufTy).Contents (Elt F)) shapeCasts_S128_S128x1 := by
  after_results; rfl

theorem ops0_v1 : StableHlo.after (main_part0_ops0 : List (HloOp τ sig (Elt F))) V (Proc.devRef .tc main_v1)
    = shapeCast S1600000 (extractStridedSlice S1x1600000 ![0, 0]
        (V (Proc.devRef .tc main_arg2) : (⟨S2x1600000, .i32⟩ : BufTy).Contents (Elt F)) slices_S2x1600000_S1x1600000_0_0)
        shapeCasts_S1x1600000_S1600000 := by
  after_results; rfl

theorem ops0_v3 : StableHlo.after (main_part0_ops0 : List (HloOp τ sig (Elt F))) V (Proc.devRef .tc main_v3)
    = shapeCast S1600000 (extractStridedSlice S1x1600000 ![1, 0]
        (V (Proc.devRef .tc main_arg2) : (⟨S2x1600000, .i32⟩ : BufTy).Contents (Elt F)) slices_S2x1600000_S1x1600000_1_0)
        shapeCasts_S1x1600000_S1600000 := by
  after_results; rfl

/-- A vector as a column, read at `(d, 0)`. -/
theorem column_apply {α : Type} (x : S128.Idx → α) (d : Fin 128) (z : Fin 1) :
    shapeCast S128x1 x shapeCasts_S128_S128x1 (ix2 d z) = x (ix1 d) := by
  refine shapeCast_apply _ _ (ix2 d z) (ix1 d) ?_
  rw [Shape.rowMajor_val_two, Shape.rowMajor_val_one]
  show d.val = d.val * 1 + z.val
  omega

/-- Row 0 of a two-row array as a vector, read at `e`. -/
theorem row0_apply {α : Type} (x : S2x1600000.Idx → α) (e : Fin 1600000) :
    shapeCast S1600000 (extractStridedSlice S1x1600000 ![0, 0] x slices_S2x1600000_S1x1600000_0_0)
      shapeCasts_S1x1600000_S1600000 (ix1 e) = x (ix2 0 e) := by
  refine (shapeCast_apply _ _ (ix1 e) (ix2 (0 : Fin 1) e) ?_).trans ?_
  · rw [Shape.rowMajor_val_two, Shape.rowMajor_val_one]
    show 0 * 1600000 + e.val = e.val
    omega
  · refine extractStridedSlice_apply _ _ _ _ (ix2 0 e) (fun a => ?_)
    match a with
    | ⟨0, _⟩ => rfl
    | ⟨1, _⟩ => exact (Nat.zero_add _).symm

/-- Row 1 of a two-row array as a vector, read at `e`. -/
theorem row1_apply {α : Type} (x : S2x1600000.Idx → α) (e : Fin 1600000) :
    shapeCast S1600000 (extractStridedSlice S1x1600000 ![1, 0] x slices_S2x1600000_S1x1600000_1_0)
      shapeCasts_S1x1600000_S1600000 (ix1 e) = x (ix2 1 e) := by
  refine (shapeCast_apply _ _ (ix1 e) (ix2 (0 : Fin 1) e) ?_).trans ?_
  · rw [Shape.rowMajor_val_two, Shape.rowMajor_val_one]
    show 0 * 1600000 + e.val = e.val
    omega
  · refine extractStridedSlice_apply _ _ _ _ (ix2 1 e) (fun a => ?_)
    match a with
    | ⟨0, _⟩ => rfl
    | ⟨1, _⟩ => exact (Nat.zero_add _).symm

/-! ### Between the regions: the two gathers -/

/-- Contents at a literal reference, read at the type the reference carries, are the contents. -/
theorem leaf_v1 : (StableHlo.TRef.of main_v1 : StableHlo.TRef sig ⟨S1600000, .i32⟩).ofBuf (V (Proc.devRef .tc main_v1))
    = (V (Proc.devRef .tc main_v1) : (⟨S1600000, .i32⟩ : BufTy).Contents (Elt F)) := rfl
theorem leaf_v3 : (StableHlo.TRef.of main_v3 : StableHlo.TRef sig ⟨S1600000, .i32⟩).ofBuf (V (Proc.devRef .tc main_v3))
    = (V (Proc.devRef .tc main_v3) : (⟨S1600000, .i32⟩ : BufTy).Contents (Elt F)) := rfl
theorem leaf_v5 : (StableHlo.TRef.of main_v5 : StableHlo.TRef sig ⟨S128x100000, .f32⟩).ofBuf (V (Proc.devRef .tc main_v5))
    = (V (Proc.devRef .tc main_v5) : (⟨S128x100000, .f32⟩ : BufTy).Contents (Elt F)) := rfl
theorem out_v6 (v : (⟨S128x1600000, .f32⟩ : BufTy).Contents (Elt F)) :
    (StableHlo.TRef.of main_v6 : StableHlo.TRef sig ⟨S128x1600000, .f32⟩).toBuf v = v := rfl
theorem out_v7 (v : (⟨S128x1600000, .f32⟩ : BufTy).Contents (Elt F)) :
    (StableHlo.TRef.of main_v7 : StableHlo.TRef sig ⟨S128x1600000, .f32⟩).toBuf v = v := rfl

set_option maxHeartbeats 2000000 in
theorem ops1_v6 : StableHlo.after (main_part0_ops1 : List (HloOp τ sig (Elt F))) V (Proc.devRef .tc main_v6)
    = takeCols (V (Proc.devRef .tc main_v5) : (⟨S128x100000, .f32⟩ : BufTy).Contents (Elt F))
        (V (Proc.devRef .tc main_v1) : (⟨S1600000, .i32⟩ : BufTy).Contents (Elt F)) := by
  after_results_simp
  simp only [StableHlo.TRef.ofBuf_toBuf]
  rw [out_v6, leaf_v1, leaf_v5]
  rfl

theorem ops1_v5 : StableHlo.after (main_part0_ops1 : List (HloOp τ sig (Elt F))) V (Proc.devRef .tc main_v5)
    = V (Proc.devRef .tc main_v5) := by
  not_written_in main_part0_ops1

theorem ops1_v3 : StableHlo.after (main_part0_ops1 : List (HloOp τ sig (Elt F))) V (Proc.devRef .tc main_v3)
    = V (Proc.devRef .tc main_v3) := by
  not_written_in main_part0_ops1

set_option maxHeartbeats 2000000 in
theorem ops2_v7 : StableHlo.after (main_part0_ops2 : List (HloOp τ sig (Elt F))) V (Proc.devRef .tc main_v7)
    = takeCols (V (Proc.devRef .tc main_v5) : (⟨S128x100000, .f32⟩ : BufTy).Contents (Elt F))
        (V (Proc.devRef .tc main_v3) : (⟨S1600000, .i32⟩ : BufTy).Contents (Elt F)) := by
  after_results_simp
  simp only [StableHlo.TRef.ofBuf_toBuf]
  rw [out_v7, leaf_v3, leaf_v5]
  rfl

theorem ops2_v6 : StableHlo.after (main_part0_ops2 : List (HloOp τ sig (Elt F))) V (Proc.devRef .tc main_v6)
    = V (Proc.devRef .tc main_v6) := by
  not_written_in main_part0_ops2

/-! ### After region 1: the result row becomes a vector, and nothing later writes it -/

theorem ops3_v9 : StableHlo.after (main_part0_ops3 : List (HloOp τ sig (Elt F))) V (Proc.devRef .tc main_v9)
    = shapeCast S1600000 (V (Proc.devRef .tc main_v8) : (⟨S1x1600000, .f32⟩ : BufTy).Contents (Elt F))
        shapeCasts_S1x1600000_S1600000 := by
  after_results; rfl

/-- A one-row array as a vector, read at `e`. -/
theorem unrow_apply {α : Type} (x : S1x1600000.Idx → α) (e : Fin 1600000) :
    shapeCast S1600000 x shapeCasts_S1x1600000_S1600000 (ix1 e) = x (ix2 0 e) := by
  refine shapeCast_apply _ _ (ix1 e) (ix2 (0 : Fin 1) e) ?_
  rw [Shape.rowMajor_val_two, Shape.rowMajor_val_one]
  show 0 * 1600000 + e.val = e.val
  omega

theorem ops4_v9 : StableHlo.after (main_part0_ops4 : List (HloOp τ sig (Elt F))) V (Proc.devRef .tc main_v9)
    = V (Proc.devRef .tc main_v9) := by
  not_written_in main_part0_ops4
theorem ops5_v9 : StableHlo.after (main_part0_ops5 : List (HloOp τ sig (Elt F))) V (Proc.devRef .tc main_v9)
    = V (Proc.devRef .tc main_v9) := by
  not_written_in main_part0_ops5
theorem ops6_v9 : StableHlo.after (main_part0_ops6 : List (HloOp τ sig (Elt F))) V (Proc.devRef .tc main_v9)
    = V (Proc.devRef .tc main_v9) := by
  not_written_in main_part0_ops6
theorem ops7_v9 : StableHlo.after (main_part0_ops7 : List (HloOp τ sig (Elt F))) V (Proc.devRef .tc main_v9)
    = V (Proc.devRef .tc main_v9) := by
  not_written_in main_part0_ops7
theorem part1_v9 : StableHlo.after (main_part1_ops0 : List (HloOp τ sig (Elt F))) V (Proc.devRef .tc main_v9)
    = V (Proc.devRef .tc main_v9) := by
  not_written_in main_part1_ops0
theorem part2_v9 : StableHlo.after (main_part2_ops0 : List (HloOp τ sig (Elt F))) V (Proc.devRef .tc main_v9)
    = V (Proc.devRef .tc main_v9) := by
  not_written_in main_part2_ops0

end Stretches

/-! ## The fold, boundary by boundary -/

section Boundaries

variable (m : (ℓ : Loc nD τ sig) → Buf (Elt F) ℓ) (c : Dev nD)

/-! ### Entering region 0 -/

theorem W1_arg0 : W1 m c (Proc.devRef .tc main_arg0) = m ((c : Thread nD τ).loc main_arg0) := ops0_arg0 _
theorem W1_arg3 : W1 m c (Proc.devRef .tc main_arg3) = m ((c : Thread nD τ).loc main_arg3) := ops0_arg3 _

theorem W1_v4_apply (d : Fin 128) (z : Fin 1) :
    (W1 m c (Proc.devRef .tc main_v4) : S128x1.Idx → Elt F .f32) (ix2 d z)
      = (m ((c : Thread nD τ).loc main_arg4) : S128.Idx → Elt F .f32) (ix1 d) := by
  show (StableHlo.after main_part0_ops0 (W0 m c) (Proc.devRef .tc main_v4) : S128x1.Idx → Elt F .f32) (ix2 d z) = _
  rw [ops0_v4]
  exact column_apply _ d z

theorem W1_v1_apply (e : Fin 1600000) :
    (W1 m c (Proc.devRef .tc main_v1) : S1600000.Idx → BitVec 32) (ix1 e)
      = (m ((c : Thread nD τ).loc main_arg2) : S2x1600000.Idx → BitVec 32) (ix2 0 e) := by
  show (StableHlo.after main_part0_ops0 (W0 m c) (Proc.devRef .tc main_v1) : S1600000.Idx → BitVec 32) (ix1 e) = _
  rw [ops0_v1]
  exact row0_apply _ e

theorem W1_v3_apply (e : Fin 1600000) :
    (W1 m c (Proc.devRef .tc main_v3) : S1600000.Idx → BitVec 32) (ix1 e)
      = (m ((c : Thread nD τ).loc main_arg2) : S2x1600000.Idx → BitVec 32) (ix2 1 e) := by
  show (StableHlo.after main_part0_ops0 (W0 m c) (Proc.devRef .tc main_v3) : S1600000.Idx → BitVec 32) (ix1 e) = _
  rw [ops0_v3]
  exact row1_apply _ e

/-! ### Leaving region 0: its result array is what the grid's write-backs make of it, every other buffer as entered -/

theorem W2_v5 : W2 m c (Proc.devRef .tc main_v5) = (dat0 (V1 m) c).arrAt 3 cfg0.N := by
  unfold W2; exact Pipeline.withArrays_arr spec0 launch0.win.arr_inj c _ _ 3

theorem W2_of_ne (b : Ref sig .tc) (hb : ∀ w, Pipeline.arrRef spec0 w ≠ b) :
    W2 m c (Proc.devRef .tc b) = W1 m c (Proc.devRef .tc b) := by
  unfold W2; exact Pipeline.withArrays_of_ne spec0 c _ _ b hb

/-! ### The two gathers -/

theorem W3_v6 : W3 m c (Proc.devRef .tc main_v6)
    = takeCols (W2 m c (Proc.devRef .tc main_v5) : (⟨S128x100000, .f32⟩ : BufTy).Contents (Elt F))
        (W2 m c (Proc.devRef .tc main_v1) : (⟨S1600000, .i32⟩ : BufTy).Contents (Elt F)) := ops1_v6 _
theorem W3_v5 : W3 m c (Proc.devRef .tc main_v5) = W2 m c (Proc.devRef .tc main_v5) := ops1_v5 _
theorem W3_v3 : W3 m c (Proc.devRef .tc main_v3) = W2 m c (Proc.devRef .tc main_v3) := ops1_v3 _
theorem W4_v7 : W4 m c (Proc.devRef .tc main_v7)
    = takeCols (W3 m c (Proc.devRef .tc main_v5) : (⟨S128x100000, .f32⟩ : BufTy).Contents (Elt F))
        (W3 m c (Proc.devRef .tc main_v3) : (⟨S1600000, .i32⟩ : BufTy).Contents (Elt F)) := ops2_v7 _
theorem W4_v6 : W4 m c (Proc.devRef .tc main_v6) = W3 m c (Proc.devRef .tc main_v6) := ops2_v6 _

/-- Every source word names a node. -/
theorem src_lt (hin : ∀ i : S2x1600000.Idx, ((m ((c : Thread nD τ).loc main_arg2) : S2x1600000.Idx → BitVec 32) i).toNat < 100000)
    (i : S1600000.Idx) : ((W2 m c (Proc.devRef .tc main_v1) : S1600000.Idx → BitVec 32) i).toNat < 100000 := by
  obtain ⟨p, rfl⟩ : ∃ p : Fin 1600000, i = ix1 p := ⟨i 0, eq_ix1 i⟩
  rw [W2_of_ne m c main_v1 (by decide), W1_v1_apply]
  exact hin _

/-- Every destination word names a node. -/
theorem dst_lt (hin : ∀ i : S2x1600000.Idx, ((m ((c : Thread nD τ).loc main_arg2) : S2x1600000.Idx → BitVec 32) i).toNat < 100000)
    (i : S1600000.Idx) : ((W3 m c (Proc.devRef .tc main_v3) : S1600000.Idx → BitVec 32) i).toNat < 100000 := by
  obtain ⟨p, rfl⟩ : ∃ p : Fin 1600000, i = ix1 p := ⟨i 0, eq_ix1 i⟩
  rw [W3_v3, W2_of_ne m c main_v3 (by decide), W1_v3_apply]
  exact hin _

/-- Entering region 1, column `e` of the first operand is the embedding of edge `e`'s source node. -/
theorem src_col (hin : ∀ i : S2x1600000.Idx, ((m ((c : Thread nD τ).loc main_arg2) : S2x1600000.Idx → BitVec 32) i).toNat < 100000)
    (d : Fin 128) (e : Fin 1600000) :
    (W4 m c (Proc.devRef .tc main_v6) : S128x1600000.Idx → Elt F .f32) (ix2 d e)
      = (W2 m c (Proc.devRef .tc main_v5) : S128x100000.Idx → Elt F .f32)
          (ix2 d (nodeOf ((m ((c : Thread nD τ).loc main_arg2) : S2x1600000.Idx → BitVec 32) (ix2 0 e)))) := by
  rw [W4_v6, W3_v6, takeCols_apply _ _ (src_lt m c hin) d e, W2_of_ne m c main_v1 (by decide), W1_v1_apply]

/-- And column `e` of the second operand is the embedding of its destination node. -/
theorem dst_col (hin : ∀ i : S2x1600000.Idx, ((m ((c : Thread nD τ).loc main_arg2) : S2x1600000.Idx → BitVec 32) i).toNat < 100000)
    (d : Fin 128) (e : Fin 1600000) :
    (W4 m c (Proc.devRef .tc main_v7) : S128x1600000.Idx → Elt F .f32) (ix2 d e)
      = (W2 m c (Proc.devRef .tc main_v5) : S128x100000.Idx → Elt F .f32)
          (ix2 d (nodeOf ((m ((c : Thread nD τ).loc main_arg2) : S2x1600000.Idx → BitVec 32) (ix2 1 e)))) := by
  rw [W4_v7, takeCols_apply _ _ (dst_lt m c hin) d e, W3_v5, W3_v3, W2_of_ne m c main_v3 (by decide), W1_v3_apply]

/-! ### Leaving region 1, and the rest of @main -/

theorem W5_v8 : W5 m c (Proc.devRef .tc main_v8) = (dat1 (V4 m) c).arrAt 2 cfg1.N := by
  unfold W5; exact Pipeline.withArrays_arr spec1 launch1.win.arr_inj c _ _ 2

/-- The edge-weight vector at the end of @main is region 1's result row: one reshape, and nothing later writes it. -/
theorem W12_v9_apply (e : Fin 1600000) :
    (W12 m c (Proc.devRef .tc main_v9) : S1600000.Idx → Elt F .f32) (ix1 e)
      = (W5 m c (Proc.devRef .tc main_v8) : S1x1600000.Idx → Elt F .f32) (ix2 0 e) := by
  have h9 : W12 m c (Proc.devRef .tc main_v9) = W6 m c (Proc.devRef .tc main_v9) :=
    (part2_v9 _).trans <| (part1_v9 _).trans <| (ops7_v9 _).trans <| (ops6_v9 _).trans <| (ops5_v9 _).trans (ops4_v9 _)
  rw [h9]
  show (StableHlo.after main_part0_ops3 (W5 m c) (Proc.devRef .tc main_v9) : S1600000.Idx → Elt F .f32) (ix1 e) = _
  rw [ops3_v9]
  exact unrow_apply _ e

end Boundaries

/-- After region 0, entry `(d, n)` of its result array is the transposed embedding of the launch arrays. -/
theorem embT_entry
    (h0out : ∀ (V : Contents Ideal) (c : Dev nD) (d : Fin 128) (n : Fin 100000),
      ((dat0 (F := Ideal) V c).arrAt 3 cfg0.N : S128x100000.Idx → EReal) (ValueIdx.ix2 d n)
        = embT (fun n k => (V c main_arg0 : S100000x128.Idx → EReal) (ValueIdx.ix2 n k))
            (fun d k => (V c main_arg3 : S128x128.Idx → EReal) (ValueIdx.ix2 d k))
            (fun d => (V c main_v4 : S128x1.Idx → EReal) (ValueIdx.ix2 d 0)) d n)
    (m : (ℓ : Loc nD τ sig) → Buf (Elt Ideal) ℓ) (c : Dev nD) (d : Fin 128) (n : Fin 100000) :
    (W2 m c (Proc.devRef .tc main_v5) : S128x100000.Idx → EReal) (ix2 d n)
      = embT (fun n k => (m ((c : Thread nD τ).loc main_arg0) : S100000x128.Idx → EReal) (ix2 n k))
          (fun d k => (m ((c : Thread nD τ).loc main_arg3) : S128x128.Idx → EReal) (ix2 d k))
          (fun d => (m ((c : Thread nD τ).loc main_arg4) : S128.Idx → EReal) (ix1 d)) d n := by
  rw [W2_v5]
  refine (h0out (V1 m) c d n).trans ?_
  show embT (fun n k => (W1 m c (Proc.devRef .tc main_arg0) : S100000x128.Idx → EReal) (ix2 n k))
      (fun d k => (W1 m c (Proc.devRef .tc main_arg3) : S128x128.Idx → EReal) (ix2 d k))
      (fun d => (W1 m c (Proc.devRef .tc main_v4) : S128x1.Idx → EReal) (ix2 d 0)) d n = _
  rw [W1_arg0, W1_arg3]
  exact congrArg (fun b : Fin 128 → EReal => embT _ _ b d n) (funext fun d' => W1_v4_apply m c d' 0)

/-- At the end of the kernel program's run, over the extended reals, entry `e` of the edge-weight result is the clamped
    cosine similarity of the embeddings of edge `e`'s two end nodes — when every index word names a node. What each
    region leaves in its arrays is taken as given (`h0in`, `h0out`, `h1in`, `h1out`: proved beside this module). -/
theorem kfront
    (h0in : ∀ (V : Contents Ideal) (c : Dev nD) (w : Fin cfg0.W), (cfg0.win w).isOut = false →
      (dat0 V c).arrAt w cfg0.N = (dat0 V c).A w)
    (h0out : ∀ (V : Contents Ideal) (c : Dev nD) (d : Fin 128) (n : Fin 100000),
      ((dat0 (F := Ideal) V c).arrAt 3 cfg0.N : S128x100000.Idx → EReal) (ValueIdx.ix2 d n)
        = embT (fun n k => (V c main_arg0 : S100000x128.Idx → EReal) (ValueIdx.ix2 n k))
            (fun d k => (V c main_arg3 : S128x128.Idx → EReal) (ValueIdx.ix2 d k))
            (fun d => (V c main_v4 : S128x1.Idx → EReal) (ValueIdx.ix2 d 0)) d n)
    (h1in : ∀ (V : Contents Ideal) (c : Dev nD) (w : Fin cfg1.W), (cfg1.win w).isOut = false →
      (dat1 V c).arrAt w cfg1.N = (dat1 V c).A w)
    (h1out : ∀ (V : Contents Ideal) (c : Dev nD) (e : Fin 1600000),
      ((dat1 (F := Ideal) V c).arrAt 2 cfg1.N : S1x1600000.Idx → EReal) (ValueIdx.ix2 0 e)
        = cosClamped (fun d => (V c main_v6 : S128x1600000.Idx → EReal) (ValueIdx.ix2 d e))
            (fun d => (V c main_v7 : S128x1600000.Idx → EReal) (ValueIdx.ix2 d e)))
    (m : (ℓ : Loc nD τ sig) → Buf (Elt Ideal) ℓ) (c : Dev nD)
    (hin : ∀ i : S2x1600000.Idx, ((m ((c : Thread nD τ).loc main_arg2) : S2x1600000.Idx → BitVec 32) i).toNat < 100000)
    (e : Fin 1600000) :
    (W12 m c (Proc.devRef .tc main_v9) : S1600000.Idx → EReal) (ValueIdx.ix1 e)
      = edgeWeight (fun n k => (m ((c : Thread nD τ).loc main_arg0) : S100000x128.Idx → EReal) (ValueIdx.ix2 n k))
          (fun d k => (m ((c : Thread nD τ).loc main_arg3) : S128x128.Idx → EReal) (ValueIdx.ix2 d k))
          (fun d => (m ((c : Thread nD τ).loc main_arg4) : S128.Idx → EReal) (ValueIdx.ix1 d))
          (fun e => (m ((c : Thread nD τ).loc main_arg2) : S2x1600000.Idx → BitVec 32) (ValueIdx.ix2 0 e))
          (fun e => (m ((c : Thread nD τ).loc main_arg2) : S2x1600000.Idx → BitVec 32) (ValueIdx.ix2 1 e)) e := by
  rw [W12_v9_apply, W5_v8]
  refine (h1out (V4 m) c e).trans ?_
  exact congrArg₂ cosClamped
    (funext fun d => (src_col m c hin d e).trans (embT_entry h0out m c d _))
    (funext fun d => (dst_col m c hin d e).trans (embT_entry h0out m c d _))

end Cert.KernelIdeal.Hand

end
-- ==== Proof.KI.LibRowGather.lean ====
/-
  Rows of a table taken at a column of start indices (jnp's  table[idx]  on a matrix): the result's row p is the
  table's row at  idx[p, 0] , read as a signed integer and clamped into the table; and NumPy's treatment of a
  negative index (add the extent) followed by that clamp does nothing to an index already in range.
-/
import Idealize.ShloMosaic.PureOps
import Idealize.ShloMosaic.Lib.ValueIdx
import Idealize.ShloMosaic.Lib.StableHlo.Predicate

noncomputable section

open Idealize.ShloMosaic Idealize.ShloMosaic.ValueIdx

namespace Cert.RowGather

variable {α : Type}

/-- The dimension numbers of  table[idx]  for a [T, C] table and an [N, 1] column of start indices: axis 0 collapsed
    and indexed, axis 1 an offset axis taken whole. -/
abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (p, k): the table at row  idx[p, 0]  (signed, clamped into [0, T − 1]) and column k. -/
theorem gather_rows_apply {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (p : Fin N) (k : Fin C) :
    Host.gather (rowsDims T C N wf) x idx (ix2 p k)
      = x (ix2 ⟨min (idx (ix2 p 0)).toInt.toNat (T - 1), by omega⟩ k) := by
  unfold Host.gather
  congr 1
  funext a
  refine Fin.ext ?_
  match a with
  | ⟨0, _⟩ =>
    show (rowsDims T C N wf).start (ix2 p k) idx 0 + (rowsDims T C N wf).batchCoord (ix2 p k) 0
      + (rowsDims T C N wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 p k) ⟨List.idxOf (0 : Fin 2) (rowsDims T C N wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 p k) idx 1 + (rowsDims T C N wf).batchCoord (ix2 p k) 1
      + (rowsDims T C N wf).offCoord (ix2 p k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

/-- A start index already in [0, T): adding the extent when negative and clamping leave its value. -/
theorem wrap_clamp (a n : BitVec 32) (T : ℕ) (ha : a.toNat < T) (hT : T ≤ 2 ^ 31) :
    min (Scalar.select (IntOp.cmpi .slt a 0#32) (IntOp.addi a n) a).toInt.toNat (T - 1) = a.toNat := by
  have ha31 : a.toNat < 2 ^ 31 := by omega
  have h0 : (0#32).toNat < 2 ^ 31 := by decide
  have hc : ¬ IntOp.cmpi .slt a 0#32 = 1 := by
    intro h
    have hlt := (StableHlo.Predicate.slt_iff_toNat ha31 h0).mp h
    simp at hlt
  unfold Scalar.select
  rw [if_neg hc, StableHlo.Predicate.toInt_eq_toNat_of_lt ha31, Int.toNat_natCast]
  omega

end Cert.RowGather

end
-- ==== Proof.KI.RFront.lean ====
/-
  The reference program's edge weight, read at one edge over the extended reals: entry e of its second result is the
  clamped cosine similarity of the embeddings of edge e's two end nodes. The reference computes the embedding
  tanh(x · Wᵀ + b) as a whole array, takes its rows at the two rows of the index array (a negative index counted from
  the end, then clamped into the table), and sums products along each row pair. Every index word names a node, so the
  index rules do nothing and the gathered row is the embedding of the node the word names; the contraction
  Σₖ x[n,k] · Wᵀ[k,d] is the closed form's Σₖ W[d,k] · x[n,k] factor by factor.
-/
import proofs.«419771_j9096740733412_1_alg».proof.Proof.Gen.ReferenceIdeal.Run
import proofs.«419771_j9096740733412_1_alg».proof.Proof.Gen.ReferenceIdeal.Read
import proofs.«419771_j9096740733412_1_alg».proof.Proof.KI.Spec
import proofs.«419771_j9096740733412_1_alg».proof.Proof.KI.LibRowGather
import Idealize.ShloMosaic.Lib.ValueIdx
import Idealize.ShloMosaic.Lib.Pipeline.Value
import Idealize.ShloMosaic.PureOps.Ideal.Laws

noncomputable section

namespace Cert.ReferenceIdeal.Hand

open Cert.ReferenceIdeal Cert.ReferenceIdeal.Gen Cert.ReferenceIdeal.Read
open Idealize.ShloMosaic Idealize.ShloMosaic.TcCoe Idealize.SL.Sem Idealize.ShloMosaic.ValueIdx
open Cert.KernelIdeal.Hand (embT cosClamped nodeOf nodeOf_val edgeWeight)

/-- Entry (n, d) of the reference's embedding  tanh(x · Wᵀ + b) : the contraction runs over x's row n and W's row d. -/
theorem emb_apply (x0 : S100000x128.Idx → EReal) (x3 : S128x128.Idx → EReal) (x4 : S128.Idx → EReal)
    (n : Fin 100000) (d : Fin 128) :
    val_main_v5 (F := Ideal) x0 x3 x4 (ix2 n d)
      = embT (fun n k => x0 (ix2 n k)) (fun d k => x3 (ix2 d k)) (fun d => x4 (ix1 d)) d n := by
  have el : ∀ k : Fin 128, lidx_main_v1 (ix2 n d) k = ix2 n k := fun k =>
    funext fun a => Fin.ext (by match a with | ⟨0, _⟩ => rfl | ⟨1, _⟩ => rfl)
  have er : ∀ k : Fin 128, idx_main_v0 (ridx_main_v1 (ix2 n d) k) = ix2 d k := fun k =>
    funext fun a => Fin.ext (by match a with | ⟨0, _⟩ => rfl | ⟨1, _⟩ => rfl)
  have eb : idx_main_v2 (idx_main_v3 (ix2 n d)) = ix1 d :=
    funext fun a => Fin.ext (by match a with | ⟨0, _⟩ => rfl)
  rw [val_main_v5_apply, val_main_v4_apply, val_main_v1_apply, val_main_v3_apply, val_main_v2_apply]
  simp only [val_main_v0_apply, el, er, eb, Ideal.hostUnary_tanh_def, Ideal.addf_def]
  unfold embT
  exact congrArg (fun s => Ideal.tanh (s + x4 (ix1 d))) (Finset.sum_congr rfl fun k _ => mul_comm _ _)

/-- The start-index column the first gather reads, at row e: edge e's source word after NumPy's rule for a negative index. -/
theorem srcIdx_apply (x2 : S2x1600000.Idx → BitVec 32) (e : Fin 1600000) :
    val_main_v15 (F := Ideal) x2 (ix2 e 0)
      = Scalar.select (IntOp.cmpi .slt (x2 (ix2 0 e)) 0#32) (IntOp.addi (x2 (ix2 0 e)) 100000#32) (x2 (ix2 0 e)) := by
  have e6 : idx_main_v6 (idx_main_v7 (idx_main_v15 (ix2 e (0 : Fin 1)))) = ix2 0 e := funext fun a => Fin.ext (by
    match a with
    | ⟨0, _⟩ => rfl
    | ⟨1, _⟩ => exact Nat.mod_eq_of_lt e.isLt)
  rw [val_main_v15_apply, val_main_v14_apply, val_main_v11_apply, val_main_v13_apply, val_main_v10_apply,
    val_main_v12_apply, val_main_c_apply, val_main_c_0_apply, val_main_v7_apply, val_main_v6_apply, e6]

/-- The same for the second gather: edge e's destination word. -/
theorem dstIdx_apply (x2 : S2x1600000.Idx → BitVec 32) (e : Fin 1600000) :
    val_main_v22 (F := Ideal) x2 (ix2 e 0)
      = Scalar.select (IntOp.cmpi .slt (x2 (ix2 1 e)) 0#32) (IntOp.addi (x2 (ix2 1 e)) 100000#32) (x2 (ix2 1 e)) := by
  have e8 : idx_main_v8 (idx_main_v9 (idx_main_v22 (ix2 e (0 : Fin 1)))) = ix2 1 e := funext fun a => Fin.ext (by
    match a with
    | ⟨0, _⟩ => rfl
    | ⟨1, _⟩ => exact Nat.mod_eq_of_lt e.isLt)
  rw [val_main_v22_apply, val_main_v21_apply, val_main_v18_apply, val_main_v20_apply, val_main_v17_apply,
    val_main_v19_apply, val_main_c_1_apply, val_main_c_2_apply, val_main_v9_apply, val_main_v8_apply, e8]

/-- A row gather of a 100000-row table whose start index at row e is a word in range, passed through NumPy's rule for a
    negative index: the table's row at the node the word names. -/
theorem rows_at_node (h : S100000x128.Idx → EReal) (idx : S1600000x1.Idx → BitVec 32) (a : BitVec 32)
    (ha : a.toNat < 100000) (e : Fin 1600000) (d : Fin 128)
    (hidx : idx (ix2 e 0) = Scalar.select (IntOp.cmpi .slt a 0#32) (IntOp.addi a 100000#32) a) :
    Host.gather gather_S100000x128_S1600000x1_S1600000x128_1_0_n_n_0_1_1128 h idx (ix2 e d)
      = h (ix2 (nodeOf a) d) := by
  refine (Cert.RowGather.gather_rows_apply (T := 100000) (C := 128) (N := 1600000) (by decide)
    gather_S100000x128_S1600000x1_S1600000x128_1_0_n_n_0_1_1128_wf h idx e d).trans ?_
  refine congrArg h (congrArg (fun r : Fin 100000 => ix2 r d) (Fin.ext ?_))
  show min (idx (ix2 e 0)).toInt.toNat (100000 - 1) = (nodeOf a).val
  rw [hidx, Cert.RowGather.wrap_clamp a 100000#32 100000 ha (by decide), nodeOf_val ha]

/-- Entry (e, d) of the first gathered array: the embedding of edge e's source node at coordinate d. -/
theorem gathered_src (x0 : S100000x128.Idx → EReal) (x2 : S2x1600000.Idx → BitVec 32) (x3 : S128x128.Idx → EReal)
    (x4 : S128.Idx → EReal) (hin : ∀ i : S2x1600000.Idx, (x2 i).toNat < 100000) (e : Fin 1600000) (d : Fin 128) :
    val_main_v16 (F := Ideal) x0 x2 x3 x4 (ix2 e d)
      = embT (fun n k => x0 (ix2 n k)) (fun d k => x3 (ix2 d k)) (fun d => x4 (ix1 d)) d (nodeOf (x2 (ix2 0 e))) := by
  unfold val_main_v16
  rw [rows_at_node _ _ (x2 (ix2 0 e)) (hin _) e d (srcIdx_apply x2 e)]
  exact emb_apply x0 x3 x4 _ d

/-- Entry (e, d) of the second: the embedding of edge e's destination node at coordinate d. -/
theorem gathered_dst (x0 : S100000x128.Idx → EReal) (x2 : S2x1600000.Idx → BitVec 32) (x3 : S128x128.Idx → EReal)
    (x4 : S128.Idx → EReal) (hin : ∀ i : S2x1600000.Idx, (x2 i).toNat < 100000) (e : Fin 1600000) (d : Fin 128) :
    val_main_v23 (F := Ideal) x0 x2 x3 x4 (ix2 e d)
      = embT (fun n k => x0 (ix2 n k)) (fun d k => x3 (ix2 d k)) (fun d => x4 (ix1 d)) d (nodeOf (x2 (ix2 1 e))) := by
  unfold val_main_v23
  rw [rows_at_node _ _ (x2 (ix2 1 e)) (hin _) e d (dstIdx_apply x2 e)]
  exact emb_apply x0 x3 x4 _ d

/-- The reference's last edge-weight stage at edge e, from the four argument arrays it depends on. -/
theorem edge_apply (x0 : S100000x128.Idx → EReal) (x2 : S2x1600000.Idx → BitVec 32) (x3 : S128x128.Idx → EReal)
    (x4 : S128.Idx → EReal) (hin : ∀ i : S2x1600000.Idx, (x2 i).toNat < 100000) (e : Fin 1600000) :
    val_main_v38 (F := Ideal) x0 x2 x3 x4 (ix1 e)
      = edgeWeight (fun n k => x0 (ix2 n k)) (fun d k => x3 (ix2 d k)) (fun d => x4 (ix1 d))
          (fun e => x2 (ix2 0 e)) (fun e => x2 (ix2 1 e)) e := by
  have e25 : ∀ k : Fin 128, idx_main_v25 (ix1 e) k = ix2 e k := fun k =>
    funext fun a => Fin.ext (by match a with | ⟨0, _⟩ => rfl | ⟨1, _⟩ => rfl)
  have e27 : ∀ k : Fin 128, idx_main_v27 (ix1 e) k = ix2 e k := fun k =>
    funext fun a => Fin.ext (by match a with | ⟨0, _⟩ => rfl | ⟨1, _⟩ => rfl)
  have e32 : ∀ k : Fin 128, idx_main_v32 (ix1 e) k = ix2 e k := fun k =>
    funext fun a => Fin.ext (by match a with | ⟨0, _⟩ => rfl | ⟨1, _⟩ => rfl)
  rw [val_main_v38_apply, val_main_v37_apply, val_main_v36_apply, val_main_v30_apply, val_main_v35_apply,
    val_main_v28_apply, val_main_v33_apply, val_main_v25_apply, val_main_v27_apply, val_main_v32_apply,
    val_main_call0_v0_apply, val_main_call0_cst_apply, val_main_v29_apply, val_main_cst_4_apply,
    val_main_v34_apply, val_main_cst_6_apply, val_main_cst_apply, val_main_cst_3_apply, val_main_cst_5_apply]
  simp only [val_main_v24_apply, val_main_v26_apply, val_main_v31_apply, e25, e27, e32,
    gathered_src x0 x2 x3 x4 hin e, gathered_dst x0 x2 x3 x4 hin e,
    Ideal.hostUnary_sqrt_def, Ideal.hostDivf_def, Ideal.maximumf_def, Ideal.mulf_def, Ideal.ofBits_def,
    Ideal.ofBits_zero_f32, zero_add]
  rfl

/-- Over the extended reals, entry `e` of the reference's edge-weight result is the clamped cosine similarity of the
    embeddings of edge `e`'s two end nodes — when every index word names a node. -/
theorem rfront (m : (ℓ : Loc nD τ sig) → Buf (Elt Ideal) ℓ) (c : Dev nD)
    (hin : ∀ i : S2x1600000.Idx, ((m ((c : Thread nD τ).loc main_arg2) : S2x1600000.Idx → BitVec 32) i).toNat < 100000)
    (e : Fin 1600000) :
    (Cert.ReferenceIdeal.Value.res_out1 (F := Ideal) m c : S1600000.Idx → EReal) (ValueIdx.ix1 e)
      = edgeWeight (fun n k => (m ((c : Thread nD τ).loc main_arg0) : S100000x128.Idx → EReal) (ValueIdx.ix2 n k))
          (fun d k => (m ((c : Thread nD τ).loc main_arg3) : S128x128.Idx → EReal) (ValueIdx.ix2 d k))
          (fun d => (m ((c : Thread nD τ).loc main_arg4) : S128.Idx → EReal) (ValueIdx.ix1 d))
          (fun e => (m ((c : Thread nD τ).loc main_arg2) : S2x1600000.Idx → BitVec 32) (ValueIdx.ix2 0 e))
          (fun e => (m ((c : Thread nD τ).loc main_arg2) : S2x1600000.Idx → BitVec 32) (ValueIdx.ix2 1 e)) e :=
  (congrFun (Read.val_main_v38_eq (F := Ideal) m c) (ValueIdx.ix1 e)).trans
    (edge_apply (m ((c : Thread nD τ).loc main_arg0)) (m ((c : Thread nD τ).loc main_arg2))
      (m ((c : Thread nD τ).loc main_arg3)) (m ((c : Thread nD τ).loc main_arg4)) hin e)

end Cert.ReferenceIdeal.Hand

end
-- ==== Proof.KI.Tail.lean ====
/-
  The host tail the two programs share. After the edge weights both run the same chain of tensor operations: relu of
  the mask; the two rows of the edge list, each followed by one self loop per node; the weights followed by the loops'
  ones; the weighted degree of every node as a scatter-add over the destinations; its inverse square root, clamped from
  below and zero where the degree is not positive; the normalised weight dinv[row] · w · dinv[col] of every edge and
  loop; and five propagation steps z ↦ (1 − α) · (scatter-add over the destinations of norm · z[row]) + α · relu(mask).
  Here that chain is one function `tailOf` of the edge weights, the mask, the two index rows and α. The kernel
  program's last buffer is `tailOf` of what it holds as edge weights, read off its operations over any contents they
  start from; the reference's composed result is `tailOf` of its composed edge weights by unfolding. Equal weights and
  equal arguments then give equal results.
-/
import proofs.«419771_j9096740733412_1_alg».proof.Proof.KI.Fold
import proofs.«419771_j9096740733412_1_alg».proof.Proof.Gen.ReferenceIdeal.Run
import Idealize.ShloMosaic.Lib.StableHlo.Run
import Idealize.ShloMosaic.Lib.Pipeline.FrameSuffix
import Idealize.ShloMosaic.Lib.ValueIdx

noncomputable section

namespace Cert.KernelIdeal.Hand

open Cert.KernelIdeal Cert.KernelIdeal.Gen
open Idealize.ShloMosaic Idealize.ShloMosaic.TcCoe Idealize.SL.Sem
open Idealize.ShloMosaic.StableHlo (after after_cons after_nil)

section TailDefs

variable {F : FTy → Type} [FloatOps F]

/-- The first row of the edge list, as a vector of 1600000 source-node words. -/
def edgeRow (ei : Vec F S2x1600000 .i32) : Vec F S1600000 .i32 :=
  shapeCast S1600000 (extractStridedSlice S1x1600000 ![0, 0] ei slices_S2x1600000_S1x1600000_0_0) shapeCasts_S1x1600000_S1600000

/-- The second row: the destination-node words. -/
def edgeCol (ei : Vec F S2x1600000 .i32) : Vec F S1600000 .i32 :=
  shapeCast S1600000 (extractStridedSlice S1x1600000 ![1, 0] ei slices_S2x1600000_S1x1600000_1_0) shapeCasts_S1x1600000_S1600000

/-- relu of the mask column. -/
def reluMask (mask : Vec F S100000x1 .f32) : Vec F S100000x1 .f32 :=
  maximumf mask (broadcastInDim S100000x1 ![] bcast_S_S100000x1 (constant S_ .f32 0x00000000#32))

/-- The edge words followed by one self loop per node: 0, 1, …, 99999. -/
def withLoops (a : Vec F S1600000 .i32) : Vec F S1700000 .i32 :=
  concatenate S1700000 0 [⟨S1600000, a⟩, ⟨S100000, iotaInDim S100000 32 0⟩] concatenates_S1600000_S100000_S1700000_d0

/-- The edge weights followed by weight one for every self loop. -/
def weightLoops (ew : Vec F S1600000 .f32) : Vec F S1700000 .f32 :=
  concatenate S1700000 0 [⟨S1600000, ew⟩, ⟨S100000, broadcastInDim S100000 ![] bcast_S_S100000 (constant S_ .f32 0x3F800000#32)⟩]
    concatenates_S1600000_S100000_S1700000_d0

/-- An index word below zero counts from the end: `i ↦ i + 100000` where `i < 0`. -/
def wrapIdx (i : Vec F S1700000 .i32) : Vec F S1700000 .i32 :=
  select (cmpi .slt i (broadcastInDim S1700000 ![] bcast_S_S1700000 (constantI S_ 32 0#32)))
    (addi i (broadcastInDim S1700000 ![] bcast_S_S1700000 (constantI S_ 32 100000#32))) i

/-- A vector of index words as the one-column index array a gather or a scatter takes. -/
def idxCol (i : Vec F S1700000 .i32) : Vec F S1700000x1 .i32 :=
  broadcastInDim S1700000x1 ![0] bcast_S1700000_S1700000x1_0 i

/-- The weighted degree of every node: the sum of the weights of the edges and loops that end at it. -/
def degOf (col : Vec F S1700000 .i32) (w : Vec F S1700000 .f32) : Vec F S100000 .f32 :=
  Host.scatterAdd scatter_S100000_S1700000x1_S1700000_n_0_0_1
    (broadcastInDim S100000 ![] bcast_S_S100000 (constant S_ .f32 0x00000000#32)) (idxCol col) w

/-- deg ↦ 1 / √(max(deg, ε)) where deg > 0, and 0 elsewhere. -/
def dinvOf (deg : Vec F S100000 .f32) : Vec F S100000 .f32 :=
  select (cmpf .ogt deg (broadcastInDim S100000 ![] bcast_S_S100000 (constant S_ .f32 0x00000000#32)))
    (Host.rsqrt (maximumf deg (broadcastInDim S100000 ![] bcast_S_S100000 (constant S_ .f32 0x322BCC77#32))))
    (broadcastInDim S100000 ![] bcast_S_S100000 (constant S_ .f32 0x00000000#32))

/-- The normalised weight of every edge and self loop: dinv[row] · w · dinv[col]. -/
def normOf (dinv : Vec F S100000 .f32) (row col : Vec F S1700000 .i32) (w : Vec F S1700000 .f32) : Vec F S1700000 .f32 :=
  mulf (mulf (Host.gather gather_S100000_S1700000x1_S1700000_n_0_n_n_0_1_1 dinv (idxCol (wrapIdx row))) w)
    (Host.gather gather_S100000_S1700000x1_S1700000_n_0_n_n_0_1_1 dinv (idxCol (wrapIdx col)))

/-- One propagation step: z ↦ (1 − α) · (Σ over the edges and loops into a node of norm · z[row]) + α · x₀. -/
def propStep (norm : Vec F S1700000 .f32) (row col : Vec F S1700000 .i32) (x0 : Vec F S100000x1 .f32) (α : Vec F S_ .f32)
    (z : Vec F S100000x1 .f32) : Vec F S100000x1 .f32 :=
  addf
    (mulf (broadcastInDim S100000x1 ![] bcast_S_S100000x1 (subf (constant S_ .f32 0x3F800000#32) α))
      (Host.scatterAdd scatter_S100000x1_S1700000x1_S1700000x1_1_0_0_1
        (broadcastInDim S100000x1 ![] bcast_S_S100000x1 (constant S_ .f32 0x00000000#32)) (idxCol col)
        (mulf (broadcastInDim S1700000x1 ![0] bcast_S1700000_S1700000x1_0 norm)
          (Host.gather gather_S100000x1_S1700000x1_S1700000x1_1_0_n_n_0_1_11 z (idxCol (wrapIdx row))))))
    (mulf (broadcastInDim S100000x1 ![] bcast_S_S100000x1 α) x0)

/-- Five propagation steps from x₀. -/
def prop5 (norm : Vec F S1700000 .f32) (row col : Vec F S1700000 .i32) (x0 : Vec F S100000x1 .f32) (α : Vec F S_ .f32) :
    Vec F S100000x1 .f32 :=
  propStep norm row col x0 α (propStep norm row col x0 α (propStep norm row col x0 α (propStep norm row col x0 α
    (propStep norm row col x0 α x0))))

/-- The whole tail: from the edge weights, the mask column, the two rows of the edge list and α to the propagated column. -/
def tailOf (ew : Vec F S1600000 .f32) (mask : Vec F S100000x1 .f32) (rowE colE : Vec F S1600000 .i32) (α : Vec F S_ .f32) :
    Vec F S100000x1 .f32 :=
  prop5 (normOf (dinvOf (degOf (withLoops colE) (weightLoops ew))) (withLoops rowE) (withLoops colE) (weightLoops ew))
    (withLoops rowE) (withLoops colE) (reluMask mask) α

end TailDefs

section Kernel

variable {F : FTy → Type} [FloatOps F]

/-! ### The kernel program's host tail, read over any contents `V` it starts from

The stretch after the reshape of the edge weights first prepares relu(mask), the two index vectors with their self loops,
the weights with the loops' ones, the degree and its clamped inverse square root; the long stretch that follows forms
the normalised weights and runs the five propagation steps. -/

theorem prep_mask (V : Valuation τ sig (Elt F)) :
    after (main_part0_ops6 : List (HloOp τ sig (Elt F))) (after (main_part0_ops5 : List (HloOp τ sig (Elt F)))
        (after (main_part0_ops4 : List (HloOp τ sig (Elt F))) V)) (Proc.devRef .tc main_v10)
      = reluMask (V (Proc.devRef .tc main_arg1)) := by
  after_results_simp <;> rfl

theorem prep_row (V : Valuation τ sig (Elt F)) :
    after (main_part0_ops6 : List (HloOp τ sig (Elt F))) (after (main_part0_ops5 : List (HloOp τ sig (Elt F)))
        (after (main_part0_ops4 : List (HloOp τ sig (Elt F))) V)) (Proc.devRef .tc main_v12)
      = withLoops (V (Proc.devRef .tc main_v1)) := by
  after_results_simp <;> rfl

theorem prep_col (V : Valuation τ sig (Elt F)) :
    after (main_part0_ops6 : List (HloOp τ sig (Elt F))) (after (main_part0_ops5 : List (HloOp τ sig (Elt F)))
        (after (main_part0_ops4 : List (HloOp τ sig (Elt F))) V)) (Proc.devRef .tc main_v13)
      = withLoops (V (Proc.devRef .tc main_v3)) := by
  after_results_simp <;> rfl

theorem prep_weight (V : Valuation τ sig (Elt F)) :
    after (main_part0_ops6 : List (HloOp τ sig (Elt F))) (after (main_part0_ops5 : List (HloOp τ sig (Elt F)))
        (after (main_part0_ops4 : List (HloOp τ sig (Elt F))) V)) (Proc.devRef .tc main_v15)
      = weightLoops (V (Proc.devRef .tc main_v9)) := by
  after_results_simp <;> rfl

theorem prep_dinv (V : Valuation τ sig (Elt F)) :
    after (main_part0_ops6 : List (HloOp τ sig (Elt F))) (after (main_part0_ops5 : List (HloOp τ sig (Elt F)))
        (after (main_part0_ops4 : List (HloOp τ sig (Elt F))) V)) (Proc.devRef .tc main_v24)
      = dinvOf (degOf (withLoops (V (Proc.devRef .tc main_v3))) (weightLoops (V (Proc.devRef .tc main_v9)))) := by
  after_results_simp <;> rfl

theorem prep_alpha (V : Valuation τ sig (Elt F)) :
    after (main_part0_ops6 : List (HloOp τ sig (Elt F))) (after (main_part0_ops5 : List (HloOp τ sig (Elt F)))
        (after (main_part0_ops4 : List (HloOp τ sig (Elt F))) V)) (Proc.devRef .tc main_arg5)
      = V (Proc.devRef .tc main_arg5) := by
  after_results_simp <;> rfl

set_option maxHeartbeats 4000000 in
/-- The 130 operations of the long stretch: the normalised weights, then five propagation steps. -/
theorem steps_result (V : Valuation τ sig (Elt F)) :
    after (main_part2_ops0 : List (HloOp τ sig (Elt F))) (after (main_part1_ops0 : List (HloOp τ sig (Elt F)))
        (after (main_part0_ops7 : List (HloOp τ sig (Elt F))) V)) (Proc.devRef .tc main_v130)
      = prop5 (normOf (V (Proc.devRef .tc main_v24)) (V (Proc.devRef .tc main_v12)) (V (Proc.devRef .tc main_v13))
            (V (Proc.devRef .tc main_v15)))
          (V (Proc.devRef .tc main_v12)) (V (Proc.devRef .tc main_v13)) (V (Proc.devRef .tc main_v10))
          (V (Proc.devRef .tc main_arg5)) := by
  after_results_simp <;> rfl

/-- The whole tail after the reshape of the edge weights, from any contents `V`. -/
theorem tail_result (V : Valuation τ sig (Elt F)) :
    after (main_part2_ops0 : List (HloOp τ sig (Elt F))) (after (main_part1_ops0 : List (HloOp τ sig (Elt F)))
        (after (main_part0_ops7 : List (HloOp τ sig (Elt F))) (after (main_part0_ops6 : List (HloOp τ sig (Elt F)))
          (after (main_part0_ops5 : List (HloOp τ sig (Elt F))) (after (main_part0_ops4 : List (HloOp τ sig (Elt F))) V)))))
        (Proc.devRef .tc main_v130)
      = tailOf (V (Proc.devRef .tc main_v9)) (V (Proc.devRef .tc main_arg1)) (V (Proc.devRef .tc main_v1))
          (V (Proc.devRef .tc main_v3)) (V (Proc.devRef .tc main_arg5)) := by
  rw [steps_result, prep_dinv, prep_row, prep_col, prep_weight, prep_mask, prep_alpha]
  rfl

set_option maxHeartbeats 4000000 in
/-- None of those operations writes the reshaped edge weights. -/
theorem tail_keeps_weights (V : Valuation τ sig (Elt F)) :
    after (main_part2_ops0 : List (HloOp τ sig (Elt F))) (after (main_part1_ops0 : List (HloOp τ sig (Elt F)))
        (after (main_part0_ops7 : List (HloOp τ sig (Elt F))) (after (main_part0_ops6 : List (HloOp τ sig (Elt F)))
          (after (main_part0_ops5 : List (HloOp τ sig (Elt F))) (after (main_part0_ops4 : List (HloOp τ sig (Elt F))) V)))))
        (Proc.devRef .tc main_v9)
      = V (Proc.devRef .tc main_v9) := by
  after_results_simp <;> rfl

end Kernel

section Before

variable {F : FTy → Type} [FloatOps F] (m : (ℓ : Loc nD τ sig) → Buf (Elt F) ℓ)

/-! ### What the tail finds of the launch memory

The mask and α are arguments that nothing before the tail writes; the two index vectors are written once, before the
first region, as the two rows of the edge list, and by nothing after. The two regions change only their own arrays. -/

theorem entry_mask (c : Dev nD) : W6 m c (Proc.devRef .tc main_arg1) = m ((c : Thread nD τ).loc main_arg1) := by
  have e65 : W6 m c (Proc.devRef .tc main_arg1) = W5 m c (Proc.devRef .tc main_arg1) := by
    show after main_part0_ops3 (W5 m c) _ = _
    after_results_simp <;> rfl
  have e54 : W5 m c (Proc.devRef .tc main_arg1) = W4 m c (Proc.devRef .tc main_arg1) :=
    Pipeline.withArrays_of_ne spec1 c (W4 m c) _ main_arg1 (by decide)
  have e42 : W4 m c (Proc.devRef .tc main_arg1) = W2 m c (Proc.devRef .tc main_arg1) := by
    show after main_part0_ops2 (after main_part0_ops1 (W2 m c)) _ = _
    after_results_simp <;> rfl
  have e21 : W2 m c (Proc.devRef .tc main_arg1) = W1 m c (Proc.devRef .tc main_arg1) :=
    Pipeline.withArrays_of_ne spec0 c (W1 m c) _ main_arg1 (by decide)
  have e10 : W1 m c (Proc.devRef .tc main_arg1) = m ((c : Thread nD τ).loc main_arg1) := by
    show after main_part0_ops0 (W0 m c) _ = _
    after_results_simp <;> rfl
  exact e65.trans (e54.trans (e42.trans (e21.trans e10)))

theorem entry_alpha (c : Dev nD) : W6 m c (Proc.devRef .tc main_arg5) = m ((c : Thread nD τ).loc main_arg5) := by
  have e65 : W6 m c (Proc.devRef .tc main_arg5) = W5 m c (Proc.devRef .tc main_arg5) := by
    show after main_part0_ops3 (W5 m c) _ = _
    after_results_simp <;> rfl
  have e54 : W5 m c (Proc.devRef .tc main_arg5) = W4 m c (Proc.devRef .tc main_arg5) :=
    Pipeline.withArrays_of_ne spec1 c (W4 m c) _ main_arg5 (by decide)
  have e42 : W4 m c (Proc.devRef .tc main_arg5) = W2 m c (Proc.devRef .tc main_arg5) := by
    show after main_part0_ops2 (after main_part0_ops1 (W2 m c)) _ = _
    after_results_simp <;> rfl
  have e21 : W2 m c (Proc.devRef .tc main_arg5) = W1 m c (Proc.devRef .tc main_arg5) :=
    Pipeline.withArrays_of_ne spec0 c (W1 m c) _ main_arg5 (by decide)
  have e10 : W1 m c (Proc.devRef .tc main_arg5) = m ((c : Thread nD τ).loc main_arg5) := by
    show after main_part0_ops0 (W0 m c) _ = _
    after_results_simp <;> rfl
  exact e65.trans (e54.trans (e42.trans (e21.trans e10)))

theorem entry_row (c : Dev nD) : W6 m c (Proc.devRef .tc main_v1) = edgeRow (m ((c : Thread nD τ).loc main_arg2)) := by
  have e65 : W6 m c (Proc.devRef .tc main_v1) = W5 m c (Proc.devRef .tc main_v1) := by
    show after main_part0_ops3 (W5 m c) _ = _
    after_results_simp <;> rfl
  have e54 : W5 m c (Proc.devRef .tc main_v1) = W4 m c (Proc.devRef .tc main_v1) :=
    Pipeline.withArrays_of_ne spec1 c (W4 m c) _ main_v1 (by decide)
  have e42 : W4 m c (Proc.devRef .tc main_v1) = W2 m c (Proc.devRef .tc main_v1) := by
    show after main_part0_ops2 (after main_part0_ops1 (W2 m c)) _ = _
    after_results_simp <;> rfl
  have e21 : W2 m c (Proc.devRef .tc main_v1) = W1 m c (Proc.devRef .tc main_v1) :=
    Pipeline.withArrays_of_ne spec0 c (W1 m c) _ main_v1 (by decide)
  have e10 : W1 m c (Proc.devRef .tc main_v1) = edgeRow (m ((c : Thread nD τ).loc main_arg2)) := by
    show after main_part0_ops0 (W0 m c) _ = _
    after_results_simp <;> rfl
  exact e65.trans (e54.trans (e42.trans (e21.trans e10)))

theorem entry_col (c : Dev nD) : W6 m c (Proc.devRef .tc main_v3) = edgeCol (m ((c : Thread nD τ).loc main_arg2)) := by
  have e65 : W6 m c (Proc.devRef .tc main_v3) = W5 m c (Proc.devRef .tc main_v3) := by
    show after main_part0_ops3 (W5 m c) _ = _
    after_results_simp <;> rfl
  have e54 : W5 m c (Proc.devRef .tc main_v3) = W4 m c (Proc.devRef .tc main_v3) :=
    Pipeline.withArrays_of_ne spec1 c (W4 m c) _ main_v3 (by decide)
  have e42 : W4 m c (Proc.devRef .tc main_v3) = W2 m c (Proc.devRef .tc main_v3) := by
    show after main_part0_ops2 (after main_part0_ops1 (W2 m c)) _ = _
    after_results_simp <;> rfl
  have e21 : W2 m c (Proc.devRef .tc main_v3) = W1 m c (Proc.devRef .tc main_v3) :=
    Pipeline.withArrays_of_ne spec0 c (W1 m c) _ main_v3 (by decide)
  have e10 : W1 m c (Proc.devRef .tc main_v3) = edgeCol (m ((c : Thread nD τ).loc main_arg2)) := by
    show after main_part0_ops0 (W0 m c) _ = _
    after_results_simp <;> rfl
  exact e65.trans (e54.trans (e42.trans (e21.trans e10)))

/-- The kernel program's propagated column is the tail of what it holds as edge weights at the end. -/
theorem kernel_tail (c : Dev nD) :
    W12 m c (Proc.devRef .tc main_v130)
      = tailOf (W12 m c (Proc.devRef .tc main_v9)) (m ((c : Thread nD τ).loc main_arg1))
          (edgeRow (m ((c : Thread nD τ).loc main_arg2))) (edgeCol (m ((c : Thread nD τ).loc main_arg2)))
          (m ((c : Thread nD τ).loc main_arg5)) := by
  have hK := tail_result (W6 m c)
  have h9 := tail_keeps_weights (W6 m c)
  rw [entry_mask, entry_alpha, entry_row, entry_col, ← h9] at hK
  exact hK

end Before

section Reference

variable {F : FTy → Type} [FloatOps F]

/-- The reference's propagated column is the same tail of its own edge weights: its composed term is the tail's
    operations written out, the edge-weight term standing wherever the tail reads the weights. -/
theorem reference_tail
    (mR : (ℓ : Loc Cert.ReferenceIdeal.nD Cert.ReferenceIdeal.τ Cert.ReferenceIdeal.sig) → Buf (Elt F) ℓ)
    (c : Dev Cert.ReferenceIdeal.nD) (mask : Vec F S100000x1 .f32) (ei : Vec F S2x1600000 .i32) (α : Vec F S_ .f32)
    (h1 : mR ((c.tc : Thread Cert.ReferenceIdeal.nD Cert.ReferenceIdeal.τ).loc Cert.ReferenceIdeal.main_arg1) = mask)
    (h2 : mR ((c.tc : Thread Cert.ReferenceIdeal.nD Cert.ReferenceIdeal.τ).loc Cert.ReferenceIdeal.main_arg2) = ei)
    (h5 : mR ((c.tc : Thread Cert.ReferenceIdeal.nD Cert.ReferenceIdeal.τ).loc Cert.ReferenceIdeal.main_arg5) = α) :
    (Cert.ReferenceIdeal.Value.res_out0 mR c : Vec F S100000x1 .f32)
      = tailOf (Cert.ReferenceIdeal.Value.res_out1 mR c) mask (edgeRow ei) (edgeCol ei) α := by
  subst h1 h2 h5
  rfl

end Reference

/-- The two programs end with the same chain of host operations — the degree by a scatter-add over the destination
    nodes and the self loops, its clamped inverse square root, the symmetric normalisation of the edge weights, and
    five propagation steps z ↦ (1 − α) · Â z + α · relu(mask) — applied to the edge weights, the mask, the edge list
    and α. So from equal edge weights and equal arguments they reach equal propagated results. -/
theorem tail_eq (m : (ℓ : Loc nD τ sig) → Buf (Elt Ideal) ℓ)
    (mR : (ℓ : Loc Cert.ReferenceIdeal.nD Cert.ReferenceIdeal.τ Cert.ReferenceIdeal.sig) → Buf (Elt Ideal) ℓ) (c : Dev nD)
    (h1 : mR ((c.tc : Thread Cert.ReferenceIdeal.nD Cert.ReferenceIdeal.τ).loc Cert.ReferenceIdeal.main_arg1) = m ((c : Thread nD τ).loc main_arg1))
    (h2 : mR ((c.tc : Thread Cert.ReferenceIdeal.nD Cert.ReferenceIdeal.τ).loc Cert.ReferenceIdeal.main_arg2) = m ((c : Thread nD τ).loc main_arg2))
    (h5 : mR ((c.tc : Thread Cert.ReferenceIdeal.nD Cert.ReferenceIdeal.τ).loc Cert.ReferenceIdeal.main_arg5) = m ((c : Thread nD τ).loc main_arg5))
    (hew : (W12 m c (Proc.devRef .tc main_v9) : S1600000.Idx → EReal) = (Cert.ReferenceIdeal.Value.res_out1 (F := Ideal) mR c : S1600000.Idx → EReal)) :
    (W12 m c (Proc.devRef .tc main_v130) : S100000x1.Idx → EReal) = (Cert.ReferenceIdeal.Value.res_out0 (F := Ideal) mR c : S100000x1.Idx → EReal) :=
  (kernel_tail m c).trans
    ((congrArg (fun ew : Vec Ideal S1600000 .f32 => tailOf ew (m ((c : Thread nD τ).loc main_arg1))
        (edgeRow (m ((c : Thread nD τ).loc main_arg2))) (edgeCol (m ((c : Thread nD τ).loc main_arg2)))
        (m ((c : Thread nD τ).loc main_arg5))) hew).trans
      (reference_tail (F := Ideal) mR c _ _ _ h1 h2 h5).symm)

end Cert.KernelIdeal.Hand

end
-- ==== Proof.KI.PreDecode.lean ====
import proofs.«419771_j9096740733412_1_alg».proof.Defs
import proofs.«419771_j9096740733412_1_alg».proof.Proof.Gen.Pre_finite_inputs
import Idealize.ShloMosaic.Lib.StableHlo.Predicate
import Idealize.ShloMosaic.Lib.ReduceAll
import Idealize.ShloMosaic.Lib.ValueIdx

noncomputable section

namespace Cert.KernelIdeal.Hand

open Cert.KernelIdeal
open Idealize.ShloMosaic Idealize.ShloMosaic.TcCoe Idealize.SL.Sem

/-- The scalar shape has exactly one index. -/
instance subsingleton_scalar_idx : Subsingleton Cert.Pre_finite_inputs.S_.Idx :=
  ⟨fun a b => funext fun d => d.elim0⟩

/-- A 32-bit word that reads, signed, at least 0 and below 100000 reads, unsigned, below 100000:
    a nonnegative signed reading has the top bit clear, and then the two readings are the same number. -/
theorem toNat_lt_of_signed_range (w : BitVec 32)
    (h0 : IntOp.cmpi .sge w 0#32 = 1#1) (h1 : IntOp.cmpi .slt w 100000#32 = 1#1) : w.toNat < 100000 := by
  rw [IntOp.cmpi_sge, show (0#32 : BitVec 32).toInt = 0 from by decide] at h0
  rw [IntOp.cmpi_slt, show (100000#32 : BitVec 32).toInt = 100000 from by decide] at h1
  have hlt : 2 * w.toNat < 2 ^ 32 := BitVec.toInt_pos_iff.1 h0
  rw [BitVec.toInt_eq_toNat_of_lt hlt] at h1
  omega

/-- Under the stated precondition every word of `edge_index` names a node: read unsigned it is below 100000
    (the precondition's last conjunct says 0 ≤ w < 100000 of each word read signed). -/
theorem index_in_range (hF : Cert.Pre_finite_inputs.Facts)
    (m : (ℓ : Loc nD τ sig) → Buf (Elt Ideal) ℓ) (h : @Cert.Pre_KernelIdeal hF m) (c : Dev nD) (i : S2x1600000.Idx) :
    ((m ((c : Thread nD τ).loc main_arg2) : S2x1600000.Idx → BitVec 32) i).toNat < 100000 := by
  -- the precondition at the scalar result's one index
  have e := congrFun (h c) ValueIdx.ix0
  dsimp only [Cert.Pre_finite_inputs.fn, Cert.Pre_finite_inputs.fn_part1] at e
  -- the outer conjunction: its right conjunct is the all-reduce of the range mask
  have eall := (IntOp.andi_eq_one.1 e).2
  -- an all-reduce by `and` that is 1 had a 1 at every index: the mask at i
  have ei := Host.reduce_andi_all _ _ _ _ _ eall i
  -- the mask at i is the conjunction of the two signed compares against the splats of 0 and 100000
  obtain ⟨hge, hlt⟩ := IntOp.andi_eq_one.1 ei
  exact toNat_lt_of_signed_range _ hge hlt

end Cert.KernelIdeal.Hand

end
-- ==== Proof.lean ====
/-
  The certificate of a message-passing kernel against its jnp reference: node embeddings h = tanh(x · Wᵀ + b), per-edge
  cosine similarity of the two end nodes' embeddings (each norm clamped from below, the quotient clamped at zero), a
  symmetrically normalised adjacency with self loops, and five propagation steps z ↦ (1 − α) · Â z + α · relu(mask).

  The kernel computes the embedding TRANSPOSED, in blocks of 6400 nodes, in a first pallas_call whose last block overhangs
  the 100000 nodes — the rows past the array's end hold words nothing names —, gathers its columns at the edges' end
  nodes by jnp.take (which fills with NaN where an index is out of range, while the reference's h[idx] clamps: the
  stated precondition keeps every index word in [0, 100000), where the two agree), computes the similarities in a
  second pallas_call, and ends with the reference's own host chain.

  The frames: no item of @main writes an argument (Proof/KI/FrameInst.lean, and its copy about the program as printed
  for the bit-level instance), over a run whose thread states leave the buffers' contents open (Proof/KI/Run.lean),
  since at the bit level the matrix unit's result is not known to be local in the unnamed rows. The values, over the
  extended reals, where it is: what each region leaves in its arrays (Value0, Value1), the kernel's and the reference's
  edge weights as one closed form (KFront, RFront over Spec), and the shared host chain applied to them (Tail).
-/
import proofs.«419771_j9096740733412_1_alg».proof.Defs
import proofs.«419771_j9096740733412_1_alg».proof.Proof.Gen.Kernel
import proofs.«419771_j9096740733412_1_alg».proof.Proof.Gen.KernelIdeal
import proofs.«419771_j9096740733412_1_alg».proof.Proof.Gen.ReferenceIdeal
import proofs.«419771_j9096740733412_1_alg».proof.Proof.Gen.Pre_finite_inputs
import proofs.«419771_j9096740733412_1_alg».proof.Proof.Gen.ReferenceIdeal.Run
import proofs.«419771_j9096740733412_1_alg».proof.Proof.KB.FrameInst
import proofs.«419771_j9096740733412_1_alg».proof.Proof.KI.FrameInst
import proofs.«419771_j9096740733412_1_alg».proof.Proof.KI.ValueInst
import proofs.«419771_j9096740733412_1_alg».proof.Proof.KI.Value0
import proofs.«419771_j9096740733412_1_alg».proof.Proof.KI.Value1
import proofs.«419771_j9096740733412_1_alg».proof.Proof.KI.KFront
import proofs.«419771_j9096740733412_1_alg».proof.Proof.KI.RFront
import proofs.«419771_j9096740733412_1_alg».proof.Proof.KI.Tail
import proofs.«419771_j9096740733412_1_alg».proof.Proof.KI.PreDecode
import Idealize.ShloMosaic.Adequacy
import Idealize.ShloMosaic.Init

noncomputable section

namespace Cert.Proof

open Idealize.ShloMosaic Idealize.ShloMosaic.TcCoe Idealize.SL.Sem

/-- The program as printed runs to the end, faults nowhere and leaves its six arguments as launched. -/
theorem frame_K : Cert.frame_Kernel := fun m ρ _ =>
  (θ_run (Cert.Kernel.defs (F := Bits)) _ _).mono
    (fun r h c => ⟨h c Cert.Kernel.main_arg0 (by decide), h c Cert.Kernel.main_arg1 (by decide), h c Cert.Kernel.main_arg2 (by decide), h c Cert.Kernel.main_arg3 (by decide), h c Cert.Kernel.main_arg4 (by decide), h c Cert.Kernel.main_arg5 (by decide)⟩)
    (Cert.Kernel.Hand.frame_open (F := Bits) m ρ)

/-- So does its idealization. -/
theorem frame_KI : Cert.frame_KernelIdeal := fun m ρ _ =>
  (θ_run (Cert.KernelIdeal.defs (F := Ideal)) _ _).mono
    (fun r h c => ⟨h c Cert.KernelIdeal.main_arg0 (by decide), h c Cert.KernelIdeal.main_arg1 (by decide), h c Cert.KernelIdeal.main_arg2 (by decide), h c Cert.KernelIdeal.main_arg3 (by decide), h c Cert.KernelIdeal.main_arg4 (by decide), h c Cert.KernelIdeal.main_arg5 (by decide)⟩)
    (Cert.KernelIdeal.Hand.frame_open (F := Ideal) m ρ)

/-- The reference is host operations only: its run read back, the results dropped. -/
theorem frame_RI : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- An unscoped result buffer of the idealized kernel program. -/
theorem res_mem_uc (b : Ref Cert.KernelIdeal.sig .tc) (h : ¬ (Proc.devRef .tc b : DevRef Cert.KernelIdeal.τ Cert.KernelIdeal.sig).isScoped) :
    (Proc.devRef .tc b : DevRef Cert.KernelIdeal.τ Cert.KernelIdeal.sig) ∈ Pipeline.ucRefs Cert.KernelIdeal.τ Cert.KernelIdeal.sig :=
  Finset.mem_filter.mpr ⟨StableHlo.devRef_mem_tcRefs b, h⟩

/-- Over the extended reals, from memories agreeing on the arguments, both programs end with equal results: the edge
    weights are one closed form of the arguments on both sides, and the propagated field is the shared host chain of
    the edge weights and the arguments. -/
theorem algebraic : Cert.algebraic_KernelIdeal_ReferenceIdeal := by
  intro m ρ m' ρ' hpre hagree
  have hin : ∀ (c : Dev Cert.KernelIdeal.nD) (i : Cert.KernelIdeal.S2x1600000.Idx),
      ((m ((c : Thread Cert.KernelIdeal.nD Cert.KernelIdeal.τ).loc Cert.KernelIdeal.main_arg2) : Cert.KernelIdeal.S2x1600000.Idx → BitVec 32) i).toNat < 100000 :=
    fun c i => Cert.KernelIdeal.Hand.index_in_range _ m hpre c i
  refine ⟨fun c => Cert.KernelIdeal.Hand.W12 m c (Proc.devRef .tc Cert.KernelIdeal.main_v130), fun c => Cert.KernelIdeal.Hand.W12 m c (Proc.devRef .tc Cert.KernelIdeal.main_v9), ?_, ?_⟩
  · refine (θ_run (Cert.KernelIdeal.defs (F := Ideal)) _ _).mono (fun r h c => ?_) (Cert.KernelIdeal.Hand.value_open m ρ)
    have hk := Cert.KernelIdeal.Hand.keeps_W12 m c
    exact ⟨h c _ (res_mem_uc Cert.KernelIdeal.main_v130 (by decide)), h c _ (res_mem_uc Cert.KernelIdeal.main_v9 (by decide)),
      (h c _ (Cert.KernelIdeal.Hand.arg_mem_uc Cert.KernelIdeal.main_arg0 (by decide))).trans (hk Cert.KernelIdeal.main_arg0 (by decide)),
      (h c _ (Cert.KernelIdeal.Hand.arg_mem_uc Cert.KernelIdeal.main_arg1 (by decide))).trans (hk Cert.KernelIdeal.main_arg1 (by decide)),
      (h c _ (Cert.KernelIdeal.Hand.arg_mem_uc Cert.KernelIdeal.main_arg2 (by decide))).trans (hk Cert.KernelIdeal.main_arg2 (by decide)),
      (h c _ (Cert.KernelIdeal.Hand.arg_mem_uc Cert.KernelIdeal.main_arg3 (by decide))).trans (hk Cert.KernelIdeal.main_arg3 (by decide)),
      (h c _ (Cert.KernelIdeal.Hand.arg_mem_uc Cert.KernelIdeal.main_arg4 (by decide))).trans (hk Cert.KernelIdeal.main_arg4 (by decide)),
      (h c _ (Cert.KernelIdeal.Hand.arg_mem_uc Cert.KernelIdeal.main_arg5 (by decide))).trans (hk Cert.KernelIdeal.main_arg5 (by decide))⟩
  · refine (θ_run Cert.ReferenceIdeal.defs _ _).mono (fun r h c => ?_) (Cert.ReferenceIdeal.Value.run (F := Ideal) m' ρ')
    obtain ⟨h159, h38, ha0, ha1, ha2, ha3, ha4, ha5⟩ := h c
    obtain ⟨e0, e1, e2, e3, e4, e5⟩ := hagree c
    have hin' : ∀ i : Cert.ReferenceIdeal.S2x1600000.Idx,
        ((m' ((c.tc : Thread Cert.ReferenceIdeal.nD Cert.ReferenceIdeal.τ).loc Cert.ReferenceIdeal.main_arg2) : Cert.ReferenceIdeal.S2x1600000.Idx → BitVec 32) i).toNat < 100000 := by
      intro i; rw [e2]; exact hin c i
    have hew : (Cert.KernelIdeal.Hand.W12 m c (Proc.devRef .tc Cert.KernelIdeal.main_v9) : Cert.KernelIdeal.S1600000.Idx → EReal)
        = (Cert.ReferenceIdeal.Value.res_out1 (F := Ideal) m' c : Cert.KernelIdeal.S1600000.Idx → EReal) := by
      funext i
      obtain ⟨e, rfl⟩ : ∃ e : Fin 1600000, i = ValueIdx.ix1 e := ⟨i 0, ValueIdx.eq_ix1 i⟩
      rw [Cert.KernelIdeal.Hand.kfront (fun V c w hw => Cert.KernelIdeal.Hand.arrAt0_in V c w hw) Cert.KernelIdeal.Hand.arrAt0_out (fun V c w hw => Cert.KernelIdeal.Hand.arrAt1_in V c w hw) Cert.KernelIdeal.Hand.arrAt1_out m c (hin c) e]
      refine Eq.trans ?_ (Cert.ReferenceIdeal.Hand.rfront m' c hin' e).symm
      rw [e0, e2, e3, e4]
    exact ⟨h159.trans (Cert.KernelIdeal.Hand.tail_eq m m' c e1 e2 e5 hew).symm, h38.trans hew.symm, ha0, ha1, ha2, ha3, ha4, ha5⟩

theorem claim : Cert.Claim :=
  ⟨Cert.Kernel.Gen.facts, Cert.KernelIdeal.Gen.facts, Cert.ReferenceIdeal.Gen.facts, Cert.Pre_finite_inputs.Gen.facts,
    frame_K, frame_KI, frame_RI, preserves, algebraic⟩

end Cert.Proof

end
